-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v132)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v132) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2048 : Shape := ⟨2, ![50000, 2048]⟩
abbrev S2x1600000 : Shape := ⟨2, ![2, 1600000]⟩
abbrev S200000 : Shape := ⟨1, ![200000]⟩
abbrev S1024 : Shape := ⟨1, ![1024]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S50000x2048 : S_.BroadcastsInDim S50000x2048 (![] : Fin 0 → Fin S50000x2048.rank)
  reducesTo_S50000x2048_S_d0_1 : S50000x2048.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S16 .f32) (main_arg17 : FVec F S16x2 .f32) (main_arg18 : FVec F S2 .f32) (main_v63 : IVec S_ 1) (main_v67 : IVec S_ 1) : IVec S_ 1 :=
  let main_v68 : IVec S_ 1 := andi main_v63 main_v67
  let main_v69 : FVec F S16 .f32 := Host.absf main_arg16
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  let main_v74 : FVec F S16x2 .f32 := Host.absf main_arg17
  let main_cst_28 : FVec F S_ .f32 := constant S_ .f32 0x7F800000#32
  let main_v75 : FVec F S16x2 .f32 := broadcastInDim S16x2 ![] bcast_S_S16x2 main_cst_28
  let main_v76 : IVec S16x2 1 := cmpf .olt main_v74 main_v75
  let main_c_29 : IVec S_ 1 := constantI S_ 1 1#1
  let main_v77 : IVec S_ 1 := (fun x v => Host.reduce IntOp.andi x v reducesTo_S16x2_S_d0_1 h_S_) main_v76 main_c_29
  let main_v78 : IVec S_ 1 := andi main_v73 main_v77
  let main_v79 : FVec F S2 .f32 := Host.absf main_arg18
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  main_v83

def fn_part3 {F : FTy → Type} [FloatOps F] (main_arg13 : FVec F S32x16 .f32) (main_arg14 : FVec F S16 .f32) (main_arg15 : FVec F S32x16 .f32) (main_arg16 : FVec F S16 .f32) (main_arg17 : FVec F S16x2 .f32) (main_arg18 : FVec F S2 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x16 .f32 := Host.absf main_arg13
  let main_cst_20 : FVec F S_ .f32 := constant S_ .f32 0x7F800000#32
  let main_v55 : FVec F S32x16 .f32 := broadcastInDim S32x16 ![] bcast_S_S32x16 main_cst_20
  let main_v56 : IVec S32x16 1 := cmpf .olt main_v54 main_v55
  let main_c_21 : IVec S_ 1 := constantI S_ 1 1#1
  let main_v57 : IVec S_ 1 := (fun x v => Host.reduce IntOp.andi x v reducesTo_S32x16_S_d0_1 h_S_) main_v56 main_c_21
  let main_v58 : IVec S_ 1 := andi main_v53 main_v57
  let main_v59 : FVec F S16 .f32 := Host.absf main_arg14
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S32x16 .f32 := Host.absf main_arg15
  let main_cst_24 : FVec F S_ .f32 := constant S_ .f32 0x7F800000#32
  let main_v65 : FVec F S32x16 .f32 := broadcastInDim S32x16 ![] bcast_S_S32x16 main_cst_24
  let main_v66 : IVec S32x16 1 := cmpf .olt main_v64 main_v65
  let main_c_25 : IVec S_ 1 := constantI S_ 1 1#1
  let main_v67 : IVec S_ 1 := (fun x v => Host.reduce IntOp.andi x v reducesTo_S32x16_S_d0_1 h_S_) main_v66 main_c_25
  fn_part4 (F := F) main_arg16 main_arg17 main_arg18 main_v63 main_v67

def fn_part2 {F : FTy → Type} [FloatOps F] (main_arg9 : FVec F S128x64 .f32) (main_arg10 : FVec F S64 .f32) (main_arg11 : FVec F S64x32 .f32) (main_arg12 : FVec F S32 .f32) (main_arg13 : FVec F S32x16 .f32) (main_arg14 : FVec F S16 .f32) (main_arg15 : FVec F S32x16 .f32) (main_arg16 : FVec F S16 .f32) (main_arg17 : FVec F S16x2 .f32) (main_arg18 : FVec F S2 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg11
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_arg15 main_arg16 main_arg17 main_arg18 main_v48 main_v49 main_v50

def fn_part1 {F : FTy → Type} [FloatOps F] (main_arg6 : FVec F S512 .f32) (main_arg7 : FVec F S512x128 .f32) (main_arg8 : FVec F S128 .f32) (main_arg9 : FVec F S128x64 .f32) (main_arg10 : FVec F S64 .f32) (main_arg11 : FVec F S64x32 .f32) (main_arg12 : FVec F S32 .f32) (main_arg13 : FVec F S32x16 .f32) (main_arg14 : FVec F S16 .f32) (main_arg15 : FVec F S32x16 .f32) (main_arg16 : FVec F S16 .f32) (main_arg17 : FVec F S16x2 .f32) (main_arg18 : FVec F S2 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x128 .f32 := Host.absf main_arg7
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x2048 .f32) (main_arg1 : IVec S2x1600000 32) (main_arg2 : IVec S200000 32) (main_arg3 : FVec F S1024 .f32) (main_arg4 : FVec F S1024 .f32) (main_arg5 : FVec F S1024x512 .f32) (main_arg6 : FVec F S512 .f32) (main_arg7 : FVec F S512x128 .f32) (main_arg8 : FVec F S128 .f32) (main_arg9 : FVec F S128x64 .f32) (main_arg10 : FVec F S64 .f32) (main_arg11 : FVec F S64x32 .f32) (main_arg12 : FVec F S32 .f32) (main_arg13 : FVec F S32x16 .f32) (main_arg14 : FVec F S16 .f32) (main_arg15 : FVec F S32x16 .f32) (main_arg16 : FVec F S16 .f32) (main_arg17 : FVec F S16x2 .f32) (main_arg18 : FVec F S2 .f32) : IVec S_ 1 :=
  let main_v0 : FVec F S50000x2048 .f32 := Host.absf main_arg0
  let main_cst : FVec F S_ .f32 := constant S_ .f32 0x7F800000#32
  let main_v1 : FVec F S50000x2048 .f32 := broadcastInDim S50000x2048 ![] bcast_S_S50000x2048 main_cst
  let main_v2 : IVec S50000x2048 1 := cmpf .olt main_v0 main_v1
  let main_c : IVec S_ 1 := constantI S_ 1 1#1
  let main_v3 : IVec S_ 1 := (fun x v => Host.reduce IntOp.andi x v reducesTo_S50000x2048_S_d0_1 h_S_) main_v2 main_c
  let main_v4 : FVec F S1024 .f32 := Host.absf main_arg3
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x512 .f32 := Host.absf main_arg5
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x2048 : Shape := ⟨2, ![50000, 2048]⟩
abbrev S2x1600000 : Shape := ⟨2, ![2, 1600000]⟩
abbrev S200000 : Shape := ⟨1, ![200000]⟩
abbrev S1024 : Shape := ⟨1, ![1024]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x1600000 : Shape := ⟨2, ![1, 1600000]⟩
abbrev S1600000 : Shape := ⟨1, ![1600000]⟩
abbrev S1x1024 : Shape := ⟨2, ![1, 1024]⟩
abbrev S1x512 : Shape := ⟨2, ![1, 512]⟩
abbrev S1x128 : Shape := ⟨2, ![1, 128]⟩
abbrev S1x64 : Shape := ⟨2, ![1, 64]⟩
abbrev S50000x64 : Shape := ⟨2, ![50000, 64]⟩
abbrev S1000x2048 : Shape := ⟨2, ![1000, 2048]⟩
abbrev S1000x64 : Shape := ⟨2, ![1000, 64]⟩
abbrev S1000x1024x2 : Shape := ⟨3, ![1000, 1024, 2]⟩
abbrev S1000x1024 : Shape := ⟨2, ![1000, 1024]⟩
abbrev S1000 : Shape := ⟨1, ![1000]⟩
abbrev S1000x1 : Shape := ⟨2, ![1000, 1]⟩
abbrev S1000x512 : Shape := ⟨2, ![1000, 512]⟩
abbrev S1000x128 : Shape := ⟨2, ![1000, 128]⟩
abbrev S50000x32 : Shape := ⟨2, ![50000, 32]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1650000x32 : Shape := ⟨2, ![1650000, 32]⟩
abbrev S1x32 : Shape := ⟨2, ![1, 32]⟩
abbrev S50000x16 : Shape := ⟨2, ![50000, 16]⟩
abbrev S1650000x16 : Shape := ⟨2, ![1650000, 16]⟩
abbrev S1x16 : Shape := ⟨2, ![1, 16]⟩
abbrev S200000x1 : Shape := ⟨2, ![200000, 1]⟩
abbrev S2x200000 : Shape := ⟨2, ![2, 200000]⟩
abbrev S1x200000 : Shape := ⟨2, ![1, 200000]⟩
abbrev S200000x16 : Shape := ⟨2, ![200000, 16]⟩
abbrev S200000x32 : Shape := ⟨2, ![200000, 32]⟩
abbrev S200000x2 : Shape := ⟨2, ![200000, 2]⟩
abbrev S1x2 : Shape := ⟨2, ![1, 2]⟩

abbrev nBuf : Space → Nat
  | .hbm => 206
  | .vmem => 12
  | .smem => 0
  | _ => 0

abbrev hbmTy0_0 (i : Nat) : BufTy := match i % 128 with
  | 0 => ⟨S50000x2048, .f32⟩
  | 1 => ⟨S2x1600000, .i32⟩
  | 2 => ⟨S200000, .i32⟩
  | 3 => ⟨S1024, .f32⟩
  | 4 => ⟨S1024, .f32⟩
  | 5 => ⟨S1024x512, .f32⟩
  | 6 => ⟨S512, .f32⟩
  | 7 => ⟨S512x128, .f32⟩
  | 8 => ⟨S128, .f32⟩
  | 9 => ⟨S128x64, .f32⟩
  | 10 => ⟨S64, .f32⟩
  | 11 => ⟨S64x32, .f32⟩
  | 12 => ⟨S32, .f32⟩
  | 13 => ⟨S32x16, .f32⟩
  | 14 => ⟨S16, .f32⟩
  | 15 => ⟨S32x16, .f32⟩
  | 16 => ⟨S16, .f32⟩
  | 17 => ⟨S16x2, .f32⟩
  | 18 => ⟨S2, .f32⟩
  | 19 => ⟨S1x1600000, .i32⟩
  | 20 => ⟨S1600000, .i32⟩
  | 21 => ⟨S1x1600000, .i32⟩
  | 22 => ⟨S1600000, .i32⟩
  | 23 => ⟨S1024x512, .bf16⟩
  | 24 => ⟨S512x128, .bf16⟩
  | 25 => ⟨S128x64, .bf16⟩
  | 26 => ⟨S1x1024, .f32⟩
  | 27 => ⟨S1x1024, .f32⟩
  | 28 => ⟨S1x512, .f32⟩
  | 29 => ⟨S1x128, .f32⟩
  | 30 => ⟨S1x64, .f32⟩
  | 31 => ⟨S50000x64, .f32⟩
  | 32 => ⟨S50000x32, .f32⟩
  | 33 => ⟨S50000, .i32⟩
  | 34 => ⟨S1650000, .i32⟩
  | 35 => ⟨S1650000, .i32⟩
  | 36 => ⟨S_, .f32⟩
  | 37 => ⟨S1650000, .f32⟩
  | 38 => ⟨S_, .f32⟩
  | 39 => ⟨S50000, .f32⟩
  | 40 => ⟨S1650000x1, .i32⟩
  | 41 => ⟨S50000, .f32⟩
  | 42 => ⟨S_, .f32⟩
  | 43 => ⟨S50000, .f32⟩
  | 44 => ⟨S50000, .f32⟩
  | 45 => ⟨S50000, .f32⟩
  | 46 => ⟨S_, .i32⟩
  | 47 => ⟨S1650000, .i32⟩
  | 48 => ⟨S1650000, .i1⟩
  | 49 => ⟨S_, .i32⟩
  | 50 => ⟨S1650000, .i32⟩
  | 51 => ⟨S1650000, .i32⟩
  | 52 => ⟨S1650000, .i32⟩
  | 53 => ⟨S1650000x1, .i32⟩
  | 54 => ⟨S1650000, .f32⟩
  | 55 => ⟨S_, .i32⟩
  | 56 => ⟨S1650000, .i32⟩
  | 57 => ⟨S1650000, .i1⟩
  | 58 => ⟨S_, .i32⟩
  | 59 => ⟨S1650000, .i32⟩
  | 60 => ⟨S1650000, .i32⟩
  | 61 => ⟨S1650000, .i32⟩
  | 62 => ⟨S1650000x1, .i32⟩
  | 63 => ⟨S1650000, .f32⟩
  | 64 => ⟨S1650000, .f32⟩
  | 65 => ⟨S_, .i32⟩
  | 66 => ⟨S1650000, .i32⟩
  | 67 => ⟨S1650000, .i1⟩
  | 68 => ⟨S_, .i32⟩
  | 69 => ⟨S1650000, .i32⟩
  | 70 => ⟨S1650000, .i32⟩
  | 71 => ⟨S1650000, .i32⟩
  | 72 => ⟨S1650000x1, .i32⟩
  | 73 => ⟨S1650000x32, .f32⟩
  | 74 => ⟨S1650000x1, .f32⟩
  | 75 => ⟨S1650000x32, .f32⟩
  | 76 => ⟨S1650000x32, .f32⟩
  | 77 => ⟨S_, .f32⟩
  | 78 => ⟨S50000x32, .f32⟩
  | 79 => ⟨S1650000x1, .i32⟩
  | 80 => ⟨S50000x32, .f32⟩
  | 81 => ⟨S1x32, .f32⟩
  | 82 => ⟨S50000x32, .f32⟩
  | 83 => ⟨S50000x32, .f32⟩
  | 84 => ⟨S_, .f32⟩
  | 85 => ⟨S50000x32, .f32⟩
  | 86 => ⟨S50000x32, .i1⟩
  | 87 => ⟨S_, .f32⟩
  | 88 => ⟨S50000x32, .f32⟩
  | 89 => ⟨S50000x32, .i1⟩
  | 90 => ⟨S_, .f32⟩
  | 91 => ⟨S_, .f32⟩
  | 92 => ⟨S50000x32, .f32⟩
  | 93 => ⟨S50000x32, .f32⟩
  | 94 => ⟨S50000x32, .f32⟩
  | 95 => ⟨S_, .f32⟩
  | 96 => ⟨S50000x32, .f32⟩
  | 97 => ⟨S50000x32, .f32⟩
  | 98 => ⟨S50000x32, .f32⟩
  | 99 => ⟨S50000x16, .f32⟩
  | 100 => ⟨S50000, .i32⟩
  | 101 => ⟨S1650000, .i32⟩
  | 102 => ⟨S1650000, .i32⟩
  | 103 => ⟨S_, .f32⟩
  | 104 => ⟨S1650000, .f32⟩
  | 105 => ⟨S_, .f32⟩
  | 106 => ⟨S50000, .f32⟩
  | 107 => ⟨S1650000x1, .i32⟩
  | 108 => ⟨S50000, .f32⟩
  | 109 => ⟨S_, .f32⟩
  | 110 => ⟨S50000, .f32⟩
  | 111 => ⟨S50000, .f32⟩
  | 112 => ⟨S50000, .f32⟩
  | 113 => ⟨S_, .i32⟩
  | 114 => ⟨S1650000, .i32⟩
  | 115 => ⟨S1650000, .i1⟩
  | 116 => ⟨S_, .i32⟩
  | 117 => ⟨S1650000, .i32⟩
  | 118 => ⟨S1650000, .i32⟩
  | 119 => ⟨S1650000, .i32⟩
  | 120 => ⟨S1650000x1, .i32⟩
  | 121 => ⟨S1650000, .f32⟩
  | 122 => ⟨S_, .i32⟩
  | 123 => ⟨S1650000, .i32⟩
  | 124 => ⟨S1650000, .i1⟩
  | 125 => ⟨S_, .i32⟩
  | 126 => ⟨S1650000, .i32⟩
  | 127 => ⟨S1650000, .i32⟩
  | _ => ⟨S50000x2048, .f32⟩

abbrev hbmTy0_1 (i : Nat) : BufTy := match i % 128 with
  | 0 => ⟨S1650000, .i32⟩
  | 1 => ⟨S1650000x1, .i32⟩
  | 2 => ⟨S1650000, .f32⟩
  | 3 => ⟨S1650000, .f32⟩
  | 4 => ⟨S_, .i32⟩
  | 5 => ⟨S1650000, .i32⟩
  | 6 => ⟨S1650000, .i1⟩
  | 7 => ⟨S_, .i32⟩
  | 8 => ⟨S1650000, .i32⟩
  | 9 => ⟨S1650000, .i32⟩
  | 10 => ⟨S1650000, .i32⟩
  | 11 => ⟨S1650000x1, .i32⟩
  | 12 => ⟨S1650000x16, .f32⟩
  | 13 => ⟨S1650000x1, .f32⟩
  | 14 => ⟨S1650000x16, .f32⟩
  | 15 => ⟨S1650000x16, .f32⟩
  | 16 => ⟨S_, .f32⟩
  | 17 => ⟨S50000x16, .f32⟩
  | 18 => ⟨S1650000x1, .i32⟩
  | 19 => ⟨S50000x16, .f32⟩
  | 20 => ⟨S1x16, .f32⟩
  | 21 => ⟨S50000x16, .f32⟩
  | 22 => ⟨S50000x16, .f32⟩
  | 23 => ⟨S_, .i32⟩
  | 24 => ⟨S200000, .i32⟩
  | 25 => ⟨S200000, .i1⟩
  | 26 => ⟨S_, .i32⟩
  | 27 => ⟨S200000, .i32⟩
  | 28 => ⟨S200000, .i32⟩
  | 29 => ⟨S200000, .i32⟩
  | 30 => ⟨S200000x1, .i32⟩
  | 31 => ⟨S2x200000, .i32⟩
  | 32 => ⟨S1x200000, .i32⟩
  | 33 => ⟨S200000, .i32⟩
  | 34 => ⟨S_, .i32⟩
  | 35 => ⟨S200000, .i32⟩
  | 36 => ⟨S200000, .i1⟩
  | 37 => ⟨S_, .i32⟩
  | 38 => ⟨S200000, .i32⟩
  | 39 => ⟨S200000, .i32⟩
  | 40 => ⟨S200000, .i32⟩
  | 41 => ⟨S200000x1, .i32⟩
  | 42 => ⟨S200000x16, .f32⟩
  | 43 => ⟨S1x200000, .i32⟩
  | 44 => ⟨S200000, .i32⟩
  | 45 => ⟨S_, .i32⟩
  | 46 => ⟨S200000, .i32⟩
  | 47 => ⟨S200000, .i1⟩
  | 48 => ⟨S_, .i32⟩
  | 49 => ⟨S200000, .i32⟩
  | 50 => ⟨S200000, .i32⟩
  | 51 => ⟨S200000, .i32⟩
  | 52 => ⟨S200000x1, .i32⟩
  | 53 => ⟨S200000x16, .f32⟩
  | 54 => ⟨S200000x32, .f32⟩
  | 55 => ⟨S200000x16, .f32⟩
  | 56 => ⟨S1x16, .f32⟩
  | 57 => ⟨S200000x16, .f32⟩
  | 58 => ⟨S200000x16, .f32⟩
  | 59 => ⟨S_, .f32⟩
  | 60 => ⟨S200000x16, .f32⟩
  | 61 => ⟨S200000x16, .i1⟩
  | 62 => ⟨S_, .f32⟩
  | 63 => ⟨S200000x16, .f32⟩
  | 64 => ⟨S200000x16, .i1⟩
  | 65 => ⟨S_, .f32⟩
  | 66 => ⟨S_, .f32⟩
  | 67 => ⟨S200000x16, .f32⟩
  | 68 => ⟨S200000x16, .f32⟩
  | 69 => ⟨S200000x16, .f32⟩
  | 70 => ⟨S_, .f32⟩
  | 71 => ⟨S200000x16, .f32⟩
  | 72 => ⟨S200000x16, .f32⟩
  | 73 => ⟨S200000x16, .f32⟩
  | 74 => ⟨S200000x2, .f32⟩
  | 75 => ⟨S1x2, .f32⟩
  | 76 => ⟨S200000x2, .f32⟩
  | 77 => ⟨S200000x2, .f32⟩
  | _ => ⟨S50000x2048, .f32⟩

abbrev hbmTy (i : Nat) : BufTy := match i / 128 with
  | 0 => hbmTy0_0 i
  | 1 => hbmTy0_1 i
  | _ => ⟨S50000x2048, .f32⟩

abbrev bufTy : (tb : Table) → Fin (tcTables nBuf tb) → BufTy
  | .hbm, ⟨i, _⟩ => hbmTy i
  | .local _ .vmem, ⟨0, _⟩ => ⟨S1000x2048, .f32⟩
  | .local _ .vmem, ⟨1, _⟩ => ⟨S1000x2048, .f32⟩
  | .local _ .vmem, ⟨2, _⟩ => ⟨S1x1024, .f32⟩
  | .local _ .vmem, ⟨3, _⟩ => ⟨S1x1024, .f32⟩
  | .local _ .vmem, ⟨4, _⟩ => ⟨S1024x512, .bf16⟩
  | .local _ .vmem, ⟨5, _⟩ => ⟨S1x512, .f32⟩
  | .local _ .vmem, ⟨6, _⟩ => ⟨S512x128, .bf16⟩
  | .local _ .vmem, ⟨7, _⟩ => ⟨S1x128, .f32⟩
  | .local _ .vmem, ⟨8, _⟩ => ⟨S128x64, .bf16⟩
  | .local _ .vmem, ⟨9, _⟩ => ⟨S1x64, .f32⟩
  | .local _ .vmem, ⟨10, _⟩ => ⟨S1000x64, .f32⟩
  | .local _ .vmem, ⟨11, _⟩ => ⟨S1000x64, .f32⟩
  | _, _ => ⟨S50000x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_cst_0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_1 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c : Ref sig .tc := ⟨.hbm, 46, rfl⟩
abbrev main_v24 : Ref sig .tc := ⟨.hbm, 47, rfl⟩
abbrev main_v25 : Ref sig .tc := ⟨.hbm, 48, rfl⟩
abbrev main_c_2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_3 : Ref sig .tc := ⟨.hbm, 55, rfl⟩
abbrev main_v31 : Ref sig .tc := ⟨.hbm, 56, rfl⟩
abbrev main_v32 : Ref sig .tc := ⟨.hbm, 57, rfl⟩
abbrev main_c_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_5 : Ref sig .tc := ⟨.hbm, 65, rfl⟩
abbrev main_v39 : Ref sig .tc := ⟨.hbm, 66, rfl⟩
abbrev main_v40 : Ref sig .tc := ⟨.hbm, 67, rfl⟩
abbrev main_c_6 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_7 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call0_cst : Ref sig .tc := ⟨.hbm, 84, rfl⟩
abbrev main_call0_v0 : Ref sig .tc := ⟨.hbm, 85, rfl⟩
abbrev main_call0_v1 : Ref sig .tc := ⟨.hbm, 86, rfl⟩
abbrev main_call0_cst_0 : Ref sig .tc := ⟨.hbm, 87, rfl⟩
abbrev main_call0_v2 : Ref sig .tc := ⟨.hbm, 88, rfl⟩
abbrev main_call0_v3 : Ref sig .tc := ⟨.hbm, 89, rfl⟩
abbrev main_call0_cst_1 : Ref sig .tc := ⟨.hbm, 90, rfl⟩
abbrev main_call0_call0_v0 : Ref sig .tc := ⟨.hbm, 91, rfl⟩
abbrev main_call0_call0_v1 : Ref sig .tc := ⟨.hbm, 92, rfl⟩
abbrev main_call0_v4 : Ref sig .tc := ⟨.hbm, 93, rfl⟩
abbrev main_call0_v5 : Ref sig .tc := ⟨.hbm, 94, rfl⟩
abbrev main_call0_cst_2 : Ref sig .tc := ⟨.hbm, 95, rfl⟩
abbrev main_call0_v6 : Ref sig .tc := ⟨.hbm, 96, rfl⟩
abbrev main_call0_v7 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_cst_8 : Ref sig .tc := ⟨.hbm, 103, rfl⟩
abbrev main_v60 : Ref sig .tc := ⟨.hbm, 104, rfl⟩
abbrev main_cst_9 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_cst_10 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_c_11 : Ref sig .tc := ⟨.hbm, 113, rfl⟩
abbrev main_v67 : Ref sig .tc := ⟨.hbm, 114, rfl⟩
abbrev main_v68 : Ref sig .tc := ⟨.hbm, 115, rfl⟩
abbrev main_c_12 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_c_13 : Ref sig .tc := ⟨.hbm, 122, rfl⟩
abbrev main_v74 : Ref sig .tc := ⟨.hbm, 123, rfl⟩
abbrev main_v75 : Ref sig .tc := ⟨.hbm, 124, rfl⟩
abbrev main_c_14 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_c_15 : Ref sig .tc := ⟨.hbm, 132, rfl⟩
abbrev main_v82 : Ref sig .tc := ⟨.hbm, 133, rfl⟩
abbrev main_v83 : Ref sig .tc := ⟨.hbm, 134, rfl⟩
abbrev main_c_16 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_cst_17 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_c_18 : Ref sig .tc := ⟨.hbm, 151, rfl⟩
abbrev main_v98 : Ref sig .tc := ⟨.hbm, 152, rfl⟩
abbrev main_v99 : Ref sig .tc := ⟨.hbm, 153, rfl⟩
abbrev main_c_19 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_c_20 : Ref sig .tc := ⟨.hbm, 162, rfl⟩
abbrev main_v107 : Ref sig .tc := ⟨.hbm, 163, rfl⟩
abbrev main_v108 : Ref sig .tc := ⟨.hbm, 164, rfl⟩
abbrev main_c_21 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_c_22 : Ref sig .tc := ⟨.hbm, 173, rfl⟩
abbrev main_v116 : Ref sig .tc := ⟨.hbm, 174, rfl⟩
abbrev main_v117 : Ref sig .tc := ⟨.hbm, 175, rfl⟩
abbrev main_c_23 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_call1_cst : Ref sig .tc := ⟨.hbm, 187, rfl⟩
abbrev main_call1_v0 : Ref sig .tc := ⟨.hbm, 188, rfl⟩
abbrev main_call1_v1 : Ref sig .tc := ⟨.hbm, 189, rfl⟩
abbrev main_call1_cst_0 : Ref sig .tc := ⟨.hbm, 190, rfl⟩
abbrev main_call1_v2 : Ref sig .tc := ⟨.hbm, 191, rfl⟩
abbrev main_call1_v3 : Ref sig .tc := ⟨.hbm, 192, rfl⟩
abbrev main_call1_cst_1 : Ref sig .tc := ⟨.hbm, 193, rfl⟩
abbrev main_call1_call0_v0 : Ref sig .tc := ⟨.hbm, 194, rfl⟩
abbrev main_call1_call0_v1 : Ref sig .tc := ⟨.hbm, 195, rfl⟩
abbrev main_call1_v4 : Ref sig .tc := ⟨.hbm, 196, rfl⟩
abbrev main_call1_v5 : Ref sig .tc := ⟨.hbm, 197, rfl⟩
abbrev main_call1_cst_2 : Ref sig .tc := ⟨.hbm, 198, rfl⟩
abbrev main_call1_v6 : Ref sig .tc := ⟨.hbm, 199, rfl⟩
abbrev main_call1_v7 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  shapeCasts_S1024_S1x1024 : S1024.ShapeCasts S1x1024
  shapeCasts_S512_S1x512 : S512.ShapeCasts S1x512
  shapeCasts_S128_S1x128 : S128.ShapeCasts S1x128
  shapeCasts_S64_S1x64 : S64.ShapeCasts S1x64
  inb_S1000x2048_S1000x2048_0_0 : ∀ a, (![0, 0] : Fin 2 → Nat) a + S1000x2048.size a ≤ S1000x2048.size a
  h_S1000x2048 : 0 < S1000x2048.numel
  shapeCasts_S1000x2048_S1000x1024x2 : S1000x2048.ShapeCasts S1000x1024x2
  reduces_S1000x1024x2_S1000x1024 : S1000x1024x2.Reduces [2] S1000x1024
  reduces_S1000x1024_S1000 : S1000x1024.Reduces [1] S1000
  shapeCasts_S1000_S1000x1 : S1000.ShapeCasts S1000x1
  broadcasts_S1000x1_S1000x1024 : S1000x1.Broadcasts S1000x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x32_0_1 : S1650000x1.BroadcastsInDim S1650000x32 (![0, 1] : Fin 2 → Fin S1650000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S1650000x1_S1650000x16_0_1 : S1650000x1.BroadcastsInDim S1650000x16 (![0, 1] : Fin 2 → Fin S1650000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  concatenates_S200000x16_S200000x16_S200000x32_d1 : Shape.Concatenates [S200000x16, S200000x16] S200000x32 1
  bcast_S1x16_S200000x16_0_1 : S1x16.BroadcastsInDim S200000x16 (![0, 1] : Fin 2 → Fin S200000x16.rank)
  bcast_S_S200000x16 : S_.BroadcastsInDim S200000x16 (![] : Fin 0 → Fin S200000x16.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  dot_S1000x1024_S1024x512_S1000x512_1_0_0_1_n_n_wf : DotDims.WF S1000x1024 S1024x512 S1000x512 [1] [0] [0] [1] [] []
  dot_S1000x512_S512x128_S1000x128_1_0_0_1_n_n_wf : DotDims.WF S1000x512 S512x128 S1000x128 [1] [0] [0] [1] [] []
  dot_S1000x128_S128x64_S1000x64_1_0_0_1_n_n_wf : DotDims.WF S1000x128 S128x64 S1000x64 [1] [0] [0] [1] [] []
  dot_S50000x64_S64x32_S50000x32_1_0_0_1_n_n_wf : DotDims.WF S50000x64 S64x32 S50000x32 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x32_S1650000x1_S1650000x32_1_0_n_n_0_1_132_wf : GatherDims.WF S50000x32 S1650000x1 S1650000x32 [1] [0] [] [0] [] 1 ![1, 32]
  scatter_S50000x32_S1650000x1_S1650000x32_1_0_0_1_wf : ScatterDims.WF S50000x32 S1650000x1 S1650000x32 [1] [0] [0] 1
  dot_S50000x32_S32x16_S50000x16_1_0_0_1_n_n_wf : DotDims.WF S50000x32 S32x16 S50000x16 [1] [0] [0] [1] [] []
  gather_S50000x16_S1650000x1_S1650000x16_1_0_n_n_0_1_116_wf : GatherDims.WF S50000x16 S1650000x1 S1650000x16 [1] [0] [] [0] [] 1 ![1, 16]
  scatter_S50000x16_S1650000x1_S1650000x16_1_0_0_1_wf : ScatterDims.WF S50000x16 S1650000x1 S1650000x16 [1] [0] [0] 1
  gather_S2x1600000_S200000x1_S2x200000_0_1_n_n_1_1_21_wf : GatherDims.WF S2x1600000 S200000x1 S2x200000 [0] [1] [] [1] [] 1 ![2, 1]
  gather_S50000x16_S200000x1_S200000x16_1_0_n_n_0_1_116_wf : GatherDims.WF S50000x16 S200000x1 S200000x16 [1] [0] [] [0] [] 1 ![1, 16]
  dot_S200000x32_S32x16_S200000x16_1_0_0_1_n_n_wf : DotDims.WF S200000x32 S32x16 S200000x16 [1] [0] [0] [1] [] []
  dot_S200000x16_S16x2_S200000x2_1_0_0_1_n_n_wf : DotDims.WF S200000x16 S16x2 S200000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2048.size a ≤ S50000x2048.size a
  hwx0_0 : ∀ i : grid0.Coords, EltTy.bits .f32 = 32 ∨ (Rect.block (s := S50000x2048) S1000x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .bf16 = 32 ∨ (Rect.block (s := S512x128) S512x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .bf16 = 32 ∨ (Rect.block (s := S128x64) S128x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x64.size a ≤ S50000x64.size a
  hwx0_9 : ∀ i : grid0.Coords, EltTy.bits .f32 = 32 ∨ (Rect.block (s := S50000x64) S1000x64.size (cc0_transform_9 i) (hinb0_9 i)).WholeWords (EltTy.packing .f32)

variable [Facts₀]

def dot_S1000x1024_S1024x512_S1000x512_1_0_0_1_n_n : DotDims S1000x1024 S1024x512 S1000x512 where
  lhsContracting := [1]
  rhsContracting := [0]
  lhsNonContracting := [0]
  rhsNonContracting := [1]
  lhsBatch := []
  rhsBatch := []
  wf := dot_S1000x1024_S1024x512_S1000x512_1_0_0_1_n_n_wf
def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x32_S1650000x1_S1650000x32_1_0_n_n_0_1_132 : GatherDims S50000x32 S1650000x1 S1650000x32 where
  offsetDims := [1]
  collapsedSliceDims := [0]
  operandBatchingDims := []
  startIndicesBatchingDims := []
  startIndexMap := [0]
  indexVectorDim := 1
  sliceSizes := ![1, 32]
  wf := gather_S50000x32_S1650000x1_S1650000x32_1_0_n_n_0_1_132_wf
def scatter_S50000x32_S1650000x1_S1650000x32_1_0_0_1 : ScatterDims S50000x32 S1650000x1 S1650000x32 where
  updateWindowDims := [1]
  insertedWindowDims := [0]
  scatterDimsToOperandDims := [0]
  indexVectorDim := 1
  wf := scatter_S50000x32_S1650000x1_S1650000x32_1_0_0_1_wf
def dot_S50000x32_S32x16_S50000x16_1_0_0_1_n_n : DotDims S50000x32 S32x16 S50000x16 where
  lhsContracting := [1]
  rhsContracting := [0]
  lhsNonContracting := [0]
  rhsNonContracting := [1]
  lhsBatch := []
  rhsBatch := []
  wf := dot_S50000x32_S32x16_S50000x16_1_0_0_1_n_n_wf
def gather_S50000x16_S1650000x1_S1650000x16_1_0_n_n_0_1_116 : GatherDims S50000x16 S1650000x1 S1650000x16 where
  offsetDims := [1]
  collapsedSliceDims := [0]
  operandBatchingDims := []
  startIndicesBatchingDims := []
  startIndexMap := [0]
  indexVectorDim := 1
  sliceSizes := ![1, 16]
  wf := gather_S50000x16_S1650000x1_S1650000x16_1_0_n_n_0_1_116_wf
def scatter_S50000x16_S1650000x1_S1650000x16_1_0_0_1 : ScatterDims S50000x16 S1650000x1 S1650000x16 where
  updateWindowDims := [1]
  insertedWindowDims := [0]
  scatterDimsToOperandDims := [0]
  indexVectorDim := 1
  wf := scatter_S50000x16_S1650000x1_S1650000x16_1_0_0_1_wf
def gather_S2x1600000_S200000x1_S2x200000_0_1_n_n_1_1_21 : GatherDims S2x1600000 S200000x1 S2x200000 where
  offsetDims := [0]
  collapsedSliceDims := [1]
  operandBatchingDims := []
  startIndicesBatchingDims := []
  startIndexMap := [1]
  indexVectorDim := 1
  sliceSizes := ![2, 1]
  wf := gather_S2x1600000_S200000x1_S2x200000_0_1_n_n_1_1_21_wf
def gather_S50000x16_S200000x1_S200000x16_1_0_n_n_0_1_116 : GatherDims S50000x16 S200000x1 S200000x16 where
  offsetDims := [1]
  collapsedSliceDims := [0]
  operandBatchingDims := []
  startIndicesBatchingDims := []
  startIndexMap := [0]
  indexVectorDim := 1
  sliceSizes := ![1, 16]
  wf := gather_S50000x16_S200000x1_S200000x16_1_0_n_n_0_1_116_wf
def dot_S200000x32_S32x16_S200000x16_1_0_0_1_n_n : DotDims S200000x32 S32x16 S200000x16 where
  lhsContracting := [1]
  rhsContracting := [0]
  lhsNonContracting := [0]
  rhsNonContracting := [1]
  lhsBatch := []
  rhsBatch := []
  wf := dot_S200000x32_S32x16_S200000x16_1_0_0_1_n_n_wf
def dot_S200000x16_S16x2_S200000x2_1_0_0_1_n_n : DotDims S200000x16 S16x2 S200000x2 where
  lhsContracting := [1]
  rhsContracting := [0]
  lhsNonContracting := [0]
  rhsNonContracting := [1]
  lhsBatch := []
  rhsBatch := []
  wf := dot_S200000x16_S16x2_S200000x2_1_0_0_1_n_n_wf

abbrev win0_0 : Pipeline.Window sig grid0 :=
  Pipeline.Window.ofSpec (Memref.whole main_arg0) S1000x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S1000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x2048 : Shape := ⟨2, ![50000, 2048]⟩
abbrev S2x1600000 : Shape := ⟨2, ![2, 1600000]⟩
abbrev S200000 : Shape := ⟨1, ![200000]⟩
abbrev S1024 : Shape := ⟨1, ![1024]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x1600000 : Shape := ⟨2, ![1, 1600000]⟩
abbrev S1600000 : Shape := ⟨1, ![1600000]⟩
abbrev S50000x1024x2 : Shape := ⟨3, ![50000, 1024, 2]⟩
abbrev S_ : Shape := ⟨0, ![]⟩
abbrev S50000x1024 : Shape := ⟨2, ![50000, 1024]⟩
abbrev S50000 : Shape := ⟨1, ![50000]⟩
abbrev S50000x1 : Shape := ⟨2, ![50000, 1]⟩
abbrev S1x1024 : Shape := ⟨2, ![1, 1024]⟩
abbrev S50000x512 : Shape := ⟨2, ![50000, 512]⟩
abbrev S1x512 : Shape := ⟨2, ![1, 512]⟩
abbrev S50000x128 : Shape := ⟨2, ![50000, 128]⟩
abbrev S1x128 : Shape := ⟨2, ![1, 128]⟩
abbrev S50000x64 : Shape := ⟨2, ![50000, 64]⟩
abbrev S1x64 : Shape := ⟨2, ![1, 64]⟩
abbrev S50000x32 : Shape := ⟨2, ![50000, 32]⟩
abbrev S1650000 : Shape := ⟨1, ![1650000]⟩
abbrev S1650000x1 : Shape := ⟨2, ![1650000, 1]⟩
abbrev S1650000x32 : Shape := ⟨2, ![1650000, 32]⟩
abbrev S1x32 : Shape := ⟨2, ![1, 32]⟩
abbrev S50000x16 : Shape := ⟨2, ![50000, 16]⟩
abbrev S1650000x16 : Shape := ⟨2, ![1650000, 16]⟩
abbrev S1x16 : Shape := ⟨2, ![1, 16]⟩
abbrev S200000x1 : Shape := ⟨2, ![200000, 1]⟩
abbrev S2x200000 : Shape := ⟨2, ![2, 200000]⟩
abbrev S1x200000 : Shape := ⟨2, ![1, 200000]⟩
abbrev S200000x16 : Shape := ⟨2, ![200000, 16]⟩
abbrev S200000x32 : Shape := ⟨2, ![200000, 32]⟩
abbrev S200000x2 : Shape := ⟨2, ![200000, 2]⟩
abbrev S1x2 : Shape := ⟨2, ![1, 2]⟩

abbrev nBuf : Space → Nat
  | .hbm => 286
  | .vmem => 0
  | .smem => 0
  | _ => 0

abbrev hbmTy0_0 (i : Nat) : BufTy := match i % 128 with
  | 0 => ⟨S50000x2048, .f32⟩
  | 1 => ⟨S2x1600000, .i32⟩
  | 2 => ⟨S200000, .i32⟩
  | 3 => ⟨S1024, .f32⟩
  | 4 => ⟨S1024, .f32⟩
  | 5 => ⟨S1024x512, .f32⟩
  | 6 => ⟨S512, .f32⟩
  | 7 => ⟨S512x128, .f32⟩
  | 8 => ⟨S128, .f32⟩
  | 9 => ⟨S128x64, .f32⟩
  | 10 => ⟨S64, .f32⟩
  | 11 => ⟨S64x32, .f32⟩
  | 12 => ⟨S32, .f32⟩
  | 13 => ⟨S32x16, .f32⟩
  | 14 => ⟨S16, .f32⟩
  | 15 => ⟨S32x16, .f32⟩
  | 16 => ⟨S16, .f32⟩
  | 17 => ⟨S16x2, .f32⟩
  | 18 => ⟨S2, .f32⟩
  | 19 => ⟨S1x1600000, .i32⟩
  | 20 => ⟨S1600000, .i32⟩
  | 21 => ⟨S1x1600000, .i32⟩
  | 22 => ⟨S1600000, .i32⟩
  | 23 => ⟨S50000x1024x2, .f32⟩
  | 24 => ⟨S_, .f32⟩
  | 25 => ⟨S50000x1024, .f32⟩
  | 26 => ⟨S_, .f32⟩
  | 27 => ⟨S50000, .f32⟩
  | 28 => ⟨S50000x1, .f32⟩
  | 29 => ⟨S_, .f32⟩
  | 30 => ⟨S50000x1, .f32⟩
  | 31 => ⟨S50000x1, .f32⟩
  | 32 => ⟨S50000x1024, .f32⟩
  | 33 => ⟨S50000x1024, .f32⟩
  | 34 => ⟨S50000x1024, .f32⟩
  | 35 => ⟨S_, .f32⟩
  | 36 => ⟨S50000, .f32⟩
  | 37 => ⟨S50000x1, .f32⟩
  | 38 => ⟨S_, .f32⟩
  | 39 => ⟨S50000x1, .f32⟩
  | 40 => ⟨S50000x1, .f32⟩
  | 41 => ⟨S50000x1024, .f32⟩
  | 42 => ⟨S50000x1024, .f32⟩
  | 43 => ⟨S_, .f32⟩
  | 44 => ⟨S50000x1, .f32⟩
  | 45 => ⟨S50000x1, .f32⟩
  | 46 => ⟨S50000x1, .f32⟩
  | 47 => ⟨S50000x1024, .f32⟩
  | 48 => ⟨S50000x1024, .f32⟩
  | 49 => ⟨S1x1024, .f32⟩
  | 50 => ⟨S50000x1024, .f32⟩
  | 51 => ⟨S50000x1024, .f32⟩
  | 52 => ⟨S1x1024, .f32⟩
  | 53 => ⟨S50000x1024, .f32⟩
  | 54 => ⟨S50000x1024, .f32⟩
  | 55 => ⟨S50000x512, .f32⟩
  | 56 => ⟨S1x512, .f32⟩
  | 57 => ⟨S50000x512, .f32⟩
  | 58 => ⟨S50000x512, .f32⟩
  | 59 => ⟨S_, .f32⟩
  | 60 => ⟨S50000x512, .f32⟩
  | 61 => ⟨S50000x512, .i1⟩
  | 62 => ⟨S_, .f32⟩
  | 63 => ⟨S50000x512, .f32⟩
  | 64 => ⟨S50000x512, .i1⟩
  | 65 => ⟨S_, .f32⟩
  | 66 => ⟨S_, .f32⟩
  | 67 => ⟨S50000x512, .f32⟩
  | 68 => ⟨S50000x512, .f32⟩
  | 69 => ⟨S50000x512, .f32⟩
  | 70 => ⟨S_, .f32⟩
  | 71 => ⟨S50000x512, .f32⟩
  | 72 => ⟨S50000x512, .f32⟩
  | 73 => ⟨S50000x512, .f32⟩
  | 74 => ⟨S50000x128, .f32⟩
  | 75 => ⟨S1x128, .f32⟩
  | 76 => ⟨S50000x128, .f32⟩
  | 77 => ⟨S50000x128, .f32⟩
  | 78 => ⟨S_, .f32⟩
  | 79 => ⟨S50000x128, .f32⟩
  | 80 => ⟨S50000x128, .i1⟩
  | 81 => ⟨S_, .f32⟩
  | 82 => ⟨S50000x128, .f32⟩
  | 83 => ⟨S50000x128, .i1⟩
  | 84 => ⟨S_, .f32⟩
  | 85 => ⟨S_, .f32⟩
  | 86 => ⟨S50000x128, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S50000x128, .f32⟩
  | 93 => ⟨S50000x64, .f32⟩
  | 94 => ⟨S1x64, .f32⟩
  | 95 => ⟨S50000x64, .f32⟩
  | 96 => ⟨S50000x64, .f32⟩
  | 97 => ⟨S_, .f32⟩
  | 98 => ⟨S50000x64, .f32⟩
  | 99 => ⟨S50000x64, .i1⟩
  | 100 => ⟨S_, .f32⟩
  | 101 => ⟨S50000x64, .f32⟩
  | 102 => ⟨S50000x64, .i1⟩
  | 103 => ⟨S_, .f32⟩
  | 104 => ⟨S_, .f32⟩
  | 105 => ⟨S50000x64, .f32⟩
  | 106 => ⟨S50000x64, .f32⟩
  | 107 => ⟨S50000x64, .f32⟩
  | 108 => ⟨S_, .f32⟩
  | 109 => ⟨S50000x64, .f32⟩
  | 110 => ⟨S50000x64, .f32⟩
  | 111 => ⟨S50000x64, .f32⟩
  | 112 => ⟨S50000x32, .f32⟩
  | 113 => ⟨S50000, .i32⟩
  | 114 => ⟨S1650000, .i32⟩
  | 115 => ⟨S1650000, .i32⟩
  | 116 => ⟨S_, .f32⟩
  | 117 => ⟨S1650000, .f32⟩
  | 118 => ⟨S_, .f32⟩
  | 119 => ⟨S50000, .f32⟩
  | 120 => ⟨S1650000x1, .i32⟩
  | 121 => ⟨S50000, .f32⟩
  | 122 => ⟨S_, .f32⟩
  | 123 => ⟨S50000, .f32⟩
  | 124 => ⟨S50000, .f32⟩
  | 125 => ⟨S50000, .f32⟩
  | 126 => ⟨S_, .i32⟩
  | 127 => ⟨S1650000, .i32⟩
  | _ => ⟨S50000x2048, .f32⟩

abbrev hbmTy0_1 (i : Nat) : BufTy := match i % 128 with
  | 0 => ⟨S1650000, .i1⟩
  | 1 => ⟨S_, .i32⟩
  | 2 => ⟨S1650000, .i32⟩
  | 3 => ⟨S1650000, .i32⟩
  | 4 => ⟨S1650000, .i32⟩
  | 5 => ⟨S1650000x1, .i32⟩
  | 6 => ⟨S1650000, .f32⟩
  | 7 => ⟨S_, .i32⟩
  | 8 => ⟨S1650000, .i32⟩
  | 9 => ⟨S1650000, .i1⟩
  | 10 => ⟨S_, .i32⟩
  | 11 => ⟨S1650000, .i32⟩
  | 12 => ⟨S1650000, .i32⟩
  | 13 => ⟨S1650000, .i32⟩
  | 14 => ⟨S1650000x1, .i32⟩
  | 15 => ⟨S1650000, .f32⟩
  | 16 => ⟨S1650000, .f32⟩
  | 17 => ⟨S_, .i32⟩
  | 18 => ⟨S1650000, .i32⟩
  | 19 => ⟨S1650000, .i1⟩
  | 20 => ⟨S_, .i32⟩
  | 21 => ⟨S1650000, .i32⟩
  | 22 => ⟨S1650000, .i32⟩
  | 23 => ⟨S1650000, .i32⟩
  | 24 => ⟨S1650000x1, .i32⟩
  | 25 => ⟨S1650000x32, .f32⟩
  | 26 => ⟨S1650000x1, .f32⟩
  | 27 => ⟨S1650000x32, .f32⟩
  | 28 => ⟨S1650000x32, .f32⟩
  | 29 => ⟨S_, .f32⟩
  | 30 => ⟨S50000x32, .f32⟩
  | 31 => ⟨S1650000x1, .i32⟩
  | 32 => ⟨S50000x32, .f32⟩
  | 33 => ⟨S1x32, .f32⟩
  | 34 => ⟨S50000x32, .f32⟩
  | 35 => ⟨S50000x32, .f32⟩
  | 36 => ⟨S_, .f32⟩
  | 37 => ⟨S50000x32, .f32⟩
  | 38 => ⟨S50000x32, .i1⟩
  | 39 => ⟨S_, .f32⟩
  | 40 => ⟨S50000x32, .f32⟩
  | 41 => ⟨S50000x32, .i1⟩
  | 42 => ⟨S_, .f32⟩
  | 43 => ⟨S_, .f32⟩
  | 44 => ⟨S50000x32, .f32⟩
  | 45 => ⟨S50000x32, .f32⟩
  | 46 => ⟨S50000x32, .f32⟩
  | 47 => ⟨S_, .f32⟩
  | 48 => ⟨S50000x32, .f32⟩
  | 49 => ⟨S50000x32, .f32⟩
  | 50 => ⟨S50000x32, .f32⟩
  | 51 => ⟨S50000x16, .f32⟩
  | 52 => ⟨S50000, .i32⟩
  | 53 => ⟨S1650000, .i32⟩
  | 54 => ⟨S1650000, .i32⟩
  | 55 => ⟨S_, .f32⟩
  | 56 => ⟨S1650000, .f32⟩
  | 57 => ⟨S_, .f32⟩
  | 58 => ⟨S50000, .f32⟩
  | 59 => ⟨S1650000x1, .i32⟩
  | 60 => ⟨S50000, .f32⟩
  | 61 => ⟨S_, .f32⟩
  | 62 => ⟨S50000, .f32⟩
  | 63 => ⟨S50000, .f32⟩
  | 64 => ⟨S50000, .f32⟩
  | 65 => ⟨S_, .i32⟩
  | 66 => ⟨S1650000, .i32⟩
  | 67 => ⟨S1650000, .i1⟩
  | 68 => ⟨S_, .i32⟩
  | 69 => ⟨S1650000, .i32⟩
  | 70 => ⟨S1650000, .i32⟩
  | 71 => ⟨S1650000, .i32⟩
  | 72 => ⟨S1650000x1, .i32⟩
  | 73 => ⟨S1650000, .f32⟩
  | 74 => ⟨S_, .i32⟩
  | 75 => ⟨S1650000, .i32⟩
  | 76 => ⟨S1650000, .i1⟩
  | 77 => ⟨S_, .i32⟩
  | 78 => ⟨S1650000, .i32⟩
  | 79 => ⟨S1650000, .i32⟩
  | 80 => ⟨S1650000, .i32⟩
  | 81 => ⟨S1650000x1, .i32⟩
  | 82 => ⟨S1650000, .f32⟩
  | 83 => ⟨S1650000, .f32⟩
  | 84 => ⟨S_, .i32⟩
  | 85 => ⟨S1650000, .i32⟩
  | 86 => ⟨S1650000, .i1⟩
  | 87 => ⟨S_, .i32⟩
  | 88 => ⟨S1650000, .i32⟩
  | 89 => ⟨S1650000, .i32⟩
  | 90 => ⟨S1650000, .i32⟩
  | 91 => ⟨S1650000x1, .i32⟩
  | 92 => ⟨S1650000x16, .f32⟩
  | 93 => ⟨S1650000x1, .f32⟩
  | 94 => ⟨S1650000x16, .f32⟩
  | 95 => ⟨S1650000x16, .f32⟩
  | 96 => ⟨S_, .f32⟩
  | 97 => ⟨S50000x16, .f32⟩
  | 98 => ⟨S1650000x1, .i32⟩
  | 99 => ⟨S50000x16, .f32⟩
  | 100 => ⟨S1x16, .f32⟩
  | 101 => ⟨S50000x16, .f32⟩
  | 102 => ⟨S50000x16, .f32⟩
  | 103 => ⟨S_, .i32⟩
  | 104 => ⟨S200000, .i32⟩
  | 105 => ⟨S200000, .i1⟩
  | 106 => ⟨S_, .i32⟩
  | 107 => ⟨S200000, .i32⟩
  | 108 => ⟨S200000, .i32⟩
  | 109 => ⟨S200000, .i32⟩
  | 110 => ⟨S200000x1, .i32⟩
  | 111 => ⟨S2x200000, .i32⟩
  | 112 => ⟨S1x200000, .i32⟩
  | 113 => ⟨S200000, .i32⟩
  | 114 => ⟨S_, .i32⟩
  | 115 => ⟨S200000, .i32⟩
  | 116 => ⟨S200000, .i1⟩
  | 117 => ⟨S_, .i32⟩
  | 118 => ⟨S200000, .i32⟩
  | 119 => ⟨S200000, .i32⟩
  | 120 => ⟨S200000, .i32⟩
  | 121 => ⟨S200000x1, .i32⟩
  | 122 => ⟨S200000x16, .f32⟩
  | 123 => ⟨S1x200000, .i32⟩
  | 124 => ⟨S200000, .i32⟩
  | 125 => ⟨S_, .i32⟩
  | 126 => ⟨S200000, .i32⟩
  | 127 => ⟨S200000, .i1⟩
  | _ => ⟨S50000x2048, .f32⟩

abbrev hbmTy0_2 (i : Nat) : BufTy := match i % 128 with
  | 0 => ⟨S_, .i32⟩
  | 1 => ⟨S200000, .i32⟩
  | 2 => ⟨S200000, .i32⟩
  | 3 => ⟨S200000, .i32⟩
  | 4 => ⟨S200000x1, .i32⟩
  | 5 => ⟨S200000x16, .f32⟩
  | 6 => ⟨S200000x32, .f32⟩
  | 7 => ⟨S200000x16, .f32⟩
  | 8 => ⟨S1x16, .f32⟩
  | 9 => ⟨S200000x16, .f32⟩
  | 10 => ⟨S200000x16, .f32⟩
  | 11 => ⟨S_, .f32⟩
  | 12 => ⟨S200000x16, .f32⟩
  | 13 => ⟨S200000x16, .i1⟩
  | 14 => ⟨S_, .f32⟩
  | 15 => ⟨S200000x16, .f32⟩
  | 16 => ⟨S200000x16, .i1⟩
  | 17 => ⟨S_, .f32⟩
  | 18 => ⟨S_, .f32⟩
  | 19 => ⟨S200000x16, .f32⟩
  | 20 => ⟨S200000x16, .f32⟩
  | 21 => ⟨S200000x16, .f32⟩
  | 22 => ⟨S_, .f32⟩
  | 23 => ⟨S200000x16, .f32⟩
  | 24 => ⟨S200000x16, .f32⟩
  | 25 => ⟨S200000x16, .f32⟩
  | 26 => ⟨S200000x2, .f32⟩
  | 27 => ⟨S1x2, .f32⟩
  | 28 => ⟨S200000x2, .f32⟩
  | 29 => ⟨S200000x2, .f32⟩
  | _ => ⟨S50000x2048, .f32⟩

abbrev hbmTy (i : Nat) : BufTy := match i / 128 with
  | 0 => hbmTy0_0 i
  | 1 => hbmTy0_1 i
  | 2 => hbmTy0_2 i
  | _ => ⟨S50000x2048, .f32⟩

abbrev bufTy : (tb : Table) → Fin (tcTables nBuf tb) → BufTy
  | .hbm, ⟨i, _⟩ => hbmTy i
  | _, _ => ⟨S50000x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_2 : Ref sig .tc := ⟨.hbm, 35, rfl⟩
abbrev main_v13 : Ref sig .tc := ⟨.hbm, 36, rfl⟩
abbrev main_v14 : Ref sig .tc := ⟨.hbm, 37, rfl⟩
abbrev main_cst_3 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call0_cst : Ref sig .tc := ⟨.hbm, 59, rfl⟩
abbrev main_call0_v0 : Ref sig .tc := ⟨.hbm, 60, rfl⟩
abbrev main_call0_v1 : Ref sig .tc := ⟨.hbm, 61, rfl⟩
abbrev main_call0_cst_0 : Ref sig .tc := ⟨.hbm, 62, rfl⟩
abbrev main_call0_v2 : Ref sig .tc := ⟨.hbm, 63, rfl⟩
abbrev main_call0_v3 : Ref sig .tc := ⟨.hbm, 64, rfl⟩
abbrev main_call0_cst_1 : Ref sig .tc := ⟨.hbm, 65, rfl⟩
abbrev main_call0_call0_v0 : Ref sig .tc := ⟨.hbm, 66, rfl⟩
abbrev main_call0_call0_v1 : Ref sig .tc := ⟨.hbm, 67, rfl⟩
abbrev main_call0_v4 : Ref sig .tc := ⟨.hbm, 68, rfl⟩
abbrev main_call0_v5 : Ref sig .tc := ⟨.hbm, 69, rfl⟩
abbrev main_call0_cst_2 : Ref sig .tc := ⟨.hbm, 70, rfl⟩
abbrev main_call0_v6 : Ref sig .tc := ⟨.hbm, 71, rfl⟩
abbrev main_call0_v7 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_cst_0 : Ref sig .tc := ⟨.hbm, 81, rfl⟩
abbrev main_call1_v2 : Ref sig .tc := ⟨.hbm, 82, rfl⟩
abbrev main_call1_v3 : Ref sig .tc := ⟨.hbm, 83, rfl⟩
abbrev main_call1_cst_1 : Ref sig .tc := ⟨.hbm, 84, rfl⟩
abbrev main_call1_call0_v0 : Ref sig .tc := ⟨.hbm, 85, rfl⟩
abbrev main_call1_call0_v1 : Ref sig .tc := ⟨.hbm, 86, rfl⟩
abbrev main_call1_v4 : Ref sig .tc := ⟨.hbm, 87, rfl⟩
abbrev main_call1_v5 : Ref sig .tc := ⟨.hbm, 88, rfl⟩
abbrev main_call1_cst_2 : Ref sig .tc := ⟨.hbm, 89, rfl⟩
abbrev main_call1_v6 : Ref sig .tc := ⟨.hbm, 90, rfl⟩
abbrev main_call1_v7 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_call2_cst : Ref sig .tc := ⟨.hbm, 97, rfl⟩
abbrev main_call2_v0 : Ref sig .tc := ⟨.hbm, 98, rfl⟩
abbrev main_call2_v1 : Ref sig .tc := ⟨.hbm, 99, rfl⟩
abbrev main_call2_cst_0 : Ref sig .tc := ⟨.hbm, 100, rfl⟩
abbrev main_call2_v2 : Ref sig .tc := ⟨.hbm, 101, rfl⟩
abbrev main_call2_v3 : Ref sig .tc := ⟨.hbm, 102, rfl⟩
abbrev main_call2_cst_1 : Ref sig .tc := ⟨.hbm, 103, rfl⟩
abbrev main_call2_call0_v0 : Ref sig .tc := ⟨.hbm, 104, rfl⟩
abbrev main_call2_call0_v1 : Ref sig .tc := ⟨.hbm, 105, rfl⟩
abbrev main_call2_v4 : Ref sig .tc := ⟨.hbm, 106, rfl⟩
abbrev main_call2_v5 : Ref sig .tc := ⟨.hbm, 107, rfl⟩
abbrev main_call2_cst_2 : Ref sig .tc := ⟨.hbm, 108, rfl⟩
abbrev main_call2_v6 : Ref sig .tc := ⟨.hbm, 109, rfl⟩
abbrev main_call2_v7 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_cst_5 : Ref sig .tc := ⟨.hbm, 116, rfl⟩
abbrev main_v49 : Ref sig .tc := ⟨.hbm, 117, rfl⟩
abbrev main_cst_6 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_cst_7 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_c : Ref sig .tc := ⟨.hbm, 126, rfl⟩
abbrev main_v56 : Ref sig .tc := ⟨.hbm, 127, rfl⟩
abbrev main_v57 : Ref sig .tc := ⟨.hbm, 128, rfl⟩
abbrev main_c_8 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_c_9 : Ref sig .tc := ⟨.hbm, 135, rfl⟩
abbrev main_v63 : Ref sig .tc := ⟨.hbm, 136, rfl⟩
abbrev main_v64 : Ref sig .tc := ⟨.hbm, 137, rfl⟩
abbrev main_c_10 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_c_11 : Ref sig .tc := ⟨.hbm, 145, rfl⟩
abbrev main_v71 : Ref sig .tc := ⟨.hbm, 146, rfl⟩
abbrev main_v72 : Ref sig .tc := ⟨.hbm, 147, rfl⟩
abbrev main_c_12 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_cst_13 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_call3_cst : Ref sig .tc := ⟨.hbm, 164, rfl⟩
abbrev main_call3_v0 : Ref sig .tc := ⟨.hbm, 165, rfl⟩
abbrev main_call3_v1 : Ref sig .tc := ⟨.hbm, 166, rfl⟩
abbrev main_call3_cst_0 : Ref sig .tc := ⟨.hbm, 167, rfl⟩
abbrev main_call3_v2 : Ref sig .tc := ⟨.hbm, 168, rfl⟩
abbrev main_call3_v3 : Ref sig .tc := ⟨.hbm, 169, rfl⟩
abbrev main_call3_cst_1 : Ref sig .tc := ⟨.hbm, 170, rfl⟩
abbrev main_call3_call0_v0 : Ref sig .tc := ⟨.hbm, 171, rfl⟩
abbrev main_call3_call0_v1 : Ref sig .tc := ⟨.hbm, 172, rfl⟩
abbrev main_call3_v4 : Ref sig .tc := ⟨.hbm, 173, rfl⟩
abbrev main_call3_v5 : Ref sig .tc := ⟨.hbm, 174, rfl⟩
abbrev main_call3_cst_2 : Ref sig .tc := ⟨.hbm, 175, rfl⟩
abbrev main_call3_v6 : Ref sig .tc := ⟨.hbm, 176, rfl⟩
abbrev main_call3_v7 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_v90 : Ref sig .tc := ⟨.hbm, 181, rfl⟩
abbrev main_v91 : Ref sig .tc := ⟨.hbm, 182, rfl⟩
abbrev main_cst_14 : Ref sig .tc := ⟨.hbm, 183, rfl⟩
abbrev main_v92 : Ref sig .tc := ⟨.hbm, 184, rfl⟩
abbrev main_cst_15 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_cst_16 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_c_17 : Ref sig .tc := ⟨.hbm, 193, rfl⟩
abbrev main_v99 : Ref sig .tc := ⟨.hbm, 194, rfl⟩
abbrev main_v100 : Ref sig .tc := ⟨.hbm, 195, rfl⟩
abbrev main_c_18 : Ref sig .tc := ⟨.hbm, 196, rfl⟩
abbrev main_v101 : Ref sig .tc := ⟨.hbm, 197, rfl⟩
abbrev main_v102 : Ref sig .tc := ⟨.hbm, 198, rfl⟩
abbrev main_v103 : Ref sig .tc := ⟨.hbm, 199, rfl⟩
abbrev main_v104 : Ref sig .tc := ⟨.hbm, 200, rfl⟩
abbrev main_v105 : Ref sig .tc := ⟨.hbm, 201, rfl⟩
abbrev main_c_19 : Ref sig .tc := ⟨.hbm, 202, rfl⟩
abbrev main_v106 : Ref sig .tc := ⟨.hbm, 203, rfl⟩
abbrev main_v107 : Ref sig .tc := ⟨.hbm, 204, rfl⟩
abbrev main_c_20 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_v113 : Ref sig .tc := ⟨.hbm, 211, rfl⟩
abbrev main_c_21 : Ref sig .tc := ⟨.hbm, 212, rfl⟩
abbrev main_v114 : Ref sig .tc := ⟨.hbm, 213, rfl⟩
abbrev main_v115 : Ref sig .tc := ⟨.hbm, 214, rfl⟩
abbrev main_c_22 : Ref sig .tc := ⟨.hbm, 215, rfl⟩
abbrev main_v116 : Ref sig .tc := ⟨.hbm, 216, rfl⟩
abbrev main_v117 : Ref sig .tc := ⟨.hbm, 217, rfl⟩
abbrev main_v118 : Ref sig .tc := ⟨.hbm, 218, rfl⟩
abbrev main_v119 : Ref sig .tc := ⟨.hbm, 219, rfl⟩
abbrev main_v120 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_cst_23 : Ref sig .tc := ⟨.hbm, 224, rfl⟩
abbrev main_v124 : Ref sig .tc := ⟨.hbm, 225, rfl⟩
abbrev main_v125 : Ref sig .tc := ⟨.hbm, 226, rfl⟩
abbrev main_v126 : Ref sig .tc := ⟨.hbm, 227, rfl⟩
abbrev main_v127 : Ref sig .tc := ⟨.hbm, 228, rfl⟩
abbrev main_v128 : Ref sig .tc := ⟨.hbm, 229, rfl⟩
abbrev main_v129 : Ref sig .tc := ⟨.hbm, 230, rfl⟩
abbrev main_c_24 : Ref sig .tc := ⟨.hbm, 231, rfl⟩
abbrev main_v130 : Ref sig .tc := ⟨.hbm, 232, rfl⟩
abbrev main_v131 : Ref sig .tc := ⟨.hbm, 233, rfl⟩
abbrev main_c_25 : Ref sig .tc := ⟨.hbm, 234, rfl⟩
abbrev main_v132 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_v136 : Ref sig .tc := ⟨.hbm, 239, rfl⟩
abbrev main_v137 : Ref sig .tc := ⟨.hbm, 240, rfl⟩
abbrev main_v138 : Ref sig .tc := ⟨.hbm, 241, rfl⟩
abbrev main_c_26 : Ref sig .tc := ⟨.hbm, 242, rfl⟩
abbrev main_v139 : Ref sig .tc := ⟨.hbm, 243, rfl⟩
abbrev main_v140 : Ref sig .tc := ⟨.hbm, 244, rfl⟩
abbrev main_c_27 : Ref sig .tc := ⟨.hbm, 245, rfl⟩
abbrev main_v141 : Ref sig .tc := ⟨.hbm, 246, rfl⟩
abbrev main_v142 : Ref sig .tc := ⟨.hbm, 247, rfl⟩
abbrev main_v143 : Ref sig .tc := ⟨.hbm, 248, rfl⟩
abbrev main_v144 : Ref sig .tc := ⟨.hbm, 249, rfl⟩
abbrev main_v145 : Ref sig .tc := ⟨.hbm, 250, rfl⟩
abbrev main_v146 : Ref sig .tc := ⟨.hbm, 251, rfl⟩
abbrev main_v147 : Ref sig .tc := ⟨.hbm, 252, rfl⟩
abbrev main_c_28 : Ref sig .tc := ⟨.hbm, 253, rfl⟩
abbrev main_v148 : Ref sig .tc := ⟨.hbm, 254, rfl⟩
abbrev main_v149 : Ref sig .tc := ⟨.hbm, 255, rfl⟩
abbrev main_c_29 : Ref sig .tc := ⟨.hbm, 256, rfl⟩
abbrev main_v150 : Ref sig .tc := ⟨.hbm, 257, rfl⟩
abbrev main_v151 : Ref sig .tc := ⟨.hbm, 258, rfl⟩
abbrev main_v152 : Ref sig .tc := ⟨.hbm, 259, rfl⟩
abbrev main_v153 : Ref sig .tc := ⟨.hbm, 260, rfl⟩
abbrev main_v154 : Ref sig .tc := ⟨.hbm, 261, rfl⟩
abbrev main_v155 : Ref sig .tc := ⟨.hbm, 262, rfl⟩
abbrev main_v156 : Ref sig .tc := ⟨.hbm, 263, rfl⟩
abbrev main_v157 : Ref sig .tc := ⟨.hbm, 264, rfl⟩
abbrev main_v158 : Ref sig .tc := ⟨.hbm, 265, rfl⟩
abbrev main_v159 : Ref sig .tc := ⟨.hbm, 266, rfl⟩
abbrev main_call4_cst : Ref sig .tc := ⟨.hbm, 267, rfl⟩
abbrev main_call4_v0 : Ref sig .tc := ⟨.hbm, 268, rfl⟩
abbrev main_call4_v1 : Ref sig .tc := ⟨.hbm, 269, rfl⟩
abbrev main_call4_cst_0 : Ref sig .tc := ⟨.hbm, 270, rfl⟩
abbrev main_call4_v2 : Ref sig .tc := ⟨.hbm, 271, rfl⟩
abbrev main_call4_v3 : Ref sig .tc := ⟨.hbm, 272, rfl⟩
abbrev main_call4_cst_1 : Ref sig .tc := ⟨.hbm, 273, rfl⟩
abbrev main_call4_call0_v0 : Ref sig .tc := ⟨.hbm, 274, rfl⟩
abbrev main_call4_call0_v1 : Ref sig .tc := ⟨.hbm, 275, rfl⟩
abbrev main_call4_v4 : Ref sig .tc := ⟨.hbm, 276, rfl⟩
abbrev main_call4_v5 : Ref sig .tc := ⟨.hbm, 277, rfl⟩
abbrev main_call4_cst_2 : Ref sig .tc := ⟨.hbm, 278, rfl⟩
abbrev main_call4_v6 : Ref sig .tc := ⟨.hbm, 279, rfl⟩
abbrev main_call4_v7 : Ref sig .tc := ⟨.hbm, 280, rfl⟩
abbrev main_v160 : Ref sig .tc := ⟨.hbm, 281, rfl⟩
abbrev main_v161 : Ref sig .tc := ⟨.hbm, 282, rfl⟩
abbrev main_v162 : Ref sig .tc := ⟨.hbm, 283, rfl⟩
abbrev main_v163 : Ref sig .tc := ⟨.hbm, 284, rfl⟩
abbrev main_v164 : Ref sig .tc := ⟨.hbm, 285, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S50000x2048_S50000x1024x2 : S50000x2048.ShapeCasts S50000x1024x2
  reducesTo_S50000x1024x2_S50000x1024_d2 : S50000x1024x2.ReducesTo [2] S50000x1024
  h_S_ : 0 < S_.numel
  reducesTo_S50000x1024_S50000_d1 : S50000x1024.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x1024_0_1 : S50000x1.BroadcastsInDim S50000x1024 (![0, 1] : Fin 2 → Fin S50000x1024.rank)
  bcast_S1024_S1x1024_1 : S1024.BroadcastsInDim S1x1024 (![1] : Fin 1 → Fin S1x1024.rank)
  bcast_S1x1024_S50000x1024_0_1 : S1x1024.BroadcastsInDim S50000x1024 (![0, 1] : Fin 2 → Fin S50000x1024.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x32_0_1 : S1650000x1.BroadcastsInDim S1650000x32 (![0, 1] : Fin 2 → Fin S1650000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S1650000x1_S1650000x16_0_1 : S1650000x1.BroadcastsInDim S1650000x16 (![0, 1] : Fin 2 → Fin S1650000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  concatenates_S200000x16_S200000x16_S200000x32_d1 : Shape.Concatenates [S200000x16, S200000x16] S200000x32 1
  bcast_S1x16_S200000x16_0_1 : S1x16.BroadcastsInDim S200000x16 (![0, 1] : Fin 2 → Fin S200000x16.rank)
  bcast_S_S200000x16 : S_.BroadcastsInDim S200000x16 (![] : Fin 0 → Fin S200000x16.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  dot_S50000x1024_S1024x512_S50000x512_1_0_0_1_n_n_wf : DotDims.WF S50000x1024 S1024x512 S50000x512 [1] [0] [0] [1] [] []
  dot_S50000x512_S512x128_S50000x128_1_0_0_1_n_n_wf : DotDims.WF S50000x512 S512x128 S50000x128 [1] [0] [0] [1] [] []
  dot_S50000x128_S128x64_S50000x64_1_0_0_1_n_n_wf : DotDims.WF S50000x128 S128x64 S50000x64 [1] [0] [0] [1] [] []
  dot_S50000x64_S64x32_S50000x32_1_0_0_1_n_n_wf : DotDims.WF S50000x64 S64x32 S50000x32 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x32_S1650000x1_S1650000x32_1_0_n_n_0_1_132_wf : GatherDims.WF S50000x32 S1650000x1 S1650000x32 [1] [0] [] [0] [] 1 ![1, 32]
  scatter_S50000x32_S1650000x1_S1650000x32_1_0_0_1_wf : ScatterDims.WF S50000x32 S1650000x1 S1650000x32 [1] [0] [0] 1
  dot_S50000x32_S32x16_S50000x16_1_0_0_1_n_n_wf : DotDims.WF S50000x32 S32x16 S50000x16 [1] [0] [0] [1] [] []
  gather_S50000x16_S1650000x1_S1650000x16_1_0_n_n_0_1_116_wf : GatherDims.WF S50000x16 S1650000x1 S1650000x16 [1] [0] [] [0] [] 1 ![1, 16]
  scatter_S50000x16_S1650000x1_S1650000x16_1_0_0_1_wf : ScatterDims.WF S50000x16 S1650000x1 S1650000x16 [1] [0] [0] 1
  gather_S2x1600000_S200000x1_S2x200000_0_1_n_n_1_1_21_wf : GatherDims.WF S2x1600000 S200000x1 S2x200000 [0] [1] [] [1] [] 1 ![2, 1]
  gather_S50000x16_S200000x1_S200000x16_1_0_n_n_0_1_116_wf : GatherDims.WF S50000x16 S200000x1 S200000x16 [1] [0] [] [0] [] 1 ![1, 16]
  dot_S200000x32_S32x16_S200000x16_1_0_0_1_n_n_wf : DotDims.WF S200000x32 S32x16 S200000x16 [1] [0] [0] [1] [] []
  dot_S200000x16_S16x2_S200000x2_1_0_0_1_n_n_wf : DotDims.WF S200000x16 S16x2 S200000x2 [1] [0] [0] [1] [] []

variable [Facts₀]

def dot_S50000x1024_S1024x512_S50000x512_1_0_0_1_n_n : DotDims S50000x1024 S1024x512 S50000x512 where
  lhsContracting := [1]
  rhsContracting := [0]
  lhsNonContracting := [0]
  rhsNonContracting := [1]
  lhsBatch := []
  rhsBatch := []
  wf := dot_S50000x1024_S1024x512_S50000x512_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x32_S1650000x1_S1650000x32_1_0_n_n_0_1_132 : GatherDims S50000x32 S1650000x1 S1650000x32 where
  offsetDims := [1]
  collapsedSliceDims := [0]
  operandBatchingDims := []
  startIndicesBatchingDims := []
  startIndexMap := [0]
  indexVectorDim := 1
  sliceSizes := ![1, 32]
  wf := gather_S50000x32_S1650000x1_S1650000x32_1_0_n_n_0_1_132_wf
def scatter_S50000x32_S1650000x1_S1650000x32_1_0_0_1 : ScatterDims S50000x32 S1650000x1 S1650000x32 where
  updateWindowDims := [1]
  insertedWindowDims := [0]
  scatterDimsToOperandDims := [0]
  indexVectorDim := 1
  wf := scatter_S50000x32_S1650000x1_S1650000x32_1_0_0_1_wf
def dot_S50000x32_S32x16_S50000x16_1_0_0_1_n_n : DotDims S50000x32 S32x16 S50000x16 where
  lhsContracting := [1]
  rhsContracting := [0]
  lhsNonContracting := [0]
  rhsNonContracting := [1]
  lhsBatch := []
  rhsBatch := []
  wf := dot_S50000x32_S32x16_S50000x16_1_0_0_1_n_n_wf
def gather_S50000x16_S1650000x1_S1650000x16_1_0_n_n_0_1_116 : GatherDims S50000x16 S1650000x1 S1650000x16 where
  offsetDims := [1]
  collapsedSliceDims := [0]
  operandBatchingDims := []
  startIndicesBatchingDims := []
  startIndexMap := [0]
  indexVectorDim := 1
  sliceSizes := ![1, 16]
  wf := gather_S50000x16_S1650000x1_S1650000x16_1_0_n_n_0_1_116_wf
def scatter_S50000x16_S1650000x1_S1650000x16_1_0_0_1 : ScatterDims S50000x16 S1650000x1 S1650000x16 where
  updateWindowDims := [1]
  insertedWindowDims := [0]
  scatterDimsToOperandDims := [0]
  indexVectorDim := 1
  wf := scatter_S50000x16_S1650000x1_S1650000x16_1_0_0_1_wf
def gather_S2x1600000_S200000x1_S2x200000_0_1_n_n_1_1_21 : GatherDims S2x1600000 S200000x1 S2x200000 where
  offsetDims := [0]
  collapsedSliceDims := [1]
  operandBatchingDims := []
  startIndicesBatchingDims := []
  startIndexMap := [1]
  indexVectorDim := 1
  sliceSizes := ![2, 1]
  wf := gather_S2x1600000_S200000x1_S2x200000_0_1_n_n_1_1_21_wf
def gather_S50000x16_S200000x1_S200000x16_1_0_n_n_0_1_116 : GatherDims S50000x16 S200000x1 S200000x16 where
  offsetDims := [1]
  collapsedSliceDims := [0]
  operandBatchingDims := []
  startIndicesBatchingDims := []
  startIndexMap := [0]
  indexVectorDim := 1
  sliceSizes := ![1, 16]
  wf := gather_S50000x16_S200000x1_S200000x16_1_0_n_n_0_1_116_wf
def dot_S200000x32_S32x16_S200000x16_1_0_0_1_n_n : DotDims S200000x32 S32x16 S200000x16 where
  lhsContracting := [1]
  rhsContracting := [0]
  lhsNonContracting := [0]
  rhsNonContracting := [1]
  lhsBatch := []
  rhsBatch := []
  wf := dot_S200000x32_S32x16_S200000x16_1_0_0_1_n_n_wf
def dot_S200000x16_S16x2_S200000x2_1_0_0_1_n_n : DotDims S200000x16 S16x2 S200000x2 where
  lhsContracting := [1]
  rhsContracting := [0]
  lhsNonContracting := [0]
  rhsNonContracting := [1]
  lhsBatch := []
  rhsBatch := []
  wf := dot_S200000x16_S16x2_S200000x2_1_0_0_1_n_n_wf

class Facts : Prop extends Facts₀ where

variable [Facts]
-- ==== Proof.BSfx.lean ====
import proofs.«154459_j82652350644592_1_alg».proof.Proof.Gen.Kernel.Launch
import Idealize.ShloMosaic.Lib.Pipeline.FrameBody
import Idealize.ShloMosaic.Lib.Pipeline.FrameSuffix

/-! # @main around its one region

The kernel program's @main is: twelve host lines, the one region, and one hundred and seventy-four host lines in
five stretches. This module states what the region finds in each buffer (`V0`, `V`), that @main reduces to the
region continued by the later stretches (`hmain`), and the three facts the frame run asks of those stretches: they
touch unscoped references only, allocate nothing, and write no array of the pipeline. The last is proved from ONE
list of the references the later lines write (`wrTail`): each line writes its own result, a member of the list, and
no array of the pipeline and no argument of @main is a member. -/

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## The contents the region finds, and the later stretches -/

/-- Core `c`'s buffer contents when the region is entered: after the twelve host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The five stretches of host lines after the region, in order. -/
abbrev tailOps : List (List (HloOp τ sig (Elt F))) := [hostOps1, hostOps1_1, hostOps1_2, hostOps1_3, hostOps1_4]

/-! ## What the host lines write -/

/-- The references the twelve lines before the region write: each its own result. -/
def wrPre : List (Ref sig .tc) :=
  [main_v0, main_v1, main_v2, main_v3, main_v4, main_v5, main_v6, main_v7, main_v8, main_v9, main_v10, main_v11]

/-- The references the lines of the first stretch after the region write, -/
def wr1 : List (Ref sig .tc) :=
  [main_v13, main_v14, main_v15, main_v16, main_cst, main_v17, main_cst_0, main_v18, main_v19, main_v20,
   main_cst_1, main_v21, main_v22, main_v23, main_c, main_v24, main_v25, main_c_2, main_v26, main_v27, main_v28,
   main_v29, main_v30, main_c_3, main_v31, main_v32, main_c_4, main_v33, main_v34, main_v35, main_v36, main_v37,
   main_v38, main_c_5, main_v39, main_v40, main_c_6, main_v41, main_v42, main_v43, main_v44, main_v45, main_v46,
   main_v47, main_v48, main_cst_7, main_v49, main_v50, main_v51, main_v52, main_v53, main_v54]
/-- of the second (the first inlined call), -/
def wr1_1 : List (Ref sig .tc) :=
  [main_call0_cst, main_call0_v0, main_call0_v1, main_call0_cst_0, main_call0_v2, main_call0_v3, main_call0_cst_1,
   main_call0_call0_v0, main_call0_call0_v1, main_call0_v4, main_call0_v5, main_call0_cst_2, main_call0_v6,
   main_call0_v7, main_v55]
/-- of the third, -/
def wr1_2 : List (Ref sig .tc) :=
  [main_v56, main_v57, main_v58, main_v59, main_cst_8, main_v60, main_cst_9, main_v61, main_v62, main_v63,
   main_cst_10, main_v64, main_v65, main_v66, main_c_11, main_v67, main_v68, main_c_12, main_v69, main_v70,
   main_v71, main_v72, main_v73, main_c_13, main_v74, main_v75, main_c_14, main_v76, main_v77, main_v78, main_v79,
   main_v80, main_v81, main_c_15, main_v82, main_v83, main_c_16, main_v84, main_v85, main_v86, main_v87, main_v88,
   main_v89, main_v90, main_v91, main_cst_17, main_v92, main_v93, main_v94, main_v95, main_v96, main_v97,
   main_c_18, main_v98, main_v99, main_c_19, main_v100, main_v101, main_v102, main_v103, main_v104, main_v105,
   main_v106, main_c_20, main_v107, main_v108, main_c_21, main_v109, main_v110, main_v111, main_v112, main_v113,
   main_v114, main_v115, main_c_22, main_v116, main_v117, main_c_23, main_v118, main_v119, main_v120, main_v121,
   main_v122, main_v123, main_v124, main_v125, main_v126, main_v127]
/-- of the fourth (the second inlined call), -/
def wr1_3 : List (Ref sig .tc) :=
  [main_call1_cst, main_call1_v0, main_call1_v1, main_call1_cst_0, main_call1_v2, main_call1_v3, main_call1_cst_1,
   main_call1_call0_v0, main_call1_call0_v1, main_call1_v4, main_call1_v5, main_call1_cst_2, main_call1_v6,
   main_call1_v7, main_v128]
/-- of the fifth, -/
def wr1_4 : List (Ref sig .tc) :=
  [main_v129, main_v130, main_v131, main_v132]
/-- and of all five together. -/
def wrTail : List (Ref sig .tc) := wr1 ++ (wr1_1 ++ (wr1_2 ++ (wr1_3 ++ wr1_4)))

/-- A list of references as a set of device buffers. -/
abbrev asBufs (W : List (Ref sig .tc)) : Finset (DevRef τ sig) := (W.map (Proc.devRef (τ := τ) .tc)).toFinset

/-- Each line before the region writes a member of `wrPre`. -/
theorem hostOps0_wr : (List.flatten [hostOps0] : List (HloOp τ sig (Elt F))).Forall fun op => op.writes ⊆ asBufs wrPre := by
  simp only [hostOps0, List.flatten_cons, List.flatten_nil, List.append_nil, List.Forall, StableHlo.nullary_writes,
    StableHlo.unary_writes, StableHlo.binary_writes, StableHlo.ternary_writes, StableHlo.reshape_writes,
    Finset.singleton_subset_iff, List.mem_toFinset]
  repeat' apply And.intro
  all_goals exact List.mem_map_of_mem (by decide)

/-- Each line of the first stretch after the region writes a member of `wrTail`. -/
theorem hostOps1_wr : (hostOps1 : List (HloOp τ sig (Elt F))).Forall fun op => op.writes ⊆ asBufs wrTail := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- Each line of the second stretch after the region writes a member of `wrTail`. -/
theorem hostOps1_1_wr : (hostOps1_1 : List (HloOp τ sig (Elt F))).Forall fun op => op.writes ⊆ asBufs wrTail := by
  simp only [hostOps1_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

set_option maxHeartbeats 4000000 in
/-- Each line of the third stretch after the region writes a member of `wrTail`. -/
theorem hostOps1_2_wr : (hostOps1_2 : List (HloOp τ sig (Elt F))).Forall fun op => op.writes ⊆ asBufs wrTail := by
  simp only [hostOps1_2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- Each line of the fourth stretch after the region writes a member of `wrTail`. -/
theorem hostOps1_3_wr : (hostOps1_3 : List (HloOp τ sig (Elt F))).Forall fun op => op.writes ⊆ asBufs wrTail := by
  simp only [hostOps1_3, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- Each line of the fifth stretch after the region writes a member of `wrTail`. -/
theorem hostOps1_4_wr : (hostOps1_4 : List (HloOp τ sig (Elt F))).Forall fun op => op.writes ⊆ asBufs wrTail := by
  simp only [hostOps1_4, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- So does each line of the five stretches run as one. -/
theorem tail_wr : (List.flatten tailOps : List (HloOp τ sig (Elt F))).Forall fun op => op.writes ⊆ asBufs wrTail := by
  rw [List.forall_iff_forall_mem]
  intro op hop
  obtain ⟨ops, hops, hop⟩ := List.mem_flatten.mp hop
  simp only [tailOps, List.mem_cons, List.mem_nil_iff, or_false] at hops
  rcases hops with rfl | rfl | rfl | rfl | rfl
  · exact (List.forall_iff_forall_mem.mp hostOps1_wr) op hop
  · exact (List.forall_iff_forall_mem.mp hostOps1_1_wr) op hop
  · exact (List.forall_iff_forall_mem.mp hostOps1_2_wr) op hop
  · exact (List.forall_iff_forall_mem.mp hostOps1_3_wr) op hop
  · exact (List.forall_iff_forall_mem.mp hostOps1_4_wr) op hop

/-- A reference outside a list holding every reference the lines write is written by none of them. -/
theorem not_writes_of {W : List (Ref sig .tc)} {ops : List (HloOp τ sig (Elt F))}
    (hW : ops.Forall fun op => op.writes ⊆ asBufs W) {r : Ref sig .tc} (hr : r ∉ W) :
    ∀ op ∈ ops, Proc.devRef (τ := τ) .tc r ∉ op.writes := fun op hop hb => by
  obtain ⟨y, hy, he⟩ := List.mem_map.mp (List.mem_toFinset.mp ((List.forall_iff_forall_mem.mp hW) op hop hb))
  exact hr (Proc.devRef_injective _ he ▸ hy)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main at the certificate's variants `𝒱₀`: the host lines before the region, the region, the five stretches after it —
    it reduces to the region CONTINUED BY those stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-- The later lines touch the pipeline's arrays and the bypassing buffers only: each line's buffers are unscoped
    TensorCore references, and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
/-- And write no array of the pipeline: no array is among the references they write. -/
theorem sfx_keeps : ∀ ops ∈ (tailOps : List (List (HloOp τ sig (Elt F)))), ∀ op ∈ ops,
    ∀ w, Proc.devRef .tc (Pipeline.arrRef spec0 w) ∉ op.writes := by
  intro ops hops op hop w
  exact not_writes_of tail_wr ((by decide : ∀ w, Pipeline.arrRef spec0 w ∉ wrTail) w) op
    (List.mem_flatten.mpr ⟨ops, hops, hop⟩)

/-! ## The argument arrays, at the region's entry and at the end -/

theorem V_main_arg0 (c : Dev nD) : V m c main_arg0 = m ((c : Thread nD τ).loc main_arg0) :=
  StableHlo.after_of_writes_sub (W := wrPre) _ _ hostOps0_wr (by decide)
theorem V_main_arg1 (c : Dev nD) : V m c main_arg1 = m ((c : Thread nD τ).loc main_arg1) :=
  StableHlo.after_of_writes_sub (W := wrPre) _ _ hostOps0_wr (by decide)
theorem V_main_arg2 (c : Dev nD) : V m c main_arg2 = m ((c : Thread nD τ).loc main_arg2) :=
  StableHlo.after_of_writes_sub (W := wrPre) _ _ hostOps0_wr (by decide)
theorem V_main_arg3 (c : Dev nD) : V m c main_arg3 = m ((c : Thread nD τ).loc main_arg3) :=
  StableHlo.after_of_writes_sub (W := wrPre) _ _ hostOps0_wr (by decide)
theorem V_main_arg4 (c : Dev nD) : V m c main_arg4 = m ((c : Thread nD τ).loc main_arg4) :=
  StableHlo.after_of_writes_sub (W := wrPre) _ _ hostOps0_wr (by decide)
theorem V_main_arg5 (c : Dev nD) : V m c main_arg5 = m ((c : Thread nD τ).loc main_arg5) :=
  StableHlo.after_of_writes_sub (W := wrPre) _ _ hostOps0_wr (by decide)
theorem V_main_arg6 (c : Dev nD) : V m c main_arg6 = m ((c : Thread nD τ).loc main_arg6) :=
  StableHlo.after_of_writes_sub (W := wrPre) _ _ hostOps0_wr (by decide)
theorem V_main_arg7 (c : Dev nD) : V m c main_arg7 = m ((c : Thread nD τ).loc main_arg7) :=
  StableHlo.after_of_writes_sub (W := wrPre) _ _ hostOps0_wr (by decide)
theorem V_main_arg8 (c : Dev nD) : V m c main_arg8 = m ((c : Thread nD τ).loc main_arg8) :=
  StableHlo.after_of_writes_sub (W := wrPre) _ _ hostOps0_wr (by decide)
theorem V_main_arg9 (c : Dev nD) : V m c main_arg9 = m ((c : Thread nD τ).loc main_arg9) :=
  StableHlo.after_of_writes_sub (W := wrPre) _ _ hostOps0_wr (by decide)
theorem V_main_arg10 (c : Dev nD) : V m c main_arg10 = m ((c : Thread nD τ).loc main_arg10) :=
  StableHlo.after_of_writes_sub (W := wrPre) _ _ hostOps0_wr (by decide)
theorem V_main_arg11 (c : Dev nD) : V m c main_arg11 = m ((c : Thread nD τ).loc main_arg11) :=
  StableHlo.after_of_writes_sub (W := wrPre) _ _ hostOps0_wr (by decide)
theorem V_main_arg12 (c : Dev nD) : V m c main_arg12 = m ((c : Thread nD τ).loc main_arg12) :=
  StableHlo.after_of_writes_sub (W := wrPre) _ _ hostOps0_wr (by decide)
theorem V_main_arg13 (c : Dev nD) : V m c main_arg13 = m ((c : Thread nD τ).loc main_arg13) :=
  StableHlo.after_of_writes_sub (W := wrPre) _ _ hostOps0_wr (by decide)
theorem V_main_arg14 (c : Dev nD) : V m c main_arg14 = m ((c : Thread nD τ).loc main_arg14) :=
  StableHlo.after_of_writes_sub (W := wrPre) _ _ hostOps0_wr (by decide)
theorem V_main_arg15 (c : Dev nD) : V m c main_arg15 = m ((c : Thread nD τ).loc main_arg15) :=
  StableHlo.after_of_writes_sub (W := wrPre) _ _ hostOps0_wr (by decide)
theorem V_main_arg16 (c : Dev nD) : V m c main_arg16 = m ((c : Thread nD τ).loc main_arg16) :=
  StableHlo.after_of_writes_sub (W := wrPre) _ _ hostOps0_wr (by decide)
theorem V_main_arg17 (c : Dev nD) : V m c main_arg17 = m ((c : Thread nD τ).loc main_arg17) :=
  StableHlo.after_of_writes_sub (W := wrPre) _ _ hostOps0_wr (by decide)
theorem V_main_arg18 (c : Dev nD) : V m c main_arg18 = m ((c : Thread nD τ).loc main_arg18) :=
  StableHlo.after_of_writes_sub (W := wrPre) _ _ hostOps0_wr (by decide)

/-- An argument array that is no array of the pipeline ends as launched, whatever the proof data: no later line writes
    it, the region passes it by, and no earlier line writes it. (`main_arg0` is window 0's array: the frame reads it
    off the frame run's first clause instead, `frame_of`.) -/
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_writes_sub (W := wrTail) _ _ tail_wr (by decide),
    Pipeline.withArrays_of_ne _ c (V0 m c) _ main_arg1 (by decide)]
  exact V_main_arg1 m c
theorem W_main_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_writes_sub (W := wrTail) _ _ tail_wr (by decide),
    Pipeline.withArrays_of_ne _ c (V0 m c) _ main_arg2 (by decide)]
  exact V_main_arg2 m c
theorem W_main_arg3 (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_writes_sub (W := wrTail) _ _ tail_wr (by decide),
    Pipeline.withArrays_of_ne _ c (V0 m c) _ main_arg3 (by decide)]
  exact V_main_arg3 m c
theorem W_main_arg4 (dats : (p : Fin 1) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_writes_sub (W := wrTail) _ _ tail_wr (by decide),
    Pipeline.withArrays_of_ne _ c (V0 m c) _ main_arg4 (by decide)]
  exact V_main_arg4 m c
theorem W_main_arg5 (dats : (p : Fin 1) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [StableHlo.after_of_writes_sub (W := wrTail) _ _ tail_wr (by decide),
    Pipeline.withArrays_of_ne _ c (V0 m c) _ main_arg5 (by decide)]
  exact V_main_arg5 m c
theorem W_main_arg6 (dats : (p : Fin 1) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) := by
  unfold Pipeline.afterTail₀
  rw [StableHlo.after_of_writes_sub (W := wrTail) _ _ tail_wr (by decide),
    Pipeline.withArrays_of_ne _ c (V0 m c) _ main_arg6 (by decide)]
  exact V_main_arg6 m c
theorem W_main_arg7 (dats : (p : Fin 1) → (c : Dev nD) → Dat τ (Elt F) Unit ℕ (UR sig nD τ) ℕ (cfgs p) c) (c : Dev nD) :
    Pipeline.afterTail₀ cfgs dats 0 (V0 m) tailOps c main_arg7 = m ((c : Thread nD τ).loc main_arg7) := by
  unfold Pipeline.afterTail₀
  rw [StableHlo.after_of_writes_sub (W := wrTail) _ _ tail_wr (by decide),
    Pipeline.withArrays_of_ne _ c (V0 m c) _ main_arg7 (by decide)]
  exact V_main_arg7 m c
theorem W_main_arg8 (dats : (p : Fin 1) → (c : Dev nD) → Dat τ (Elt F) Unit ℕ (UR sig nD τ) ℕ (cfgs p) c) (c : Dev nD) :
    Pipeline.afterTail₀ cfgs dats 0 (V0 m) tailOps c main_arg8 = m ((c : Thread nD τ).loc main_arg8) := by
  unfold Pipeline.afterTail₀
  rw [StableHlo.after_of_writes_sub (W := wrTail) _ _ tail_wr (by decide),
    Pipeline.withArrays_of_ne _ c (V0 m c) _ main_arg8 (by decide)]
  exact V_main_arg8 m c
theorem W_main_arg9 (dats : (p : Fin 1) → (c : Dev nD) → Dat τ (Elt F) Unit ℕ (UR sig nD τ) ℕ (cfgs p) c) (c : Dev nD) :
    Pipeline.afterTail₀ cfgs dats 0 (V0 m) tailOps c main_arg9 = m ((c : Thread nD τ).loc main_arg9) := by
  unfold Pipeline.afterTail₀
  rw [StableHlo.after_of_writes_sub (W := wrTail) _ _ tail_wr (by decide),
    Pipeline.withArrays_of_ne _ c (V0 m c) _ main_arg9 (by decide)]
  exact V_main_arg9 m c
theorem W_main_arg10 (dats : (p : Fin 1) → (c : Dev nD) → Dat τ (Elt F) Unit ℕ (UR sig nD τ) ℕ (cfgs p) c) (c : Dev nD) :
    Pipeline.afterTail₀ cfgs dats 0 (V0 m) tailOps c main_arg10 = m ((c : Thread nD τ).loc main_arg10) := by
  unfold Pipeline.afterTail₀
  rw [StableHlo.after_of_writes_sub (W := wrTail) _ _ tail_wr (by decide),
    Pipeline.withArrays_of_ne _ c (V0 m c) _ main_arg10 (by decide)]
  exact V_main_arg10 m c
theorem W_main_arg11 (dats : (p : Fin 1) → (c : Dev nD) → Dat τ (Elt F) Unit ℕ (UR sig nD τ) ℕ (cfgs p) c) (c : Dev nD) :
    Pipeline.afterTail₀ cfgs dats 0 (V0 m) tailOps c main_arg11 = m ((c : Thread nD τ).loc main_arg11) := by
  unfold Pipeline.afterTail₀
  rw [StableHlo.after_of_writes_sub (W := wrTail) _ _ tail_wr (by decide),
    Pipeline.withArrays_of_ne _ c (V0 m c) _ main_arg11 (by decide)]
  exact V_main_arg11 m c
theorem W_main_arg12 (dats : (p : Fin 1) → (c : Dev nD) → Dat τ (Elt F) Unit ℕ (UR sig nD τ) ℕ (cfgs p) c) (c : Dev nD) :
    Pipeline.afterTail₀ cfgs dats 0 (V0 m) tailOps c main_arg12 = m ((c : Thread nD τ).loc main_arg12) := by
  unfold Pipeline.afterTail₀
  rw [StableHlo.after_of_writes_sub (W := wrTail) _ _ tail_wr (by decide),
    Pipeline.withArrays_of_ne _ c (V0 m c) _ main_arg12 (by decide)]
  exact V_main_arg12 m c
theorem W_main_arg13 (dats : (p : Fin 1) → (c : Dev nD) → Dat τ (Elt F) Unit ℕ (UR sig nD τ) ℕ (cfgs p) c) (c : Dev nD) :
    Pipeline.afterTail₀ cfgs dats 0 (V0 m) tailOps c main_arg13 = m ((c : Thread nD τ).loc main_arg13) := by
  unfold Pipeline.afterTail₀
  rw [StableHlo.after_of_writes_sub (W := wrTail) _ _ tail_wr (by decide),
    Pipeline.withArrays_of_ne _ c (V0 m c) _ main_arg13 (by decide)]
  exact V_main_arg13 m c
theorem W_main_arg14 (dats : (p : Fin 1) → (c : Dev nD) → Dat τ (Elt F) Unit ℕ (UR sig nD τ) ℕ (cfgs p) c) (c : Dev nD) :
    Pipeline.afterTail₀ cfgs dats 0 (V0 m) tailOps c main_arg14 = m ((c : Thread nD τ).loc main_arg14) := by
  unfold Pipeline.afterTail₀
  rw [StableHlo.after_of_writes_sub (W := wrTail) _ _ tail_wr (by decide),
    Pipeline.withArrays_of_ne _ c (V0 m c) _ main_arg14 (by decide)]
  exact V_main_arg14 m c
theorem W_main_arg15 (dats : (p : Fin 1) → (c : Dev nD) → Dat τ (Elt F) Unit ℕ (UR sig nD τ) ℕ (cfgs p) c) (c : Dev nD) :
    Pipeline.afterTail₀ cfgs dats 0 (V0 m) tailOps c main_arg15 = m ((c : Thread nD τ).loc main_arg15) := by
  unfold Pipeline.afterTail₀
  rw [StableHlo.after_of_writes_sub (W := wrTail) _ _ tail_wr (by decide),
    Pipeline.withArrays_of_ne _ c (V0 m c) _ main_arg15 (by decide)]
  exact V_main_arg15 m c
theorem W_main_arg16 (dats : (p : Fin 1) → (c : Dev nD) → Dat τ (Elt F) Unit ℕ (UR sig nD τ) ℕ (cfgs p) c) (c : Dev nD) :
    Pipeline.afterTail₀ cfgs dats 0 (V0 m) tailOps c main_arg16 = m ((c : Thread nD τ).loc main_arg16) := by
  unfold Pipeline.afterTail₀
  rw [StableHlo.after_of_writes_sub (W := wrTail) _ _ tail_wr (by decide),
    Pipeline.withArrays_of_ne _ c (V0 m c) _ main_arg16 (by decide)]
  exact V_main_arg16 m c
theorem W_main_arg17 (dats : (p : Fin 1) → (c : Dev nD) → Dat τ (Elt F) Unit ℕ (UR sig nD τ) ℕ (cfgs p) c) (c : Dev nD) :
    Pipeline.afterTail₀ cfgs dats 0 (V0 m) tailOps c main_arg17 = m ((c : Thread nD τ).loc main_arg17) := by
  unfold Pipeline.afterTail₀
  rw [StableHlo.after_of_writes_sub (W := wrTail) _ _ tail_wr (by decide),
    Pipeline.withArrays_of_ne _ c (V0 m c) _ main_arg17 (by decide)]
  exact V_main_arg17 m c
theorem W_main_arg18 (dats : (p : Fin 1) → (c : Dev nD) → Dat τ (Elt F) Unit ℕ (UR sig nD τ) ℕ (cfgs p) c) (c : Dev nD) :
    Pipeline.afterTail₀ cfgs dats 0 (V0 m) tailOps c main_arg18 = m ((c : Thread nD τ).loc main_arg18) := by
  unfold Pipeline.afterTail₀
  rw [StableHlo.after_of_writes_sub (W := wrTail) _ _ tail_wr (by decide),
    Pipeline.withArrays_of_ne _ c (V0 m c) _ main_arg18 (by decide)]
  exact V_main_arg18 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for ANY proof data
    whose array is `V`'s (`hA`) and whose body leaves the block in place (`hafter`): unfetched, the block index has
    not moved (a window fetched at the first point only keeps one block throughout). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The nineteen argument arrays read off the library's frame post, at one final state and one core, for any proof data
    whose arrays are the region-entry contents (`hA`): `main_arg0`, a staged input, by the post's first clause (an
    input's array ends as the region found it); the others, which no window stages, by its second. -/
theorem kept_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c),
    ((h c).2 main_arg13 (Pipeline.mem_restRefs_of main_arg13 (by decide) (by decide))).trans (W_main_arg13 m dats c),
    ((h c).2 main_arg14 (Pipeline.mem_restRefs_of main_arg14 (by decide) (by decide))).trans (W_main_arg14 m dats c),
    ((h c).2 main_arg15 (Pipeline.mem_restRefs_of main_arg15 (by decide) (by decide))).trans (W_main_arg15 m dats c),
    ((h c).2 main_arg16 (Pipeline.mem_restRefs_of main_arg16 (by decide) (by decide))).trans (W_main_arg16 m dats c),
    ((h c).2 main_arg17 (Pipeline.mem_restRefs_of main_arg17 (by decide) (by decide))).trans (W_main_arg17 m dats c),
    ((h c).2 main_arg18 (Pipeline.mem_restRefs_of main_arg18 (by decide) (by decide))).trans (W_main_arg18 m dats c)⟩

/-- THE FRAME from a frame run: a run to the library's frame post is a run to the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => kept_of_post m dats hA r h c) h

end Cert.Kernel.Hand

end
-- ==== Proof.BBody.lean ====
import proofs.«154459_j82652350644592_1_alg».proof.Proof.Gen.Kernel.Skeleton
import Idealize.ShloMosaic.Lib.Pipeline.FrameBody
import Idealize.ShloMosaic.Lib.Ring
import Idealize.ShloMosaic.Lib.Tactic

/-! # The kernel body's triple

The body loads each of its nine input buffers whole, computes, and stores once into the whole output buffer (the
load of the output buffer before the store reads a value nothing uses). So after the body the output buffer reads
as the one store's payload over the nine loaded blocks (`out0_9`), and the inputs are as they were. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's accesses: each buffer's whole rectangle -/

abbrev r0 : Rect S1000x2048 := Rect.unit (s := S1000x2048) ![0, 0] S1000x2048.size inb_S1000x2048_S1000x2048_0_0
abbrev r1 : Rect S1x1024 := Rect.unit (s := S1x1024) ![0, 0] S1x1024.size inb_S1x1024_S1x1024_0_0
abbrev r3 : Rect S1024x512 := Rect.unit (s := S1024x512) ![0, 0] S1024x512.size inb_S1024x512_S1024x512_0_0
abbrev r4 : Rect S1x512 := Rect.unit (s := S1x512) ![0, 0] S1x512.size inb_S1x512_S1x512_0_0
abbrev r5 : Rect S512x128 := Rect.unit (s := S512x128) ![0, 0] S512x128.size inb_S512x128_S512x128_0_0
abbrev r6 : Rect S1x128 := Rect.unit (s := S1x128) ![0, 0] S1x128.size inb_S1x128_S1x128_0_0
abbrev r7 : Rect S128x64 := Rect.unit (s := S128x64) ![0, 0] S128x64.size inb_S128x64_S128x64_0_0
abbrev r8 : Rect S1x64 := Rect.unit (s := S1x64) ![0, 0] S1x64.size inb_S1x64_S1x64_0_0
abbrev r9 : Rect S1000x64 := Rect.unit (s := S1000x64) ![0, 0] S1000x64.size inb_S1000x64_S1000x64_0_0

/-! ## What the body leaves in the output window's buffer -/

/-- Window 9's staging buffer after the body, from the nine input windows' blocks: its one store as a piece, the
    payload over the loads of the whole input buffers. -/
def out0_9 (x0 : Vec F S1000x2048 .f32) (x1 x2 : Vec F S1x1024 .f32) (x3 : Vec F S1024x512 .bf16) (x4 : Vec F S1x512 .f32)
    (x5 : Vec F S512x128 .bf16) (x6 : Vec F S1x128 .f32) (x7 : Vec F S128x64 .bf16) (x8 : Vec F S1x64 .f32) : Vec F S1000x64 .f32 :=
  View.canon [⟨r9, k0_pay1 (k0_pay2 (View.ld x0 r0) (View.ld x1 r1) (View.ld x2 r1) (View.ld x3 r3) (View.ld x4 r4)) (k0_pay3 (View.ld x0 r0) (View.ld x1 r1) (View.ld x2 r1) (View.ld x3 r3) (View.ld x4 r4))
    (k0_pay4 (View.ld x0 r0) (View.ld x1 r1) (View.ld x2 r1) (View.ld x3 r3) (View.ld x4 r4)) (Scalar.ofBits .f32 0x3F800000#32)
    (View.ld x5 r5) (View.ld x6 r6) (View.ld x7 r7) (View.ld x8 r8)⟩]

/-- The one store is the whole buffer, so it covers it. -/
theorem cover0_9 (p0 : Vec F S1000x64 .f32) (y : S1000x64.Idx) :
    ∃ pc ∈ ([⟨r9, p0⟩] : List (View.Piece (Elt F) S1000x64 .f32)), y ∈ pc.1.set :=
  View.cover_of_tiled [⟨r9, p0⟩] S1000x64.size (by rfl) y

/-! ## The body's triple -/

set_option maxHeartbeats 1000000 in
/-- The kernel body on whole staging memrefs, the inputs' at read contents `x0 … x8` and the output's at anything, runs
    to the continuation holding the inputs' as they were and the output's at `out0_9` of the inputs'. -/
theorem sound_kernel (c : Dev nD) (E : Set ℕ) (i : grid0.Coords) (arg1 : Memref sig .tc .vmem S1000x2048 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1x512 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S128x64 .bf16) (harg8 : arg8.IsWhole) (arg9 : Memref sig .tc .vmem S1x64 .f32) (harg9 : arg9.IsWhole) (arg10 : Memref sig .tc .vmem S1000x64 .f32) (harg10 : arg10.IsWhole)
    (x0 : Vec F S1000x2048 .f32) (x1 x2 : Vec F S1x1024 .f32) (x3 : Vec F S1024x512 .bf16) (x4 : Vec F S1x512 .f32)
    (x5 : Vec F S512x128 .bf16) (x6 : Vec F S1x128 .f32) (x7 : Vec F S128x64 .bf16) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__pool_norm_mlp_kernel i arg1 harg1 arg2 harg2 arg3 harg3 arg4 harg4 arg5 harg5 arg6 harg6 arg7 harg7 arg8 harg8 arg9 harg9 arg10 harg10) K := by
  simp only [cc0__pool_norm_mlp_kernel_eq_skeleton]; unfold cc0__pool_norm_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0_9 _)

end Cert.Kernel.Hand

end
-- ==== Proof.BFrame.lean ====
import proofs.«154459_j82652350644592_1_alg».proof.Proof.BSfx
import proofs.«154459_j82652350644592_1_alg».proof.Proof.BBody
import proofs.«154459_j82652350644592_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! # The kernel program's frame run

The proof data of the one pipeline (each input window's buffer at its block, the output window's at the body's one
store over the nine input blocks), the body obligation at every point from the body's triple, the frame run of @main
around the region, and the frame claim's post read off it. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them (`V`); after the body at point
    `t` each input's buffer at its block and the output's at `out0_9` of the nine input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The proof data's arrays are the region-entry contents (the definition projected, `V` never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (the library's body obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' memrefs hold their blocks (`before0_W`), so the body's triple applies; the invariant
    and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the frame run's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.Kernel.Hand.run_main' depends on axioms: [propext, Classical.choice, Quot.sound] -/
#guard_msgs in #print axioms run_main

/-- THE FRAME: the frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

/-- info: 'Cert.Kernel.Hand.frame' depends on axioms: [propext, Classical.choice, Quot.sound] -/
#guard_msgs in #print axioms frame

end Cert.Kernel.Hand

end
-- ==== Proof.KSfx.lean ====
import proofs.«154459_j82652350644592_1_alg».proof.Proof.Gen.KernelIdeal.Launch
import Idealize.ShloMosaic.Lib.Pipeline.FrameBody
import Idealize.ShloMosaic.Lib.Pipeline.FrameSuffix

/-! # @main around its one region

The kernel program's @main is: twelve host lines, the one region, and one hundred and seventy-four host lines in
five stretches. This module states what the region finds in each buffer (`V0`, `V`), that @main reduces to the
region continued by the later stretches (`hmain`), and the three facts the frame run asks of those stretches: they
touch unscoped references only, allocate nothing, and write no array of the pipeline. The last is proved from ONE
list of the references the later lines write (`wrTail`): each line writes its own result, a member of the list, and
no array of the pipeline and no argument of @main is a member. -/

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## The contents the region finds, and the later stretches -/

/-- Core `c`'s buffer contents when the region is entered: after the twelve host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The five stretches of host lines after the region, in order. -/
abbrev tailOps : List (List (HloOp τ sig (Elt F))) := [hostOps1, hostOps1_1, hostOps1_2, hostOps1_3, hostOps1_4]

/-! ## What the host lines write -/

/-- The references the twelve lines before the region write: each its own result. -/
def wrPre : List (Ref sig .tc) :=
  [main_v0, main_v1, main_v2, main_v3, main_v4, main_v5, main_v6, main_v7, main_v8, main_v9, main_v10, main_v11]

/-- The references the lines of the first stretch after the region write, -/
def wr1 : List (Ref sig .tc) :=
  [main_v13, main_v14, main_v15, main_v16, main_cst, main_v17, main_cst_0, main_v18, main_v19, main_v20,
   main_cst_1, main_v21, main_v22, main_v23, main_c, main_v24, main_v25, main_c_2, main_v26, main_v27, main_v28,
   main_v29, main_v30, main_c_3, main_v31, main_v32, main_c_4, main_v33, main_v34, main_v35, main_v36, main_v37,
   main_v38, main_c_5, main_v39, main_v40, main_c_6, main_v41, main_v42, main_v43, main_v44, main_v45, main_v46,
   main_v47, main_v48, main_cst_7, main_v49, main_v50, main_v51, main_v52, main_v53, main_v54]
/-- of the second (the first inlined call), -/
def wr1_1 : List (Ref sig .tc) :=
  [main_call0_cst, main_call0_v0, main_call0_v1, main_call0_cst_0, main_call0_v2, main_call0_v3, main_call0_cst_1,
   main_call0_call0_v0, main_call0_call0_v1, main_call0_v4, main_call0_v5, main_call0_cst_2, main_call0_v6,
   main_call0_v7, main_v55]
/-- of the third, -/
def wr1_2 : List (Ref sig .tc) :=
  [main_v56, main_v57, main_v58, main_v59, main_cst_8, main_v60, main_cst_9, main_v61, main_v62, main_v63,
   main_cst_10, main_v64, main_v65, main_v66, main_c_11, main_v67, main_v68, main_c_12, main_v69, main_v70,
   main_v71, main_v72, main_v73, main_c_13, main_v74, main_v75, main_c_14, main_v76, main_v77, main_v78, main_v79,
   main_v80, main_v81, main_c_15, main_v82, main_v83, main_c_16, main_v84, main_v85, main_v86, main_v87, main_v88,
   main_v89, main_v90, main_v91, main_cst_17, main_v92, main_v93, main_v94, main_v95, main_v96, main_v97,
   main_c_18, main_v98, main_v99, main_c_19, main_v100, main_v101, main_v102, main_v103, main_v104, main_v105,
   main_v106, main_c_20, main_v107, main_v108, main_c_21, main_v109, main_v110, main_v111, main_v112, main_v113,
   main_v114, main_v115, main_c_22, main_v116, main_v117, main_c_23, main_v118, main_v119, main_v120, main_v121,
   main_v122, main_v123, main_v124, main_v125, main_v126, main_v127]
/-- of the fourth (the second inlined call), -/
def wr1_3 : List (Ref sig .tc) :=
  [main_call1_cst, main_call1_v0, main_call1_v1, main_call1_cst_0, main_call1_v2, main_call1_v3, main_call1_cst_1,
   main_call1_call0_v0, main_call1_call0_v1, main_call1_v4, main_call1_v5, main_call1_cst_2, main_call1_v6,
   main_call1_v7, main_v128]
/-- of the fifth, -/
def wr1_4 : List (Ref sig .tc) :=
  [main_v129, main_v130, main_v131, main_v132]
/-- and of all five together. -/
def wrTail : List (Ref sig .tc) := wr1 ++ (wr1_1 ++ (wr1_2 ++ (wr1_3 ++ wr1_4)))

/-- A list of references as a set of device buffers. -/
abbrev asBufs (W : List (Ref sig .tc)) : Finset (DevRef τ sig) := (W.map (Proc.devRef (τ := τ) .tc)).toFinset

/-- Each line before the region writes a member of `wrPre`. -/
theorem hostOps0_wr : (List.flatten [hostOps0] : List (HloOp τ sig (Elt F))).Forall fun op => op.writes ⊆ asBufs wrPre := by
  simp only [hostOps0, List.flatten_cons, List.flatten_nil, List.append_nil, List.Forall, StableHlo.nullary_writes,
    StableHlo.unary_writes, StableHlo.binary_writes, StableHlo.ternary_writes, StableHlo.reshape_writes,
    Finset.singleton_subset_iff, List.mem_toFinset]
  repeat' apply And.intro
  all_goals exact List.mem_map_of_mem (by decide)

/-- Each line of the first stretch after the region writes a member of `wrTail`. -/
theorem hostOps1_wr : (hostOps1 : List (HloOp τ sig (Elt F))).Forall fun op => op.writes ⊆ asBufs wrTail := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- Each line of the second stretch after the region writes a member of `wrTail`. -/
theorem hostOps1_1_wr : (hostOps1_1 : List (HloOp τ sig (Elt F))).Forall fun op => op.writes ⊆ asBufs wrTail := by
  simp only [hostOps1_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

set_option maxHeartbeats 4000000 in
/-- Each line of the third stretch after the region writes a member of `wrTail`. -/
theorem hostOps1_2_wr : (hostOps1_2 : List (HloOp τ sig (Elt F))).Forall fun op => op.writes ⊆ asBufs wrTail := by
  simp only [hostOps1_2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- Each line of the fourth stretch after the region writes a member of `wrTail`. -/
theorem hostOps1_3_wr : (hostOps1_3 : List (HloOp τ sig (Elt F))).Forall fun op => op.writes ⊆ asBufs wrTail := by
  simp only [hostOps1_3, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- Each line of the fifth stretch after the region writes a member of `wrTail`. -/
theorem hostOps1_4_wr : (hostOps1_4 : List (HloOp τ sig (Elt F))).Forall fun op => op.writes ⊆ asBufs wrTail := by
  simp only [hostOps1_4, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- So does each line of the five stretches run as one. -/
theorem tail_wr : (List.flatten tailOps : List (HloOp τ sig (Elt F))).Forall fun op => op.writes ⊆ asBufs wrTail := by
  rw [List.forall_iff_forall_mem]
  intro op hop
  obtain ⟨ops, hops, hop⟩ := List.mem_flatten.mp hop
  simp only [tailOps, List.mem_cons, List.mem_nil_iff, or_false] at hops
  rcases hops with rfl | rfl | rfl | rfl | rfl
  · exact (List.forall_iff_forall_mem.mp hostOps1_wr) op hop
  · exact (List.forall_iff_forall_mem.mp hostOps1_1_wr) op hop
  · exact (List.forall_iff_forall_mem.mp hostOps1_2_wr) op hop
  · exact (List.forall_iff_forall_mem.mp hostOps1_3_wr) op hop
  · exact (List.forall_iff_forall_mem.mp hostOps1_4_wr) op hop

/-- A reference outside a list holding every reference the lines write is written by none of them. -/
theorem not_writes_of {W : List (Ref sig .tc)} {ops : List (HloOp τ sig (Elt F))}
    (hW : ops.Forall fun op => op.writes ⊆ asBufs W) {r : Ref sig .tc} (hr : r ∉ W) :
    ∀ op ∈ ops, Proc.devRef (τ := τ) .tc r ∉ op.writes := fun op hop hb => by
  obtain ⟨y, hy, he⟩ := List.mem_map.mp (List.mem_toFinset.mp ((List.forall_iff_forall_mem.mp hW) op hop hb))
  exact hr (Proc.devRef_injective _ he ▸ hy)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main at the certificate's variants `𝒱₀`: the host lines before the region, the region, the five stretches after it —
    it reduces to the region CONTINUED BY those stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-- The later lines touch the pipeline's arrays and the bypassing buffers only: each line's buffers are unscoped
    TensorCore references, and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
/-- And write no array of the pipeline: no array is among the references they write. -/
theorem sfx_keeps : ∀ ops ∈ (tailOps : List (List (HloOp τ sig (Elt F)))), ∀ op ∈ ops,
    ∀ w, Proc.devRef .tc (Pipeline.arrRef spec0 w) ∉ op.writes := by
  intro ops hops op hop w
  exact not_writes_of tail_wr ((by decide : ∀ w, Pipeline.arrRef spec0 w ∉ wrTail) w) op
    (List.mem_flatten.mpr ⟨ops, hops, hop⟩)

/-! ## The argument arrays, at the region's entry and at the end -/

theorem V_main_arg0 (c : Dev nD) : V m c main_arg0 = m ((c : Thread nD τ).loc main_arg0) :=
  StableHlo.after_of_writes_sub (W := wrPre) _ _ hostOps0_wr (by decide)
theorem V_main_arg1 (c : Dev nD) : V m c main_arg1 = m ((c : Thread nD τ).loc main_arg1) :=
  StableHlo.after_of_writes_sub (W := wrPre) _ _ hostOps0_wr (by decide)
theorem V_main_arg2 (c : Dev nD) : V m c main_arg2 = m ((c : Thread nD τ).loc main_arg2) :=
  StableHlo.after_of_writes_sub (W := wrPre) _ _ hostOps0_wr (by decide)
theorem V_main_arg3 (c : Dev nD) : V m c main_arg3 = m ((c : Thread nD τ).loc main_arg3) :=
  StableHlo.after_of_writes_sub (W := wrPre) _ _ hostOps0_wr (by decide)
theorem V_main_arg4 (c : Dev nD) : V m c main_arg4 = m ((c : Thread nD τ).loc main_arg4) :=
  StableHlo.after_of_writes_sub (W := wrPre) _ _ hostOps0_wr (by decide)
theorem V_main_arg5 (c : Dev nD) : V m c main_arg5 = m ((c : Thread nD τ).loc main_arg5) :=
  StableHlo.after_of_writes_sub (W := wrPre) _ _ hostOps0_wr (by decide)
theorem V_main_arg6 (c : Dev nD) : V m c main_arg6 = m ((c : Thread nD τ).loc main_arg6) :=
  StableHlo.after_of_writes_sub (W := wrPre) _ _ hostOps0_wr (by decide)
theorem V_main_arg7 (c : Dev nD) : V m c main_arg7 = m ((c : Thread nD τ).loc main_arg7) :=
  StableHlo.after_of_writes_sub (W := wrPre) _ _ hostOps0_wr (by decide)
theorem V_main_arg8 (c : Dev nD) : V m c main_arg8 = m ((c : Thread nD τ).loc main_arg8) :=
  StableHlo.after_of_writes_sub (W := wrPre) _ _ hostOps0_wr (by decide)
theorem V_main_arg9 (c : Dev nD) : V m c main_arg9 = m ((c : Thread nD τ).loc main_arg9) :=
  StableHlo.after_of_writes_sub (W := wrPre) _ _ hostOps0_wr (by decide)
theorem V_main_arg10 (c : Dev nD) : V m c main_arg10 = m ((c : Thread nD τ).loc main_arg10) :=
  StableHlo.after_of_writes_sub (W := wrPre) _ _ hostOps0_wr (by decide)
theorem V_main_arg11 (c : Dev nD) : V m c main_arg11 = m ((c : Thread nD τ).loc main_arg11) :=
  StableHlo.after_of_writes_sub (W := wrPre) _ _ hostOps0_wr (by decide)
theorem V_main_arg12 (c : Dev nD) : V m c main_arg12 = m ((c : Thread nD τ).loc main_arg12) :=
  StableHlo.after_of_writes_sub (W := wrPre) _ _ hostOps0_wr (by decide)
theorem V_main_arg13 (c : Dev nD) : V m c main_arg13 = m ((c : Thread nD τ).loc main_arg13) :=
  StableHlo.after_of_writes_sub (W := wrPre) _ _ hostOps0_wr (by decide)
theorem V_main_arg14 (c : Dev nD) : V m c main_arg14 = m ((c : Thread nD τ).loc main_arg14) :=
  StableHlo.after_of_writes_sub (W := wrPre) _ _ hostOps0_wr (by decide)
theorem V_main_arg15 (c : Dev nD) : V m c main_arg15 = m ((c : Thread nD τ).loc main_arg15) :=
  StableHlo.after_of_writes_sub (W := wrPre) _ _ hostOps0_wr (by decide)
theorem V_main_arg16 (c : Dev nD) : V m c main_arg16 = m ((c : Thread nD τ).loc main_arg16) :=
  StableHlo.after_of_writes_sub (W := wrPre) _ _ hostOps0_wr (by decide)
theorem V_main_arg17 (c : Dev nD) : V m c main_arg17 = m ((c : Thread nD τ).loc main_arg17) :=
  StableHlo.after_of_writes_sub (W := wrPre) _ _ hostOps0_wr (by decide)
theorem V_main_arg18 (c : Dev nD) : V m c main_arg18 = m ((c : Thread nD τ).loc main_arg18) :=
  StableHlo.after_of_writes_sub (W := wrPre) _ _ hostOps0_wr (by decide)

/-- An argument array that is no array of the pipeline ends as launched, whatever the proof data: no later line writes
    it, the region passes it by, and no earlier line writes it. (`main_arg0` is window 0's array: the frame reads it
    off the frame run's first clause instead, `frame_of`.) -/
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_writes_sub (W := wrTail) _ _ tail_wr (by decide),
    Pipeline.withArrays_of_ne _ c (V0 m c) _ main_arg1 (by decide)]
  exact V_main_arg1 m c
theorem W_main_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_writes_sub (W := wrTail) _ _ tail_wr (by decide),
    Pipeline.withArrays_of_ne _ c (V0 m c) _ main_arg2 (by decide)]
  exact V_main_arg2 m c
theorem W_main_arg3 (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_writes_sub (W := wrTail) _ _ tail_wr (by decide),
    Pipeline.withArrays_of_ne _ c (V0 m c) _ main_arg3 (by decide)]
  exact V_main_arg3 m c
theorem W_main_arg4 (dats : (p : Fin 1) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_writes_sub (W := wrTail) _ _ tail_wr (by decide),
    Pipeline.withArrays_of_ne _ c (V0 m c) _ main_arg4 (by decide)]
  exact V_main_arg4 m c
theorem W_main_arg5 (dats : (p : Fin 1) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [StableHlo.after_of_writes_sub (W := wrTail) _ _ tail_wr (by decide),
    Pipeline.withArrays_of_ne _ c (V0 m c) _ main_arg5 (by decide)]
  exact V_main_arg5 m c
theorem W_main_arg6 (dats : (p : Fin 1) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) := by
  unfold Pipeline.afterTail₀
  rw [StableHlo.after_of_writes_sub (W := wrTail) _ _ tail_wr (by decide),
    Pipeline.withArrays_of_ne _ c (V0 m c) _ main_arg6 (by decide)]
  exact V_main_arg6 m c
theorem W_main_arg7 (dats : (p : Fin 1) → (c : Dev nD) → Dat τ (Elt F) Unit ℕ (UR sig nD τ) ℕ (cfgs p) c) (c : Dev nD) :
    Pipeline.afterTail₀ cfgs dats 0 (V0 m) tailOps c main_arg7 = m ((c : Thread nD τ).loc main_arg7) := by
  unfold Pipeline.afterTail₀
  rw [StableHlo.after_of_writes_sub (W := wrTail) _ _ tail_wr (by decide),
    Pipeline.withArrays_of_ne _ c (V0 m c) _ main_arg7 (by decide)]
  exact V_main_arg7 m c
theorem W_main_arg8 (dats : (p : Fin 1) → (c : Dev nD) → Dat τ (Elt F) Unit ℕ (UR sig nD τ) ℕ (cfgs p) c) (c : Dev nD) :
    Pipeline.afterTail₀ cfgs dats 0 (V0 m) tailOps c main_arg8 = m ((c : Thread nD τ).loc main_arg8) := by
  unfold Pipeline.afterTail₀
  rw [StableHlo.after_of_writes_sub (W := wrTail) _ _ tail_wr (by decide),
    Pipeline.withArrays_of_ne _ c (V0 m c) _ main_arg8 (by decide)]
  exact V_main_arg8 m c
theorem W_main_arg9 (dats : (p : Fin 1) → (c : Dev nD) → Dat τ (Elt F) Unit ℕ (UR sig nD τ) ℕ (cfgs p) c) (c : Dev nD) :
    Pipeline.afterTail₀ cfgs dats 0 (V0 m) tailOps c main_arg9 = m ((c : Thread nD τ).loc main_arg9) := by
  unfold Pipeline.afterTail₀
  rw [StableHlo.after_of_writes_sub (W := wrTail) _ _ tail_wr (by decide),
    Pipeline.withArrays_of_ne _ c (V0 m c) _ main_arg9 (by decide)]
  exact V_main_arg9 m c
theorem W_main_arg10 (dats : (p : Fin 1) → (c : Dev nD) → Dat τ (Elt F) Unit ℕ (UR sig nD τ) ℕ (cfgs p) c) (c : Dev nD) :
    Pipeline.afterTail₀ cfgs dats 0 (V0 m) tailOps c main_arg10 = m ((c : Thread nD τ).loc main_arg10) := by
  unfold Pipeline.afterTail₀
  rw [StableHlo.after_of_writes_sub (W := wrTail) _ _ tail_wr (by decide),
    Pipeline.withArrays_of_ne _ c (V0 m c) _ main_arg10 (by decide)]
  exact V_main_arg10 m c
theorem W_main_arg11 (dats : (p : Fin 1) → (c : Dev nD) → Dat τ (Elt F) Unit ℕ (UR sig nD τ) ℕ (cfgs p) c) (c : Dev nD) :
    Pipeline.afterTail₀ cfgs dats 0 (V0 m) tailOps c main_arg11 = m ((c : Thread nD τ).loc main_arg11) := by
  unfold Pipeline.afterTail₀
  rw [StableHlo.after_of_writes_sub (W := wrTail) _ _ tail_wr (by decide),
    Pipeline.withArrays_of_ne _ c (V0 m c) _ main_arg11 (by decide)]
  exact V_main_arg11 m c
theorem W_main_arg12 (dats : (p : Fin 1) → (c : Dev nD) → Dat τ (Elt F) Unit ℕ (UR sig nD τ) ℕ (cfgs p) c) (c : Dev nD) :
    Pipeline.afterTail₀ cfgs dats 0 (V0 m) tailOps c main_arg12 = m ((c : Thread nD τ).loc main_arg12) := by
  unfold Pipeline.afterTail₀
  rw [StableHlo.after_of_writes_sub (W := wrTail) _ _ tail_wr (by decide),
    Pipeline.withArrays_of_ne _ c (V0 m c) _ main_arg12 (by decide)]
  exact V_main_arg12 m c
theorem W_main_arg13 (dats : (p : Fin 1) → (c : Dev nD) → Dat τ (Elt F) Unit ℕ (UR sig nD τ) ℕ (cfgs p) c) (c : Dev nD) :
    Pipeline.afterTail₀ cfgs dats 0 (V0 m) tailOps c main_arg13 = m ((c : Thread nD τ).loc main_arg13) := by
  unfold Pipeline.afterTail₀
  rw [StableHlo.after_of_writes_sub (W := wrTail) _ _ tail_wr (by decide),
    Pipeline.withArrays_of_ne _ c (V0 m c) _ main_arg13 (by decide)]
  exact V_main_arg13 m c
theorem W_main_arg14 (dats : (p : Fin 1) → (c : Dev nD) → Dat τ (Elt F) Unit ℕ (UR sig nD τ) ℕ (cfgs p) c) (c : Dev nD) :
    Pipeline.afterTail₀ cfgs dats 0 (V0 m) tailOps c main_arg14 = m ((c : Thread nD τ).loc main_arg14) := by
  unfold Pipeline.afterTail₀
  rw [StableHlo.after_of_writes_sub (W := wrTail) _ _ tail_wr (by decide),
    Pipeline.withArrays_of_ne _ c (V0 m c) _ main_arg14 (by decide)]
  exact V_main_arg14 m c
theorem W_main_arg15 (dats : (p : Fin 1) → (c : Dev nD) → Dat τ (Elt F) Unit ℕ (UR sig nD τ) ℕ (cfgs p) c) (c : Dev nD) :
    Pipeline.afterTail₀ cfgs dats 0 (V0 m) tailOps c main_arg15 = m ((c : Thread nD τ).loc main_arg15) := by
  unfold Pipeline.afterTail₀
  rw [StableHlo.after_of_writes_sub (W := wrTail) _ _ tail_wr (by decide),
    Pipeline.withArrays_of_ne _ c (V0 m c) _ main_arg15 (by decide)]
  exact V_main_arg15 m c
theorem W_main_arg16 (dats : (p : Fin 1) → (c : Dev nD) → Dat τ (Elt F) Unit ℕ (UR sig nD τ) ℕ (cfgs p) c) (c : Dev nD) :
    Pipeline.afterTail₀ cfgs dats 0 (V0 m) tailOps c main_arg16 = m ((c : Thread nD τ).loc main_arg16) := by
  unfold Pipeline.afterTail₀
  rw [StableHlo.after_of_writes_sub (W := wrTail) _ _ tail_wr (by decide),
    Pipeline.withArrays_of_ne _ c (V0 m c) _ main_arg16 (by decide)]
  exact V_main_arg16 m c
theorem W_main_arg17 (dats : (p : Fin 1) → (c : Dev nD) → Dat τ (Elt F) Unit ℕ (UR sig nD τ) ℕ (cfgs p) c) (c : Dev nD) :
    Pipeline.afterTail₀ cfgs dats 0 (V0 m) tailOps c main_arg17 = m ((c : Thread nD τ).loc main_arg17) := by
  unfold Pipeline.afterTail₀
  rw [StableHlo.after_of_writes_sub (W := wrTail) _ _ tail_wr (by decide),
    Pipeline.withArrays_of_ne _ c (V0 m c) _ main_arg17 (by decide)]
  exact V_main_arg17 m c
theorem W_main_arg18 (dats : (p : Fin 1) → (c : Dev nD) → Dat τ (Elt F) Unit ℕ (UR sig nD τ) ℕ (cfgs p) c) (c : Dev nD) :
    Pipeline.afterTail₀ cfgs dats 0 (V0 m) tailOps c main_arg18 = m ((c : Thread nD τ).loc main_arg18) := by
  unfold Pipeline.afterTail₀
  rw [StableHlo.after_of_writes_sub (W := wrTail) _ _ tail_wr (by decide),
    Pipeline.withArrays_of_ne _ c (V0 m c) _ main_arg18 (by decide)]
  exact V_main_arg18 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for ANY proof data
    whose array is `V`'s (`hA`) and whose body leaves the block in place (`hafter`): unfetched, the block index has
    not moved (a window fetched at the first point only keeps one block throughout). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The nineteen argument arrays read off the library's frame post, at one final state and one core, for any proof data
    whose arrays are the region-entry contents (`hA`): `main_arg0`, a staged input, by the post's first clause (an
    input's array ends as the region found it); the others, which no window stages, by its second. -/
theorem kept_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c),
    ((h c).2 main_arg13 (Pipeline.mem_restRefs_of main_arg13 (by decide) (by decide))).trans (W_main_arg13 m dats c),
    ((h c).2 main_arg14 (Pipeline.mem_restRefs_of main_arg14 (by decide) (by decide))).trans (W_main_arg14 m dats c),
    ((h c).2 main_arg15 (Pipeline.mem_restRefs_of main_arg15 (by decide) (by decide))).trans (W_main_arg15 m dats c),
    ((h c).2 main_arg16 (Pipeline.mem_restRefs_of main_arg16 (by decide) (by decide))).trans (W_main_arg16 m dats c),
    ((h c).2 main_arg17 (Pipeline.mem_restRefs_of main_arg17 (by decide) (by decide))).trans (W_main_arg17 m dats c),
    ((h c).2 main_arg18 (Pipeline.mem_restRefs_of main_arg18 (by decide) (by decide))).trans (W_main_arg18 m dats c)⟩

/-- THE FRAME from a frame run: a run to the library's frame post is a run to the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => kept_of_post m dats hA r h c) h

end Cert.KernelIdeal.Hand

end
-- ==== Proof.KBody.lean ====
import proofs.«154459_j82652350644592_1_alg».proof.Proof.Gen.KernelIdeal.Skeleton
import Idealize.ShloMosaic.Lib.Pipeline.FrameBody
import Idealize.ShloMosaic.Lib.Ring
import Idealize.ShloMosaic.Lib.Tactic

/-! # The kernel body's triple

The body loads each of its nine input buffers whole, computes, and stores once into the whole output buffer (the
load of the output buffer before the store reads a value nothing uses). So after the body the output buffer reads
as the one store's payload over the nine loaded blocks (`out0_9`), and the inputs are as they were. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's accesses: each buffer's whole rectangle -/

abbrev r0 : Rect S1000x2048 := Rect.unit (s := S1000x2048) ![0, 0] S1000x2048.size inb_S1000x2048_S1000x2048_0_0
abbrev r1 : Rect S1x1024 := Rect.unit (s := S1x1024) ![0, 0] S1x1024.size inb_S1x1024_S1x1024_0_0
abbrev r3 : Rect S1024x512 := Rect.unit (s := S1024x512) ![0, 0] S1024x512.size inb_S1024x512_S1024x512_0_0
abbrev r4 : Rect S1x512 := Rect.unit (s := S1x512) ![0, 0] S1x512.size inb_S1x512_S1x512_0_0
abbrev r5 : Rect S512x128 := Rect.unit (s := S512x128) ![0, 0] S512x128.size inb_S512x128_S512x128_0_0
abbrev r6 : Rect S1x128 := Rect.unit (s := S1x128) ![0, 0] S1x128.size inb_S1x128_S1x128_0_0
abbrev r7 : Rect S128x64 := Rect.unit (s := S128x64) ![0, 0] S128x64.size inb_S128x64_S128x64_0_0
abbrev r8 : Rect S1x64 := Rect.unit (s := S1x64) ![0, 0] S1x64.size inb_S1x64_S1x64_0_0
abbrev r9 : Rect S1000x64 := Rect.unit (s := S1000x64) ![0, 0] S1000x64.size inb_S1000x64_S1000x64_0_0

/-! ## What the body leaves in the output window's buffer -/

/-- Window 9's staging buffer after the body, from the nine input windows' blocks: its one store as a piece, the
    payload over the loads of the whole input buffers. -/
def out0_9 (x0 : Vec F S1000x2048 .f32) (x1 x2 : Vec F S1x1024 .f32) (x3 : Vec F S1024x512 .bf16) (x4 : Vec F S1x512 .f32)
    (x5 : Vec F S512x128 .bf16) (x6 : Vec F S1x128 .f32) (x7 : Vec F S128x64 .bf16) (x8 : Vec F S1x64 .f32) : Vec F S1000x64 .f32 :=
  View.canon [⟨r9, k0_pay1 (k0_pay2 (View.ld x0 r0) (View.ld x1 r1) (View.ld x2 r1) (View.ld x3 r3) (View.ld x4 r4)) (k0_pay3 (View.ld x0 r0) (View.ld x1 r1) (View.ld x2 r1) (View.ld x3 r3) (View.ld x4 r4))
    (k0_pay4 (View.ld x0 r0) (View.ld x1 r1) (View.ld x2 r1) (View.ld x3 r3) (View.ld x4 r4)) (Scalar.ofBits .f32 0x3F800000#32)
    (View.ld x5 r5) (View.ld x6 r6) (View.ld x7 r7) (View.ld x8 r8)⟩]

/-- The one store is the whole buffer, so it covers it. -/
theorem cover0_9 (p0 : Vec F S1000x64 .f32) (y : S1000x64.Idx) :
    ∃ pc ∈ ([⟨r9, p0⟩] : List (View.Piece (Elt F) S1000x64 .f32)), y ∈ pc.1.set :=
  View.cover_of_tiled [⟨r9, p0⟩] S1000x64.size (by rfl) y

/-! ## The body's triple -/

set_option maxHeartbeats 1000000 in
/-- The kernel body on whole staging memrefs, the inputs' at read contents `x0 … x8` and the output's at anything, runs
    to the continuation holding the inputs' as they were and the output's at `out0_9` of the inputs'. -/
theorem sound_kernel (c : Dev nD) (E : Set ℕ) (i : grid0.Coords) (arg1 : Memref sig .tc .vmem S1000x2048 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1x512 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S128x64 .bf16) (harg8 : arg8.IsWhole) (arg9 : Memref sig .tc .vmem S1x64 .f32) (harg9 : arg9.IsWhole) (arg10 : Memref sig .tc .vmem S1000x64 .f32) (harg10 : arg10.IsWhole)
    (x0 : Vec F S1000x2048 .f32) (x1 x2 : Vec F S1x1024 .f32) (x3 : Vec F S1024x512 .bf16) (x4 : Vec F S1x512 .f32)
    (x5 : Vec F S512x128 .bf16) (x6 : Vec F S1x128 .f32) (x7 : Vec F S128x64 .bf16) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__pool_norm_mlp_kernel i arg1 harg1 arg2 harg2 arg3 harg3 arg4 harg4 arg5 harg5 arg6 harg6 arg7 harg7 arg8 harg8 arg9 harg9 arg10 harg10) K := by
  simp only [cc0__pool_norm_mlp_kernel_eq_skeleton]; unfold cc0__pool_norm_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0_9 _)

end Cert.KernelIdeal.Hand

end
-- ==== Proof.KFrame.lean ====
import proofs.«154459_j82652350644592_1_alg».proof.Proof.KSfx
import proofs.«154459_j82652350644592_1_alg».proof.Proof.KBody
import proofs.«154459_j82652350644592_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! # The kernel program's frame run

The proof data of the one pipeline (each input window's buffer at its block, the output window's at the body's one
store over the nine input blocks), the body obligation at every point from the body's triple, the frame run of @main
around the region, and the frame claim's post read off it. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them (`V`); after the body at point
    `t` each input's buffer at its block and the output's at `out0_9` of the nine input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The proof data's arrays are the region-entry contents (the definition projected, `V` never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (the library's body obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' memrefs hold their blocks (`before0_W`), so the body's triple applies; the invariant
    and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the frame run's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.KernelIdeal.Hand.run_main' depends on axioms: [propext, Classical.choice, Quot.sound] -/
#guard_msgs in #print axioms run_main

/-- THE FRAME: the frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

/-- info: 'Cert.KernelIdeal.Hand.frame' depends on axioms: [propext, Classical.choice, Quot.sound] -/
#guard_msgs in #print axioms frame

end Cert.KernelIdeal.Hand

end
-- ==== Proof.Spec.lean ====
/-
  The head of both programs as ONE function of the argument arrays, row by row, on the extended reals.

  For a row `xr` of 2048 entries:
    pool    h j   = the larger of the adjacent pair (xr (2j), xr (2j+1)), taken as a fold of `max` from -inf;
    mean    μ     = (Σ_j h j) / 1024;
    lnorm   n j   = (h j - μ) * rsqrt (mean ((h - μ)²) + ε) * g j + b j;
    dense   a W c = fun j => (Σ_i a i * W i j) + c j;
    elu     y     = y where 0 < y, else exp y - 1;
    row           = elu ∘ dense w2 ∘ elu ∘ dense w1 ∘ elu ∘ dense w0 ∘ lnorm ∘ pool.
  The float literals stay the words the programs print (1024 as 0x44800000, ε as 0x3727C5AC, 1 as 0x3F800000,
  0 as 0x00000000, -inf as 0xFF800000): the same word stands on both sides and is never evaluated, except where a
  side multiplies by the word for 1.
  `Hd` is the array whose row r is `row` of row r of x.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The larger of each adjacent pair of a row, as the fold of `max` over the pair from the word for -inf. -/
def pool (xr : Fin 2048 → EReal) (j : Fin 1024) : EReal :=
  (Finset.univ : Finset (Fin 2)).fold max (Ideal.ofBits .f32 0xFF800000#32)
    (fun k : Fin 2 => xr ⟨2 * j.val + k.val, by have := j.isLt; have := k.isLt; omega⟩)

/-- The mean of 1024 entries: their sum divided by the word for 1024. -/
def mean (h : Fin 1024 → EReal) : EReal := Ideal.div (∑ j : Fin 1024, h j) (Ideal.ofBits .f32 0x44800000#32)

/-- Layer normalisation of a row with scale `g` and shift `b`. -/
def lnorm (h g b : Fin 1024 → EReal) (j : Fin 1024) : EReal :=
  (h j - mean h) * Ideal.rsqrt (mean (fun k => (h k - mean h) * (h k - mean h)) + Ideal.ofBits .f32 0x3727C5AC#32) * g j + b j

/-- ELU with unit slope: the argument where it is positive, `exp y - 1` elsewhere. -/
def elu (y : EReal) : EReal :=
  Scalar.select (FloatOps.cmpf (F := Ideal) (φ := .f32) .ogt y (Ideal.ofBits .f32 0x00000000#32)) y
    (Ideal.exp y - Ideal.ofBits .f32 0x3F800000#32)

/-- One dense layer: a row times a matrix plus a bias. -/
def dense {n k : Nat} (a : Fin n → EReal) (w : Fin n → Fin k → EReal) (c : Fin k → EReal) (j : Fin k) : EReal :=
  (∑ i : Fin n, a i * w i j) + c j

/-- One row of the head. -/
def row (xr : Fin 2048 → EReal) (g b : Fin 1024 → EReal) (w0 : Fin 1024 → Fin 512 → EReal) (b0 : Fin 512 → EReal)
    (w1 : Fin 512 → Fin 128 → EReal) (b1 : Fin 128 → EReal) (w2 : Fin 128 → Fin 64 → EReal) (b2 : Fin 64 → EReal) :
    Fin 64 → EReal :=
  fun j => elu (dense (fun i => elu (dense (fun i => elu (dense (lnorm (pool xr) g b) w0 b0 i)) w1 b1 i)) w2 b2 j)

/-- The head array: row `r` is `row` of row `r` of `x`. -/
def Hd (x : (⟨2, ![50000, 2048]⟩ : Shape).Idx → EReal) (g b : (⟨1, ![1024]⟩ : Shape).Idx → EReal)
    (w0 : (⟨2, ![1024, 512]⟩ : Shape).Idx → EReal) (b0 : (⟨1, ![512]⟩ : Shape).Idx → EReal)
    (w1 : (⟨2, ![512, 128]⟩ : Shape).Idx → EReal) (b1 : (⟨1, ![128]⟩ : Shape).Idx → EReal)
    (w2 : (⟨2, ![128, 64]⟩ : Shape).Idx → EReal) (b2 : (⟨1, ![64]⟩ : Shape).Idx → EReal) :
    (⟨2, ![50000, 64]⟩ : Shape).Idx → EReal :=
  fun i => row (fun k => x (ix2 ⟨(i 0).val, idx2_lt0 i⟩ k)) (fun k => g (ix1 k)) (fun k => b (ix1 k))
    (fun p q => w0 (ix2 p q)) (fun q => b0 (ix1 q)) (fun p q => w1 (ix2 p q)) (fun q => b1 (ix1 q))
    (fun p q => w2 (ix2 p q)) (fun q => b2 (ix1 q)) ⟨(i 1).val, idx2_lt1 i⟩

/-- `Hd` at explicit coordinates. -/
theorem Hd_ix2 (x : (⟨2, ![50000, 2048]⟩ : Shape).Idx → EReal) (g b : (⟨1, ![1024]⟩ : Shape).Idx → EReal)
    (w0 : (⟨2, ![1024, 512]⟩ : Shape).Idx → EReal) (b0 : (⟨1, ![512]⟩ : Shape).Idx → EReal)
    (w1 : (⟨2, ![512, 128]⟩ : Shape).Idx → EReal) (b1 : (⟨1, ![128]⟩ : Shape).Idx → EReal)
    (w2 : (⟨2, ![128, 64]⟩ : Shape).Idx → EReal) (b2 : (⟨1, ![64]⟩ : Shape).Idx → EReal) (r : Fin 50000) (j : Fin 64) :
    Hd x g b w0 b0 w1 b1 w2 b2 (ix2 r j)
      = row (fun k => x (ix2 r k)) (fun k => g (ix1 k)) (fun k => b (ix1 k)) (fun p q => w0 (ix2 p q)) (fun q => b0 (ix1 q))
          (fun p q => w1 (ix2 p q)) (fun q => b1 (ix1 q)) (fun p q => w2 (ix2 p q)) (fun q => b2 (ix1 q)) j := rfl

/-- The word for 1 is 1. -/
theorem ofBits_one_f32 : Ideal.ofBits .f32 0x3F800000#32 = 1 := by
  simp [Ideal.ofBits, Ideal.ieee, -EReal.coe_mul]; norm_num

/-- Where the argument is not positive, the host's form of ELU's other branch — the word for 1 times `exp y - 1` — is
    the kernel's `exp y -` that word. -/
theorem one_mul_expm1 (y : EReal) :
    Ideal.ofBits .f32 0x3F800000#32 * (Ideal.exp y - 1) = Ideal.exp y - Ideal.ofBits .f32 0x3F800000#32 := by
  rw [ofBits_one_f32, one_mul]

end Cert.Spec

end
-- ==== Proof.KPay.lean ====
/-
  The kernel's one stored value, read at an index: row `r`, column `j` of the block the body stores is
  `Cert.Spec.row` of row `r` of the input block and the eight parameter arrays.
  Stage by stage: the pooled row (a lane maximum over the adjacent pair), the mean and the normalised row
  (two lane sums kept as columns and broadcast back), then three dense layers (a product summed over the
  one contracted coordinate, plus a broadcast bias row) each followed by ELU.
-/
import proofs.«154459_j82652350644592_1_alg».proof.Proof.Spec
import proofs.«154459_j82652350644592_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.SL.Sem Idealize.ShloMosaic.ValueIdx
open Cert.KernelIdeal Cert.KernelIdeal.Gen

/-! ## Two keep-dims layout forms -/

section Layout
variable {α : Type}

/-- A vector `[a]` cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The pooled row -/

/-- The lane maximum over the last axis of the block viewed `[1000, 1024, 2]` is the larger of each adjacent pair. -/
theorem pooled_at (x0 : FVec Ideal S1000x2048 .f32) (r : Fin 1000) (c : Fin 1024) :
    multiReduction (F := Ideal) .maximumf [2] S1000x1024 (shapeCast S1000x1024x2 x0 shapeCasts_S1000x2048_S1000x1024x2)
        0xFF800000#32 reduces_S1000x1024x2_S1000x1024 (.inl rfl) rfl (ix2 r c)
      = Spec.pool (fun k => x0 (ix2 r k)) c := by
  refine (Ideal.multiReduction_maximumf_single _ _ reduces_S1000x1024x2_S1000x1024 _ _ (ix2 r c)).trans ?_
  unfold Spec.pool
  show (Finset.univ : Finset (Fin 2)).fold max (Ideal.ofBits .f32 0xFF800000#32) _ = _
  refine congrArg (fun f => (Finset.univ : Finset (Fin 2)).fold max (Ideal.ofBits .f32 0xFF800000#32) f) (funext fun k => ?_)
  refine shapeCast_apply x0 _ _ _ ?_
  rw [Shape.rowMajor_val_two, Shape.rowMajor_val_three]
  show r.val * 2048 + (2 * c.val + k.val) = (r.val * 1024 + c.val) * 2 + k.val
  omega

/-- The pooled block: row `r` is the pooled row of row `r` of the input block. -/
def pooledV (x0 : FVec Ideal S1000x2048 .f32) : FVec Ideal S1000x1024 .f32 :=
  multiReduction (F := Ideal) .maximumf [2] S1000x1024 (shapeCast S1000x1024x2 x0 shapeCasts_S1000x2048_S1000x1024x2)
    0xFF800000#32 reduces_S1000x1024x2_S1000x1024 (.inl rfl) rfl

theorem pooledV_at (x0 : FVec Ideal S1000x2048 .f32) (r : Fin 1000) (c : Fin 1024) :
    pooledV x0 (ix2 r c) = Spec.pool (fun k => x0 (ix2 r k)) c := pooled_at x0 r c

/-! ## The mean of each row, kept as a column -/

/-- The lane sum of a `[1000, 1024]` block, as a column, divided by the word for 1024. -/
def meanCol (v : FVec Ideal S1000x1024 .f32) : FVec Ideal S1000x1 .f32 :=
  divf (shapeCast S1000x1 (multiReduction (F := Ideal) .add [1] S1000 v 0x00000000#32 reduces_S1000x1024_S1000 (.inl rfl) rfl)
      shapeCasts_S1000_S1000x1)
    (broadcast S1000x1 (Scalar.ofBits (F := Ideal) .f32 0x44800000#32))

theorem meanCol_at (v : FVec Ideal S1000x1024 .f32) (r : Fin 1000) (u : Fin 1) :
    meanCol v (ix2 r u) = Spec.mean (fun k => v (ix2 r k)) := by
  unfold meanCol Spec.mean
  show Ideal.div (shapeCast S1000x1 _ shapeCasts_S1000_S1000x1 (ix2 r u)) (Ideal.ofBits .f32 0x44800000#32) = _
  refine congrArg (fun s => Ideal.div s (Ideal.ofBits .f32 0x44800000#32)) ?_
  refine (shapeCast_a_a1_apply _ _ r u).trans ?_
  refine (Ideal.multiReduction_add_single v _ reduces_S1000x1024_S1000 _ _ (ix1 r)).trans ?_
  show ∑ k : Fin 1024, v (reduces_S1000x1024_S1000.lift (ix1 r) k) = ∑ k : Fin 1024, v (ix2 r k)
  refine Finset.sum_congr rfl fun k _ => congrArg v (funext fun a => Fin.ext ?_)
  match a with
  | ⟨0, _⟩ => rfl
  | ⟨1, _⟩ => rfl

/-! ## The normalised row -/

/-- Layer normalisation of a `[1000, 1024]` block, row by row, with scale row `x1` and shift row `x2`. -/
def normedV (v x : FVec Ideal S1000x1024 .f32) (x1 x2 : FVec Ideal S1x1024 .f32) : FVec Ideal S1000x1024 .f32 :=
  addf
    (mulf
      (mulf (subf v (broadcastTo S1000x1024 (meanCol v) broadcasts_S1000x1_S1000x1024))
        (broadcastTo S1000x1024
          (rsqrt (addf (meanCol x) (broadcast S1000x1 (Scalar.ofBits (F := Ideal) .f32 0x3727C5AC#32))))
          broadcasts_S1000x1_S1000x1024))
      (broadcastTo S1000x1024 (shapeCast S1x1024 x1 shapeCasts_S1x1024_S1x1024) broadcasts_S1x1024_S1000x1024))
    (broadcastTo S1000x1024 (shapeCast S1x1024 x2 shapeCasts_S1x1024_S1x1024) broadcasts_S1x1024_S1000x1024)

/-- The squared deviations from the row mean. -/
def devSq (v : FVec Ideal S1000x1024 .f32) : FVec Ideal S1000x1024 .f32 :=
  mulf (subf v (broadcastTo S1000x1024 (meanCol v) broadcasts_S1000x1_S1000x1024))
    (subf v (broadcastTo S1000x1024 (meanCol v) broadcasts_S1000x1_S1000x1024))

theorem meanB_at (v : FVec Ideal S1000x1024 .f32) (r : Fin 1000) (c : Fin 1024) :
    broadcastTo S1000x1024 (meanCol v) broadcasts_S1000x1_S1000x1024 (ix2 r c) = Spec.mean (fun k => v (ix2 r k)) :=
  (broadcastTo_a1_ab_apply _ _ r c).trans (meanCol_at v r 0)

theorem devSq_at (v : FVec Ideal S1000x1024 .f32) (r : Fin 1000) (c : Fin 1024) :
    devSq v (ix2 r c)
      = (v (ix2 r c) - Spec.mean (fun k => v (ix2 r k))) * (v (ix2 r c) - Spec.mean (fun k => v (ix2 r k))) := by
  unfold devSq
  show (v (ix2 r c) - broadcastTo S1000x1024 (meanCol v) broadcasts_S1000x1_S1000x1024 (ix2 r c))
      * (v (ix2 r c) - broadcastTo S1000x1024 (meanCol v) broadcasts_S1000x1_S1000x1024 (ix2 r c)) = _
  rw [meanB_at]

theorem rowB_at (x1 : FVec Ideal S1x1024 .f32) (r : Fin 1000) (c : Fin 1024) :
    broadcastTo S1000x1024 (shapeCast S1x1024 x1 shapeCasts_S1x1024_S1x1024) broadcasts_S1x1024_S1000x1024 (ix2 r c)
      = x1 (ix2 0 c) := by
  rw [shapeCast_self]; exact broadcastTo_1b_ab_apply x1 _ r c

theorem normedV_at (v : FVec Ideal S1000x1024 .f32) (x1 x2 : FVec Ideal S1x1024 .f32) (r : Fin 1000) (c : Fin 1024) :
    normedV v (devSq v) x1 x2 (ix2 r c)
      = Spec.lnorm (fun k => v (ix2 r k)) (fun k => x1 (ix2 0 k)) (fun k => x2 (ix2 0 k)) c := by
  unfold normedV Spec.lnorm
  show (v (ix2 r c) - broadcastTo S1000x1024 (meanCol v) broadcasts_S1000x1_S1000x1024 (ix2 r c))
        * broadcastTo S1000x1024
            (rsqrt (addf (meanCol (devSq v)) (broadcast S1000x1 (Scalar.ofBits (F := Ideal) .f32 0x3727C5AC#32))))
            broadcasts_S1000x1_S1000x1024 (ix2 r c)
        * broadcastTo S1000x1024 (shapeCast S1x1024 x1 shapeCasts_S1x1024_S1x1024) broadcasts_S1x1024_S1000x1024 (ix2 r c)
      + broadcastTo S1000x1024 (shapeCast S1x1024 x2 shapeCasts_S1x1024_S1x1024) broadcasts_S1x1024_S1000x1024 (ix2 r c) = _
  have e2 : broadcastTo S1000x1024
            (rsqrt (addf (meanCol (devSq v)) (broadcast S1000x1 (Scalar.ofBits (F := Ideal) .f32 0x3727C5AC#32))))
            broadcasts_S1000x1_S1000x1024 (ix2 r c)
        = Ideal.rsqrt (Spec.mean (fun k => (v (ix2 r k) - Spec.mean (fun k => v (ix2 r k))) * (v (ix2 r k) - Spec.mean (fun k => v (ix2 r k))))
            + Ideal.ofBits .f32 0x3727C5AC#32) := by
    refine (broadcastTo_a1_ab_apply _ _ r c).trans ?_
    show Ideal.rsqrt (meanCol (devSq v) (ix2 r 0) + Ideal.ofBits .f32 0x3727C5AC#32) = _
    rw [meanCol_at]
    exact congrArg (fun f => Ideal.rsqrt (Spec.mean f + Ideal.ofBits .f32 0x3727C5AC#32)) (funext fun k => devSq_at v r k)
  rw [meanB_at, e2, rowB_at, rowB_at]

/-! ## A product of an `[m, k]` by a `[k, n]` block, read at an index -/

section Product
variable (m k n : ℕ)

/-- Row coordinate of the left operand's index: the output's row. -/
theorem plain_lhs_0 (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- Column coordinate of the left operand's index: the contracted coordinate. -/
theorem plain_lhs_1 (i : (⟨2, ![m, n]⟩ : Shape).Idx) (q : (DotDims.plain m k n).contr.Idx) :
    ((DotDims.plain m k n).lhsIdx i q 1).val = (q ⟨0, Nat.one_pos⟩).val :=
  (DotDims.plain m k n).lhsIdx_val_of_single rfl i q

/-- Row coordinate of the right operand's index: the contracted coordinate. -/
theorem plain_rhs_0 (i : (⟨2, ![m, n]⟩ : Shape).Idx) (q : (DotDims.plain m k n).contr.Idx) :
    ((DotDims.plain m k n).rhsIdx i q 0).val = (q ⟨0, Nat.one_pos⟩).val :=
  (DotDims.plain m k n).rhsIdx_val_of_single rfl i q

/-- Column coordinate of the right operand's index: the output's column. -/
theorem plain_rhs_1 (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- The product accumulated into the zero block, at `(r, j)`: the sum over the contracted coordinate. -/
theorem matmul_plain_at {φ₁ φ₂ : FTy} (A : FVec Ideal ⟨2, ![m, k]⟩ φ₁) (B : FVec Ideal ⟨2, ![k, n]⟩ φ₂) (r : Fin m) (j : Fin n) :
    matmul (F := Ideal) (DotDims.plain m k n) none A B (constant (F := Ideal) ⟨2, ![m, n]⟩ .f32 0x00000000#32) (ix2 r j)
      = ∑ c : Fin k, A (ix2 r c) * B (ix2 c j) := by
  show FloatOps.matmul (DotDims.plain m k n) none A B (constant (F := Ideal) ⟨2, ![m, n]⟩ .f32 0x00000000#32) (ix2 r j) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 r j) ((contrEquiv1 (DotDims.plain m k n) k rfl rfl).symm c) = ix2 r c :=
    funext fun a => Fin.ext (by
      match a with
      | ⟨0, _⟩ => exact plain_lhs_0 m k n _ _
      | ⟨1, _⟩ => exact (plain_lhs_1 m k n _ _).trans hc)
  have er : (DotDims.plain m k n).rhsIdx (ix2 r j) ((contrEquiv1 (DotDims.plain m k n) k rfl rfl).symm c) = ix2 c j :=
    funext fun a => Fin.ext (by
      match a with
      | ⟨0, _⟩ => exact (plain_rhs_0 m k n _ _).trans hc
      | ⟨1, _⟩ => exact plain_rhs_1 m k n _ _)
  rw [el, er]

end Product

/-- The three products' dimension numbers are the plain ones. -/
theorem dot0_eq : dot_S1000x1024_S1024x512_S1000x512_1_0_0_1_n_n = DotDims.plain 1000 1024 512 := rfl
theorem dot1_eq : dot_S1000x512_S512x128_S1000x128_1_0_0_1_n_n = DotDims.plain 1000 512 128 := rfl
theorem dot2_eq : dot_S1000x128_S128x64_S1000x64_1_0_0_1_n_n = DotDims.plain 1000 128 64 := rfl

/-! ## A dense layer and ELU, as the body writes them -/

/-- ELU over a block: the entry where it is positive, `exp` of it less the word for 1 elsewhere. -/
def eluV {s : Shape} (y : FVec Ideal s .f32) : FVec Ideal s .f32 :=
  select (cmpf .ogt y (broadcast s (Scalar.ofBits (F := Ideal) .f32 0x00000000#32))) y
    (subf (exp y) (broadcast s (Scalar.ofBits (F := Ideal) .f32 0x3F800000#32)))

theorem eluV_at {s : Shape} (y : FVec Ideal s .f32) (i : s.Idx) : eluV y i = Spec.elu (y i) := rfl

/-- A dense layer over a block: the block, its format narrowed, times the weight matrix, plus the bias row on every row. -/
def denseV (m k n : ℕ) (a : FVec Ideal ⟨2, ![m, k]⟩ .f32) (w : FVec Ideal ⟨2, ![k, n]⟩ .bf16) (c : FVec Ideal ⟨2, ![1, n]⟩ .f32)
    (hw : (⟨2, ![k, n]⟩ : Shape).ShapeCasts ⟨2, ![k, n]⟩) (hc : (⟨2, ![1, n]⟩ : Shape).ShapeCasts ⟨2, ![1, n]⟩)
    (hb : (⟨2, ![1, n]⟩ : Shape).Broadcasts ⟨2, ![m, n]⟩) : FVec Ideal ⟨2, ![m, n]⟩ .f32 :=
  addf
    (matmul (F := Ideal) (DotDims.plain m k n) none (truncf .bf16 a bitsLt_bf16_f32) (shapeCast ⟨2, ![k, n]⟩ w hw)
      (constant (F := Ideal) ⟨2, ![m, n]⟩ .f32 0x00000000#32))
    (broadcastTo ⟨2, ![m, n]⟩ (shapeCast ⟨2, ![1, n]⟩ c hc) hb)

theorem denseV_at (m k n : ℕ) (a : FVec Ideal ⟨2, ![m, k]⟩ .f32) (w : FVec Ideal ⟨2, ![k, n]⟩ .bf16) (c : FVec Ideal ⟨2, ![1, n]⟩ .f32)
    (hw : (⟨2, ![k, n]⟩ : Shape).ShapeCasts ⟨2, ![k, n]⟩) (hc : (⟨2, ![1, n]⟩ : Shape).ShapeCasts ⟨2, ![1, n]⟩)
    (hb : (⟨2, ![1, n]⟩ : Shape).Broadcasts ⟨2, ![m, n]⟩) (r : Fin m) (j : Fin n) :
    denseV m k n a w c hw hc hb (ix2 r j)
      = Spec.dense (fun i => a (ix2 r i)) (fun p q => w (ix2 p q)) (fun q => c (ix2 0 q)) j := by
  unfold denseV Spec.dense
  show matmul (F := Ideal) (DotDims.plain m k n) none (truncf .bf16 a bitsLt_bf16_f32) (shapeCast ⟨2, ![k, n]⟩ w hw)
        (constant (F := Ideal) ⟨2, ![m, n]⟩ .f32 0x00000000#32) (ix2 r j)
      + broadcastTo ⟨2, ![m, n]⟩ (shapeCast ⟨2, ![1, n]⟩ c hc) hb (ix2 r j) = _
  rw [matmul_plain_at, shapeCast_self, shapeCast_self, broadcastTo_1b_ab_apply]
  rfl

/-! ## The payloads, stage by stage -/

section Payload
variable (x0 : FVec Ideal S1000x2048 .f32) (x1 x2 : FVec Ideal S1x1024 .f32) (x3 : FVec Ideal S1024x512 .bf16)
  (x4 : FVec Ideal S1x512 .f32) (x5 : FVec Ideal S512x128 .bf16) (x6 : FVec Ideal S1x128 .f32) (x7 : FVec Ideal S128x64 .bf16)
  (x8 : FVec Ideal S1x64 .f32)

/-- The first dense layer's output, before its ELU: pooling, layer normalisation, one dense layer. -/
theorem pay2_eq :
    k0_pay2 (F := Ideal) x0 x1 x2 x3 x4
      = denseV 1000 1024 512 (normedV (pooledV x0) (devSq (pooledV x0)) x1 x2) x3 x4
          shapeCasts_S1024x512_S1024x512 shapeCasts_S1x512_S1x512 broadcasts_S1x512_S1000x512 := rfl

/-- The stored block: ELU of the first layer, then two more dense layers each followed by ELU. -/
theorem pay1_eq :
    k0_pay1 (F := Ideal) (k0_pay2 (F := Ideal) x0 x1 x2 x3 x4) (k0_pay3 (F := Ideal) x0 x1 x2 x3 x4) (k0_pay4 (F := Ideal) x0 x1 x2 x3 x4)
        (Scalar.ofBits (F := Ideal) .f32 0x3F800000#32) x5 x6 x7 x8
      = eluV (denseV 1000 128 64
          (eluV (denseV 1000 512 128 (eluV (k0_pay2 (F := Ideal) x0 x1 x2 x3 x4)) x5 x6
            shapeCasts_S512x128_S512x128 shapeCasts_S1x128_S1x128 broadcasts_S1x128_S1000x128))
          x7 x8 shapeCasts_S128x64_S128x64 shapeCasts_S1x64_S1x64 broadcasts_S1x64_S1000x64) := rfl

/-- The stored block at row `r`, column `j`: the head's row function of row `r` of the input block. -/
theorem pay_row (r : Fin 1000) (j : Fin 64) :
    k0_pay1 (F := Ideal) (k0_pay2 (F := Ideal) x0 x1 x2 x3 x4) (k0_pay3 (F := Ideal) x0 x1 x2 x3 x4) (k0_pay4 (F := Ideal) x0 x1 x2 x3 x4)
        (Scalar.ofBits (F := Ideal) .f32 0x3F800000#32) x5 x6 x7 x8 (ix2 r j)
      = Cert.Spec.row (fun k => x0 (ix2 r k)) (fun k => x1 (ix2 0 k)) (fun k => x2 (ix2 0 k)) (fun p q => x3 (ix2 p q))
          (fun q => x4 (ix2 0 q)) (fun p q => x5 (ix2 p q)) (fun q => x6 (ix2 0 q)) (fun p q => x7 (ix2 p q))
          (fun q => x8 (ix2 0 q)) j := by
  have h0 : ∀ i : Fin 1024, normedV (pooledV x0) (devSq (pooledV x0)) x1 x2 (ix2 r i)
      = Spec.lnorm (Spec.pool (fun k => x0 (ix2 r k))) (fun k => x1 (ix2 0 k)) (fun k => x2 (ix2 0 k)) i := fun i =>
    (normedV_at (pooledV x0) x1 x2 r i).trans
      (congrArg (fun h => Spec.lnorm h (fun k => x1 (ix2 0 k)) (fun k => x2 (ix2 0 k)) i) (funext fun k => pooledV_at x0 r k))
  have h1 : ∀ i : Fin 512, eluV (k0_pay2 (F := Ideal) x0 x1 x2 x3 x4) (ix2 r i)
      = Spec.elu (Spec.dense (Spec.lnorm (Spec.pool (fun k => x0 (ix2 r k))) (fun k => x1 (ix2 0 k)) (fun k => x2 (ix2 0 k)))
          (fun p q => x3 (ix2 p q)) (fun q => x4 (ix2 0 q)) i) := fun i => by
    rw [pay2_eq, eluV_at, denseV_at]
    exact congrArg (fun a => Spec.elu (Spec.dense a (fun p q => x3 (ix2 p q)) (fun q => x4 (ix2 0 q)) i)) (funext h0)
  rw [pay1_eq, eluV_at, denseV_at]
  unfold Spec.row
  refine congrArg (fun a => Spec.elu (Spec.dense a (fun p q => x7 (ix2 p q)) (fun q => x8 (ix2 0 q)) j)) (funext fun i => ?_)
  rw [eluV_at, denseV_at]
  exact congrArg (fun a => Spec.elu (Spec.dense a (fun p q => x5 (ix2 p q)) (fun q => x6 (ix2 0 q)) i)) (funext h1)

end Payload

end Cert.KernelIdeal.Hand

end
-- ==== Proof.KFinal.lean ====
/-
  From blocks to the array: what the region leaves in its output array is the head array `Cert.Spec.Hd` of the
  program's arguments. Each grid point writes back its block of that one array (the stored block is, row by row, the
  head's row function of the input block's row, and the eight parameter windows hold reshaped or format-narrowed
  arguments), and the fifty blocks of a thousand rows cover the fifty thousand rows.
-/
import proofs.«154459_j82652350644592_1_alg».proof.Proof.KFrame
import proofs.«154459_j82652350644592_1_alg».proof.Proof.KPay
import Idealize.ShloMosaic.Lib.Pipeline.Value
import Idealize.ShloMosaic.Lib.ValueLayout

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-! ## The parameter windows' arrays, as the host lines before the region wrote them -/

theorem V_main_v7 (c : Dev nD) :
    @Eq (S1x1024.Idx → EReal) (V m c main_v7) (shapeCast S1x1024 (m ((c : Thread nD τ).loc main_arg3)) shapeCasts_S1024_S1x1024) := by
  show StableHlo.after hostOps0 (fun b => m (c, b)) (Proc.devRef .tc main_v7) = _
  after_results
  rfl

theorem V_main_v8 (c : Dev nD) :
    @Eq (S1x1024.Idx → EReal) (V m c main_v8) (shapeCast S1x1024 (m ((c : Thread nD τ).loc main_arg4)) shapeCasts_S1024_S1x1024) := by
  show StableHlo.after hostOps0 (fun b => m (c, b)) (Proc.devRef .tc main_v8) = _
  after_results
  rfl

theorem V_main_v9 (c : Dev nD) :
    @Eq (S1x512.Idx → EReal) (V m c main_v9) (shapeCast S1x512 (m ((c : Thread nD τ).loc main_arg6)) shapeCasts_S512_S1x512) := by
  show StableHlo.after hostOps0 (fun b => m (c, b)) (Proc.devRef .tc main_v9) = _
  after_results
  rfl

theorem V_main_v10 (c : Dev nD) :
    @Eq (S1x128.Idx → EReal) (V m c main_v10) (shapeCast S1x128 (m ((c : Thread nD τ).loc main_arg8)) shapeCasts_S128_S1x128) := by
  show StableHlo.after hostOps0 (fun b => m (c, b)) (Proc.devRef .tc main_v10) = _
  after_results
  rfl

theorem V_main_v11 (c : Dev nD) :
    @Eq (S1x64.Idx → EReal) (V m c main_v11) (shapeCast S1x64 (m ((c : Thread nD τ).loc main_arg10)) shapeCasts_S64_S1x64) := by
  show StableHlo.after hostOps0 (fun b => m (c, b)) (Proc.devRef .tc main_v11) = _
  after_results
  rfl

/-- A format change is the identity on the extended reals: the narrowed weights are the weights. -/
theorem V_main_v4 (c : Dev nD) :
    @Eq (S1024x512.Idx → EReal) (V m c main_v4) (m ((c : Thread nD τ).loc main_arg5)) := by
  show StableHlo.after hostOps0 (fun b => m (c, b)) (Proc.devRef .tc main_v4) = _
  after_results
  rfl

theorem V_main_v5 (c : Dev nD) :
    @Eq (S512x128.Idx → EReal) (V m c main_v5) (m ((c : Thread nD τ).loc main_arg7)) := by
  show StableHlo.after hostOps0 (fun b => m (c, b)) (Proc.devRef .tc main_v5) = _
  after_results
  rfl

theorem V_main_v6 (c : Dev nD) :
    @Eq (S128x64.Idx → EReal) (V m c main_v6) (m ((c : Thread nD τ).loc main_arg9)) := by
  show StableHlo.after hostOps0 (fun b => m (c, b)) (Proc.devRef .tc main_v6) = _
  after_results
  rfl

/-! ## The printed index maps over the grid -/

/-- Window 0 and window 9 step one block of rows per point; every other window stays on its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-! ## The input blocks, read at an index -/

theorem hz : (![0, 0] : Fin 2 → Nat) = fun _ => 0 := funext fun a => by fin_cases a <;> rfl

/-- Window 0's block at point `t` is rows `1000 t … 1000 t + 999` of the first argument. -/
theorem iblk0_at (c : Dev nD) (t : Fin cfg0.N) (r : Fin 1000) (k : Fin 2048) (R : Fin 50000) (hR : R.val = t.val * 1000 + r.val) :
    (iblk m c 0 t : FVec Ideal S1000x2048 .f32) (ix2 r k)
      = (m ((c : Thread nD τ).loc main_arg0) : S50000x2048.Idx → EReal) (ix2 R k) := by
  obtain ⟨e0, e1, -⟩ := idx_facts t
  unfold iblk
  rw [View.read_apply]
  show V m c main_arg0 _ = _
  rw [V_main_arg0]
  refine congrArg (m ((c : Thread nD τ).loc main_arg0) : S50000x2048.Idx → EReal) (funext fun a => Fin.ext ?_)
  match a with
  | ⟨0, _⟩ => show win0_0.index t (0 : Fin 2) * 1000 + 1 * r.val = R.val; rw [e0, hR]; omega
  | ⟨1, _⟩ => show win0_0.index t (1 : Fin 2) * 2048 + 1 * k.val = k.val; rw [e1]; omega

/-- Window 1's one block is the layer normalisation's scale, as a row. -/
theorem iblk1_at (c : Dev nD) (t : Fin cfg0.N) (k : Fin 1024) :
    (iblk m c 1 t : FVec Ideal S1x1024 .f32) (ix2 0 k) = (m ((c : Thread nD τ).loc main_arg3) : S1024.Idx → EReal) (ix1 k) := by
  obtain ⟨-, -, e0, e1, -⟩ := idx_facts t
  unfold iblk
  rw [View.read_apply]
  show (V m c main_v7 : S1x1024.Idx → EReal) _ = _
  rw [V_main_v7]
  refine shapeCast_apply _ _ _ (ix1 k) ?_
  rw [Shape.rowMajor_val_two, Shape.rowMajor_val_one]
  show k.val = (win0_1.index t (0 : Fin 2) * 1 + 1 * 0) * 1024 + (win0_1.index t (1 : Fin 2) * 1024 + 1 * k.val)
  rw [e0, e1]; omega

/-- Window 2's one block is the layer normalisation's shift, as a row. -/
theorem iblk2_at (c : Dev nD) (t : Fin cfg0.N) (k : Fin 1024) :
    (iblk m c 2 t : FVec Ideal S1x1024 .f32) (ix2 0 k) = (m ((c : Thread nD τ).loc main_arg4) : S1024.Idx → EReal) (ix1 k) := by
  obtain ⟨-, -, -, -, e0, e1, -⟩ := idx_facts t
  unfold iblk
  rw [View.read_apply]
  show (V m c main_v8 : S1x1024.Idx → EReal) _ = _
  rw [V_main_v8]
  refine shapeCast_apply _ _ _ (ix1 k) ?_
  rw [Shape.rowMajor_val_two, Shape.rowMajor_val_one]
  show k.val = (win0_2.index t (0 : Fin 2) * 1 + 1 * 0) * 1024 + (win0_2.index t (1 : Fin 2) * 1024 + 1 * k.val)
  rw [e0, e1]; omega

/-- Window 3's one block is the first weight matrix. -/
theorem iblk3_at (c : Dev nD) (t : Fin cfg0.N) (p : Fin 1024) (q : Fin 512) :
    (iblk m c 3 t : FVec Ideal S1024x512 .bf16) (ix2 p q) = (m ((c : Thread nD τ).loc main_arg5) : S1024x512.Idx → EReal) (ix2 p q) := by
  obtain ⟨-, -, -, -, -, -, e0, e1, -⟩ := idx_facts t
  unfold iblk
  rw [View.read_apply]
  show (V m c main_v4 : S1024x512.Idx → EReal) _ = _
  rw [V_main_v4]
  refine congrArg (m ((c : Thread nD τ).loc main_arg5) : S1024x512.Idx → EReal) (funext fun a => Fin.ext ?_)
  match a with
  | ⟨0, _⟩ => show win0_3.index t (0 : Fin 2) * 1024 + 1 * p.val = p.val; rw [e0]; omega
  | ⟨1, _⟩ => show win0_3.index t (1 : Fin 2) * 512 + 1 * q.val = q.val; rw [e1]; omega

/-- Window 4's one block is the first bias, as a row. -/
theorem iblk4_at (c : Dev nD) (t : Fin cfg0.N) (k : Fin 512) :
    (iblk m c 4 t : FVec Ideal S1x512 .f32) (ix2 0 k) = (m ((c : Thread nD τ).loc main_arg6) : S512.Idx → EReal) (ix1 k) := by
  obtain ⟨-, -, -, -, -, -, -, -, e0, e1, -⟩ := idx_facts t
  unfold iblk
  rw [View.read_apply]
  show (V m c main_v9 : S1x512.Idx → EReal) _ = _
  rw [V_main_v9]
  refine shapeCast_apply _ _ _ (ix1 k) ?_
  rw [Shape.rowMajor_val_two, Shape.rowMajor_val_one]
  show k.val = (win0_4.index t (0 : Fin 2) * 1 + 1 * 0) * 512 + (win0_4.index t (1 : Fin 2) * 512 + 1 * k.val)
  rw [e0, e1]; omega

/-- Window 5's one block is the second weight matrix. -/
theorem iblk5_at (c : Dev nD) (t : Fin cfg0.N) (p : Fin 512) (q : Fin 128) :
    (iblk m c 5 t : FVec Ideal S512x128 .bf16) (ix2 p q) = (m ((c : Thread nD τ).loc main_arg7) : S512x128.Idx → EReal) (ix2 p q) := by
  obtain ⟨-, -, -, -, -, -, -, -, -, -, e0, e1, -⟩ := idx_facts t
  unfold iblk
  rw [View.read_apply]
  show (V m c main_v5 : S512x128.Idx → EReal) _ = _
  rw [V_main_v5]
  refine congrArg (m ((c : Thread nD τ).loc main_arg7) : S512x128.Idx → EReal) (funext fun a => Fin.ext ?_)
  match a with
  | ⟨0, _⟩ => show win0_5.index t (0 : Fin 2) * 512 + 1 * p.val = p.val; rw [e0]; omega
  | ⟨1, _⟩ => show win0_5.index t (1 : Fin 2) * 128 + 1 * q.val = q.val; rw [e1]; omega

/-- Window 6's one block is the second bias, as a row. -/
theorem iblk6_at (c : Dev nD) (t : Fin cfg0.N) (k : Fin 128) :
    (iblk m c 6 t : FVec Ideal S1x128 .f32) (ix2 0 k) = (m ((c : Thread nD τ).loc main_arg8) : S128.Idx → EReal) (ix1 k) := by
  obtain ⟨-, -, -, -, -, -, -, -, -, -, -, -, e0, e1, -⟩ := idx_facts t
  unfold iblk
  rw [View.read_apply]
  show (V m c main_v10 : S1x128.Idx → EReal) _ = _
  rw [V_main_v10]
  refine shapeCast_apply _ _ _ (ix1 k) ?_
  rw [Shape.rowMajor_val_two, Shape.rowMajor_val_one]
  show k.val = (win0_6.index t (0 : Fin 2) * 1 + 1 * 0) * 128 + (win0_6.index t (1 : Fin 2) * 128 + 1 * k.val)
  rw [e0, e1]; omega

/-- Window 7's one block is the third weight matrix. -/
theorem iblk7_at (c : Dev nD) (t : Fin cfg0.N) (p : Fin 128) (q : Fin 64) :
    (iblk m c 7 t : FVec Ideal S128x64 .bf16) (ix2 p q) = (m ((c : Thread nD τ).loc main_arg9) : S128x64.Idx → EReal) (ix2 p q) := by
  obtain ⟨-, -, -, -, -, -, -, -, -, -, -, -, -, -, e0, e1, -⟩ := idx_facts t
  unfold iblk
  rw [View.read_apply]
  show (V m c main_v6 : S128x64.Idx → EReal) _ = _
  rw [V_main_v6]
  refine congrArg (m ((c : Thread nD τ).loc main_arg9) : S128x64.Idx → EReal) (funext fun a => Fin.ext ?_)
  match a with
  | ⟨0, _⟩ => show win0_7.index t (0 : Fin 2) * 128 + 1 * p.val = p.val; rw [e0]; omega
  | ⟨1, _⟩ => show win0_7.index t (1 : Fin 2) * 64 + 1 * q.val = q.val; rw [e1]; omega

/-- Window 8's one block is the third bias, as a row. -/
theorem iblk8_at (c : Dev nD) (t : Fin cfg0.N) (k : Fin 64) :
    (iblk m c 8 t : FVec Ideal S1x64 .f32) (ix2 0 k) = (m ((c : Thread nD τ).loc main_arg10) : S64.Idx → EReal) (ix1 k) := by
  obtain ⟨-, -, -, -, -, -, -, -, -, -, -, -, -, -, -, -, e0, e1, -⟩ := idx_facts t
  unfold iblk
  rw [View.read_apply]
  show (V m c main_v11 : S1x64.Idx → EReal) _ = _
  rw [V_main_v11]
  refine shapeCast_apply _ _ _ (ix1 k) ?_
  rw [Shape.rowMajor_val_two, Shape.rowMajor_val_one]
  show k.val = (win0_8.index t (0 : Fin 2) * 1 + 1 * 0) * 64 + (win0_8.index t (1 : Fin 2) * 64 + 1 * k.val)
  rw [e0, e1]; omega

/-! ## What each point writes back -/

/-- The head array of the program's arguments as core `c` holds them at launch. -/
abbrev HdOf (c : Dev nD) : S50000x64.Idx → EReal :=
  Cert.Spec.Hd (m ((c : Thread nD τ).loc main_arg0)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

/-- What point `t` writes back is block `t` of the head array. -/
theorem flushed9_eq (c : Dev nD) (t : Fin cfg0.N) :
    (dats m 0 c).flushed 9 t = ((cfg0.win 9).blk t).view.read (Elt Ideal) (HdOf m c) := by
  show (cfg0.win 9).cut (grid0.coords t) ((dats m 0 c).after 9 t) = _
  rw [after0_9]
  unfold out0_9
  rw [View.canon_unit_zero hz]
  simp only [View.ld_unit_zero (S := S1000x2048) hz, View.ld_unit_zero (S := S1x1024) hz, View.ld_unit_zero (S := S1024x512) hz,
    View.ld_unit_zero (S := S1x512) hz, View.ld_unit_zero (S := S512x128) hz, View.ld_unit_zero (S := S1x128) hz,
    View.ld_unit_zero (S := S128x64) hz, View.ld_unit_zero (S := S1x64) hz]
  refine funext fun (j : S1000x64.Idx) => ?_
  obtain ⟨r, q, rfl⟩ : ∃ (r : Fin 1000) (q : Fin 64), j = ix2 r q := ⟨j 0, j 1, eq_ix2 j⟩
  obtain ⟨-, -, -, -, -, -, -, -, -, -, -, -, -, -, -, -, -, -, e0, e1⟩ := idx_facts t
  have ht : t.val < 50 := Nat.lt_of_lt_of_eq t.isLt N_0
  have hR : ((cfg0.win 9).blk t).view.emb (ix2 r q) = ix2 (⟨t.val * 1000 + r.val, by omega⟩ : Fin 50000) q :=
    funext fun a => Fin.ext (by
      match a with
      | ⟨0, _⟩ => show win0_9.index t (0 : Fin 2) * 1000 + 1 * r.val = t.val * 1000 + r.val; rw [e0]; omega
      | ⟨1, _⟩ => show win0_9.index t (1 : Fin 2) * 64 + 1 * q.val = q.val; rw [e1]; omega)
  show k0_pay1 (F := Ideal) (k0_pay2 (F := Ideal) (iblk m c 0 t) (iblk m c 1 t) (iblk m c 2 t) (iblk m c 3 t) (iblk m c 4 t))
      (k0_pay3 (F := Ideal) (iblk m c 0 t) (iblk m c 1 t) (iblk m c 2 t) (iblk m c 3 t) (iblk m c 4 t))
      (k0_pay4 (F := Ideal) (iblk m c 0 t) (iblk m c 1 t) (iblk m c 2 t) (iblk m c 3 t) (iblk m c 4 t))
      (Scalar.ofBits (F := Ideal) .f32 0x3F800000#32) (iblk m c 5 t) (iblk m c 6 t) (iblk m c 7 t) (iblk m c 8 t) (ix2 r q)
    = HdOf m c (((cfg0.win 9).blk t).view.emb (ix2 r q))
  refine (pay_row (iblk m c 0 t) (iblk m c 1 t) (iblk m c 2 t) (iblk m c 3 t) (iblk m c 4 t) (iblk m c 5 t) (iblk m c 6 t)
    (iblk m c 7 t) (iblk m c 8 t) r q).trans ?_
  rw [hR]
  refine Eq.trans ?_ (Cert.Spec.Hd_ix2 _ _ _ _ _ _ _ _ _ _ q).symm
  have h0 : (fun k : Fin 2048 => (iblk m c 0 t : FVec Ideal S1000x2048 .f32) (ix2 r k))
      = fun k => (m ((c : Thread nD τ).loc main_arg0) : S50000x2048.Idx → EReal) (ix2 (⟨t.val * 1000 + r.val, by omega⟩ : Fin 50000) k) :=
    funext fun k => iblk0_at m c t r k _ rfl
  have h1 : (fun k : Fin 1024 => (iblk m c 1 t : FVec Ideal S1x1024 .f32) (ix2 0 k))
      = fun k => (m ((c : Thread nD τ).loc main_arg3) : S1024.Idx → EReal) (ix1 k) := funext fun k => iblk1_at m c t k
  have h2 : (fun k : Fin 1024 => (iblk m c 2 t : FVec Ideal S1x1024 .f32) (ix2 0 k))
      = fun k => (m ((c : Thread nD τ).loc main_arg4) : S1024.Idx → EReal) (ix1 k) := funext fun k => iblk2_at m c t k
  have h3 : (fun (p : Fin 1024) (q : Fin 512) => (iblk m c 3 t : FVec Ideal S1024x512 .bf16) (ix2 p q))
      = fun p q => (m ((c : Thread nD τ).loc main_arg5) : S1024x512.Idx → EReal) (ix2 p q) :=
    funext fun p => funext fun q => iblk3_at m c t p q
  have h4 : (fun k : Fin 512 => (iblk m c 4 t : FVec Ideal S1x512 .f32) (ix2 0 k))
      = fun k => (m ((c : Thread nD τ).loc main_arg6) : S512.Idx → EReal) (ix1 k) := funext fun k => iblk4_at m c t k
  have h5 : (fun (p : Fin 512) (q : Fin 128) => (iblk m c 5 t : FVec Ideal S512x128 .bf16) (ix2 p q))
      = fun p q => (m ((c : Thread nD τ).loc main_arg7) : S512x128.Idx → EReal) (ix2 p q) :=
    funext fun p => funext fun q => iblk5_at m c t p q
  have h6 : (fun k : Fin 128 => (iblk m c 6 t : FVec Ideal S1x128 .f32) (ix2 0 k))
      = fun k => (m ((c : Thread nD τ).loc main_arg8) : S128.Idx → EReal) (ix1 k) := funext fun k => iblk6_at m c t k
  have h7 : (fun (p : Fin 128) (q : Fin 64) => (iblk m c 7 t : FVec Ideal S128x64 .bf16) (ix2 p q))
      = fun p q => (m ((c : Thread nD τ).loc main_arg9) : S128x64.Idx → EReal) (ix2 p q) :=
    funext fun p => funext fun q => iblk7_at m c t p q
  have h8 : (fun k : Fin 64 => (iblk m c 8 t : FVec Ideal S1x64 .f32) (ix2 0 k))
      = fun k => (m ((c : Thread nD τ).loc main_arg10) : S64.Idx → EReal) (ix1 k) := funext fun k => iblk8_at m c t k
  rw [h0, h1, h2, h3, h4, h5, h6, h7, h8]

/-! ## The blocks cover the array -/

/-- An index of the array is in point `t`'s block iff each coordinate is in the block's range on its axis. -/
theorem mem_blk9 (t : Fin cfg0.N) (i : S50000x64.Idx) :
    i ∈ ((cfg0.win 9).blk t).view.set
      ↔ ∀ a : Fin 2, win0_9.index t a * S1000x64.size a ≤ (i a).val ∧ (i a).val < win0_9.index t a * S1000x64.size a + S1000x64.size a := by
  show i ∈ ((View.whole main_v12).slice (win0_9.rect t)).set ↔ _
  rw [View.set_slice_whole, Rect.mem_set_unit]
  exact Iff.rfl

/-- Row `i` lies in the block of point `i / 1000`. -/
theorem cover9 (i : S50000x64.Idx) : ∃ t : Fin cfg0.N, (cfg0.win 9).flush t = true ∧ i ∈ ((cfg0.win 9).blk t).view.set := by
  have hi0 : (i 0).val < 50000 := (i 0).isLt
  have hi1 : (i 1).val < 64 := (i 1).isLt
  refine ⟨⟨(i 0).val / 1000, Nat.lt_of_lt_of_eq (by omega) N_0.symm⟩, flush0_9 _, ?_⟩
  obtain ⟨-, -, -, -, -, -, -, -, -, -, -, -, -, -, -, -, -, -, e0, e1⟩ :=
    idx_facts ⟨(i 0).val / 1000, Nat.lt_of_lt_of_eq (by omega) N_0.symm⟩
  rw [mem_blk9]
  intro a
  match a with
  | ⟨0, _⟩ =>
    show win0_9.index _ (0 : Fin 2) * 1000 ≤ (i 0).val ∧ (i 0).val < win0_9.index _ (0 : Fin 2) * 1000 + 1000
    rw [e0]; show (i 0).val / 1000 * 1000 ≤ (i 0).val ∧ (i 0).val < (i 0).val / 1000 * 1000 + 1000; omega
  | ⟨1, _⟩ =>
    show win0_9.index _ (1 : Fin 2) * 64 ≤ (i 1).val ∧ (i 1).val < win0_9.index _ (1 : Fin 2) * 64 + 64
    rw [e1]; omega

/-! ## The array after the region -/

/-- The region's output array ends holding the head array of the arguments. -/
theorem final9 (c : Dev nD) :
    (dats (F := Ideal) m 0 c).arrAt 9 cfg0.N
      = Cert.Spec.Hd (m ((c : Thread nD τ).loc main_arg0)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) :=
  (dats m 0 c).arrAt_eq_of_cover 9 (HdOf m c) (fun t _ => flushed9_eq m c t) cover9

end Cert.KernelIdeal.Hand

end
-- ==== Proof.TailDef.lean ====
import proofs.«154459_j82652350644592_1_alg».proof.Proof.Gen.KernelIdeal.Launch
import Idealize.ShloMosaic.Lib.StableHlo.Run
import Idealize.ShloMosaic.PureOps.Ideal

/-!
# The shared tail as one function

Both programs end with the same host operations: two graph convolutions with gather and scatter-add, an ELU between
them, the gather of the selected edges' end rows and a two-layer link predictor. This module names that chain: five
stretches, each the composition of the printed operations of one list of the generated launch module, and `Tail`,
their composition. A certificate shows each program's result buffer is `Tail` of its inputs and never opens it.
-/

noncomputable section

namespace Cert.KernelIdeal.Hand

open Idealize.ShloMosaic Idealize.ShloMosaic.TcCoe
open Cert.KernelIdeal.Gen

/-- The first graph convolution: the features times the weight, every edge (and every node's self loop) weighted by
    the inverse square roots of its two ends' degrees, gathered at the source, summed at the target, plus the bias.
    The operations of `Gen.hostOps1`, one binding each, in program order. -/
def tailConv1 (h : FVec Ideal S50000x64 .f32) (src : IVec S1600000 32) (dst : IVec S1600000 32)
    (c1w : FVec Ideal S64x32 .f32) (c1b : FVec Ideal S32 .f32) :
    FVec Ideal S50000x32 .f32 :=
  have v13 : FVec Ideal S50000x32 .f32 := Host.dotGeneral (F := Ideal) dot_S50000x64_S64x32_S50000x32_1_0_0_1_n_n none h c1w
  have v14 : IVec S50000 32 := iotaInDim S50000 32 0
  have v15 : IVec S1650000 32 := concatenate S1650000 0 [⟨S1600000, src⟩, ⟨S50000, v14⟩] concatenates_S1600000_S50000_S1650000_d0
  have v16 : IVec S1650000 32 := concatenate S1650000 0 [⟨S1600000, dst⟩, ⟨S50000, v14⟩] concatenates_S1600000_S50000_S1650000_d0
  have cst : FVec Ideal S_ .f32 := constant (F := Ideal) S_ .f32 0x3F800000#32
  have v17 : FVec Ideal S1650000 .f32 := broadcastInDim S1650000 ![] bcast_S_S1650000 cst
  have cst_0 : FVec Ideal S_ .f32 := constant (F := Ideal) S_ .f32 0x00000000#32
  have v18 : FVec Ideal S50000 .f32 := broadcastInDim S50000 ![] bcast_S_S50000 cst_0
  have v19 : IVec S1650000x1 32 := broadcastInDim S1650000x1 ![0] bcast_S1650000_S1650000x1_0 v16
  have v20 : FVec Ideal S50000 .f32 := Host.scatterAdd (F := Ideal) scatter_S50000_S1650000x1_S1650000_n_0_0_1 v18 v19 v17
  have cst_1 : FVec Ideal S_ .f32 := constant (F := Ideal) S_ .f32 0x2B8CBCCC#32
  have v21 : FVec Ideal S50000 .f32 := broadcastInDim S50000 ![] bcast_S_S50000 cst_1
  have v22 : FVec Ideal S50000 .f32 := maximumf (F := Ideal) v20 v21
  have v23 : FVec Ideal S50000 .f32 := Host.rsqrt (F := Ideal) v22
  have c : IVec S_ 32 := constantI S_ 32 0#32
  have v24 : IVec S1650000 32 := broadcastInDim S1650000 ![] bcast_S_S1650000 c
  have v25 : IVec S1650000 1 := cmpi .slt v15 v24
  have c_2 : IVec S_ 32 := constantI S_ 32 50000#32
  have v26 : IVec S1650000 32 := broadcastInDim S1650000 ![] bcast_S_S1650000 c_2
  have v27 : IVec S1650000 32 := addi v15 v26
  have v28 : IVec S1650000 32 := select v25 v27 v15
  have v29 : IVec S1650000x1 32 := broadcastInDim S1650000x1 ![0] bcast_S1650000_S1650000x1_0 v28
  have v30 : FVec Ideal S1650000 .f32 := Host.gather gather_S50000_S1650000x1_S1650000_n_0_n_n_0_1_1 v23 v29
  have c_3 : IVec S_ 32 := constantI S_ 32 0#32
  have v31 : IVec S1650000 32 := broadcastInDim S1650000 ![] bcast_S_S1650000 c_3
  have v32 : IVec S1650000 1 := cmpi .slt v16 v31
  have c_4 : IVec S_ 32 := constantI S_ 32 50000#32
  have v33 : IVec S1650000 32 := broadcastInDim S1650000 ![] bcast_S_S1650000 c_4
  have v34 : IVec S1650000 32 := addi v16 v33
  have v35 : IVec S1650000 32 := select v32 v34 v16
  have v36 : IVec S1650000x1 32 := broadcastInDim S1650000x1 ![0] bcast_S1650000_S1650000x1_0 v35
  have v37 : FVec Ideal S1650000 .f32 := Host.gather gather_S50000_S1650000x1_S1650000_n_0_n_n_0_1_1 v23 v36
  have v38 : FVec Ideal S1650000 .f32 := mulf (F := Ideal) v30 v37
  have c_5 : IVec S_ 32 := constantI S_ 32 0#32
  have v39 : IVec S1650000 32 := broadcastInDim S1650000 ![] bcast_S_S1650000 c_5
  have v40 : IVec S1650000 1 := cmpi .slt v15 v39
  have c_6 : IVec S_ 32 := constantI S_ 32 50000#32
  have v41 : IVec S1650000 32 := broadcastInDim S1650000 ![] bcast_S_S1650000 c_6
  have v42 : IVec S1650000 32 := addi v15 v41
  have v43 : IVec S1650000 32 := select v40 v42 v15
  have v44 : IVec S1650000x1 32 := broadcastInDim S1650000x1 ![0] bcast_S1650000_S1650000x1_0 v43
  have v45 : FVec Ideal S1650000x32 .f32 := Host.gather gather_S50000x32_S1650000x1_S1650000x32_1_0_n_n_0_1_132 v13 v44
  have v46 : FVec Ideal S1650000x1 .f32 := broadcastInDim S1650000x1 ![0] bcast_S1650000_S1650000x1_0 v38
  have v47 : FVec Ideal S1650000x32 .f32 := broadcastInDim S1650000x32 ![0, 1] bcast_S1650000x1_S1650000x32_0_1 v46
  have v48 : FVec Ideal S1650000x32 .f32 := mulf (F := Ideal) v45 v47
  have cst_7 : FVec Ideal S_ .f32 := constant (F := Ideal) S_ .f32 0x00000000#32
  have v49 : FVec Ideal S50000x32 .f32 := broadcastInDim S50000x32 ![] bcast_S_S50000x32 cst_7
  have v50 : IVec S1650000x1 32 := broadcastInDim S1650000x1 ![0] bcast_S1650000_S1650000x1_0 v16
  have v51 : FVec Ideal S50000x32 .f32 := Host.scatterAdd (F := Ideal) scatter_S50000x32_S1650000x1_S1650000x32_1_0_0_1 v49 v50 v48
  have v52 : FVec Ideal S1x32 .f32 := broadcastInDim S1x32 ![1] bcast_S32_S1x32_1 c1b
  have v53 : FVec Ideal S50000x32 .f32 := broadcastInDim S50000x32 ![0, 1] bcast_S1x32_S50000x32_0_1 v52
  have v54 : FVec Ideal S50000x32 .f32 := addf (F := Ideal) v51 v53
  v54

/-- The ELU between the convolutions: `x` where `x > 0`, else `exp x - 1` (taken at `x` only where `x ≤ 0`, at `0` elsewhere).
    The operations of `Gen.hostOps1_1`, one binding each, in program order. -/
def tailElu1 (x : FVec Ideal S50000x32 .f32) :
    FVec Ideal S50000x32 .f32 :=
  have cst : FVec Ideal S_ .f32 := constant (F := Ideal) S_ .f32 0x00000000#32
  have v0 : FVec Ideal S50000x32 .f32 := broadcastInDim S50000x32 ![] bcast_S_S50000x32 cst
  have v1 : IVec S50000x32 1 := cmpf (F := Ideal) .ogt x v0
  have cst_0 : FVec Ideal S_ .f32 := constant (F := Ideal) S_ .f32 0x00000000#32
  have v2 : FVec Ideal S50000x32 .f32 := broadcastInDim S50000x32 ![] bcast_S_S50000x32 cst_0
  have v3 : IVec S50000x32 1 := cmpf (F := Ideal) .ogt x v2
  have cst_1 : FVec Ideal S_ .f32 := constant (F := Ideal) S_ .f32 0x00000000#32
  have call0_v0 : FVec Ideal S_ .f32 := id cst_1
  have call0_v1 : FVec Ideal S50000x32 .f32 := broadcastInDim S50000x32 ![] bcast_S_S50000x32 call0_v0
  have v4 : FVec Ideal S50000x32 .f32 := select v3 call0_v1 x
  have v5 : FVec Ideal S50000x32 .f32 := Host.expm1 (F := Ideal) v4
  have cst_2 : FVec Ideal S_ .f32 := constant (F := Ideal) S_ .f32 0x3F800000#32
  have v6 : FVec Ideal S50000x32 .f32 := broadcastInDim S50000x32 ![] bcast_S_S50000x32 cst_2
  have v7 : FVec Ideal S50000x32 .f32 := mulf (F := Ideal) v6 v5
  have v55 : FVec Ideal S50000x32 .f32 := select v1 x v7
  v55

/-- The second graph convolution (as the first), the gather of the selected edges' two end rows, laid side by side,
    and the link predictor's first layer on them.
    The operations of `Gen.hostOps1_2`, one binding each, in program order. -/
def tailConv2 (x : FVec Ideal S50000x32 .f32) (src : IVec S1600000 32) (dst : IVec S1600000 32)
    (ei : IVec S2x1600000 32) (mask : IVec S200000 32) (c2w : FVec Ideal S32x16 .f32) (c2b : FVec Ideal S16 .f32)
    (lw1 : FVec Ideal S32x16 .f32) (lb1 : FVec Ideal S16 .f32) :
    FVec Ideal S200000x16 .f32 :=
  have v56 : FVec Ideal S50000x16 .f32 := Host.dotGeneral (F := Ideal) dot_S50000x32_S32x16_S50000x16_1_0_0_1_n_n none x c2w
  have v57 : IVec S50000 32 := iotaInDim S50000 32 0
  have v58 : IVec S1650000 32 := concatenate S1650000 0 [⟨S1600000, src⟩, ⟨S50000, v57⟩] concatenates_S1600000_S50000_S1650000_d0
  have v59 : IVec S1650000 32 := concatenate S1650000 0 [⟨S1600000, dst⟩, ⟨S50000, v57⟩] concatenates_S1600000_S50000_S1650000_d0
  have cst_8 : FVec Ideal S_ .f32 := constant (F := Ideal) S_ .f32 0x3F800000#32
  have v60 : FVec Ideal S1650000 .f32 := broadcastInDim S1650000 ![] bcast_S_S1650000 cst_8
  have cst_9 : FVec Ideal S_ .f32 := constant (F := Ideal) S_ .f32 0x00000000#32
  have v61 : FVec Ideal S50000 .f32 := broadcastInDim S50000 ![] bcast_S_S50000 cst_9
  have v62 : IVec S1650000x1 32 := broadcastInDim S1650000x1 ![0] bcast_S1650000_S1650000x1_0 v59
  have v63 : FVec Ideal S50000 .f32 := Host.scatterAdd (F := Ideal) scatter_S50000_S1650000x1_S1650000_n_0_0_1 v61 v62 v60
  have cst_10 : FVec Ideal S_ .f32 := constant (F := Ideal) S_ .f32 0x2B8CBCCC#32
  have v64 : FVec Ideal S50000 .f32 := broadcastInDim S50000 ![] bcast_S_S50000 cst_10
  have v65 : FVec Ideal S50000 .f32 := maximumf (F := Ideal) v63 v64
  have v66 : FVec Ideal S50000 .f32 := Host.rsqrt (F := Ideal) v65
  have c_11 : IVec S_ 32 := constantI S_ 32 0#32
  have v67 : IVec S1650000 32 := broadcastInDim S1650000 ![] bcast_S_S1650000 c_11
  have v68 : IVec S1650000 1 := cmpi .slt v58 v67
  have c_12 : IVec S_ 32 := constantI S_ 32 50000#32
  have v69 : IVec S1650000 32 := broadcastInDim S1650000 ![] bcast_S_S1650000 c_12
  have v70 : IVec S1650000 32 := addi v58 v69
  have v71 : IVec S1650000 32 := select v68 v70 v58
  have v72 : IVec S1650000x1 32 := broadcastInDim S1650000x1 ![0] bcast_S1650000_S1650000x1_0 v71
  have v73 : FVec Ideal S1650000 .f32 := Host.gather gather_S50000_S1650000x1_S1650000_n_0_n_n_0_1_1 v66 v72
  have c_13 : IVec S_ 32 := constantI S_ 32 0#32
  have v74 : IVec S1650000 32 := broadcastInDim S1650000 ![] bcast_S_S1650000 c_13
  have v75 : IVec S1650000 1 := cmpi .slt v59 v74
  have c_14 : IVec S_ 32 := constantI S_ 32 50000#32
  have v76 : IVec S1650000 32 := broadcastInDim S1650000 ![] bcast_S_S1650000 c_14
  have v77 : IVec S1650000 32 := addi v59 v76
  have v78 : IVec S1650000 32 := select v75 v77 v59
  have v79 : IVec S1650000x1 32 := broadcastInDim S1650000x1 ![0] bcast_S1650000_S1650000x1_0 v78
  have v80 : FVec Ideal S1650000 .f32 := Host.gather gather_S50000_S1650000x1_S1650000_n_0_n_n_0_1_1 v66 v79
  have v81 : FVec Ideal S1650000 .f32 := mulf (F := Ideal) v73 v80
  have c_15 : IVec S_ 32 := constantI S_ 32 0#32
  have v82 : IVec S1650000 32 := broadcastInDim S1650000 ![] bcast_S_S1650000 c_15
  have v83 : IVec S1650000 1 := cmpi .slt v58 v82
  have c_16 : IVec S_ 32 := constantI S_ 32 50000#32
  have v84 : IVec S1650000 32 := broadcastInDim S1650000 ![] bcast_S_S1650000 c_16
  have v85 : IVec S1650000 32 := addi v58 v84
  have v86 : IVec S1650000 32 := select v83 v85 v58
  have v87 : IVec S1650000x1 32 := broadcastInDim S1650000x1 ![0] bcast_S1650000_S1650000x1_0 v86
  have v88 : FVec Ideal S1650000x16 .f32 := Host.gather gather_S50000x16_S1650000x1_S1650000x16_1_0_n_n_0_1_116 v56 v87
  have v89 : FVec Ideal S1650000x1 .f32 := broadcastInDim S1650000x1 ![0] bcast_S1650000_S1650000x1_0 v81
  have v90 : FVec Ideal S1650000x16 .f32 := broadcastInDim S1650000x16 ![0, 1] bcast_S1650000x1_S1650000x16_0_1 v89
  have v91 : FVec Ideal S1650000x16 .f32 := mulf (F := Ideal) v88 v90
  have cst_17 : FVec Ideal S_ .f32 := constant (F := Ideal) S_ .f32 0x00000000#32
  have v92 : FVec Ideal S50000x16 .f32 := broadcastInDim S50000x16 ![] bcast_S_S50000x16 cst_17
  have v93 : IVec S1650000x1 32 := broadcastInDim S1650000x1 ![0] bcast_S1650000_S1650000x1_0 v59
  have v94 : FVec Ideal S50000x16 .f32 := Host.scatterAdd (F := Ideal) scatter_S50000x16_S1650000x1_S1650000x16_1_0_0_1 v92 v93 v91
  have v95 : FVec Ideal S1x16 .f32 := broadcastInDim S1x16 ![1] bcast_S16_S1x16_1 c2b
  have v96 : FVec Ideal S50000x16 .f32 := broadcastInDim S50000x16 ![0, 1] bcast_S1x16_S50000x16_0_1 v95
  have v97 : FVec Ideal S50000x16 .f32 := addf (F := Ideal) v94 v96
  have c_18 : IVec S_ 32 := constantI S_ 32 0#32
  have v98 : IVec S200000 32 := broadcastInDim S200000 ![] bcast_S_S200000 c_18
  have v99 : IVec S200000 1 := cmpi .slt mask v98
  have c_19 : IVec S_ 32 := constantI S_ 32 1600000#32
  have v100 : IVec S200000 32 := broadcastInDim S200000 ![] bcast_S_S200000 c_19
  have v101 : IVec S200000 32 := addi mask v100
  have v102 : IVec S200000 32 := select v99 v101 mask
  have v103 : IVec S200000x1 32 := broadcastInDim S200000x1 ![0] bcast_S200000_S200000x1_0 v102
  have v104 : IVec S2x200000 32 := Host.gather gather_S2x1600000_S200000x1_S2x200000_0_1_n_n_1_1_21 ei v103
  have v105 : IVec S1x200000 32 := extractStridedSlice S1x200000 ![0, 0] v104 slices_S2x200000_S1x200000_0_0
  have v106 : IVec S200000 32 := shapeCast S200000 v105 shapeCasts_S1x200000_S200000
  have c_20 : IVec S_ 32 := constantI S_ 32 0#32
  have v107 : IVec S200000 32 := broadcastInDim S200000 ![] bcast_S_S200000 c_20
  have v108 : IVec S200000 1 := cmpi .slt v106 v107
  have c_21 : IVec S_ 32 := constantI S_ 32 50000#32
  have v109 : IVec S200000 32 := broadcastInDim S200000 ![] bcast_S_S200000 c_21
  have v110 : IVec S200000 32 := addi v106 v109
  have v111 : IVec S200000 32 := select v108 v110 v106
  have v112 : IVec S200000x1 32 := broadcastInDim S200000x1 ![0] bcast_S200000_S200000x1_0 v111
  have v113 : FVec Ideal S200000x16 .f32 := Host.gather gather_S50000x16_S200000x1_S200000x16_1_0_n_n_0_1_116 v97 v112
  have v114 : IVec S1x200000 32 := extractStridedSlice S1x200000 ![1, 0] v104 slices_S2x200000_S1x200000_1_0
  have v115 : IVec S200000 32 := shapeCast S200000 v114 shapeCasts_S1x200000_S200000
  have c_22 : IVec S_ 32 := constantI S_ 32 0#32
  have v116 : IVec S200000 32 := broadcastInDim S200000 ![] bcast_S_S200000 c_22
  have v117 : IVec S200000 1 := cmpi .slt v115 v116
  have c_23 : IVec S_ 32 := constantI S_ 32 50000#32
  have v118 : IVec S200000 32 := broadcastInDim S200000 ![] bcast_S_S200000 c_23
  have v119 : IVec S200000 32 := addi v115 v118
  have v120 : IVec S200000 32 := select v117 v119 v115
  have v121 : IVec S200000x1 32 := broadcastInDim S200000x1 ![0] bcast_S200000_S200000x1_0 v120
  have v122 : FVec Ideal S200000x16 .f32 := Host.gather gather_S50000x16_S200000x1_S200000x16_1_0_n_n_0_1_116 v97 v121
  have v123 : FVec Ideal S200000x32 .f32 := concatenate S200000x32 1 [⟨S200000x16, v113⟩, ⟨S200000x16, v122⟩] concatenates_S200000x16_S200000x16_S200000x32_d1
  have v124 : FVec Ideal S200000x16 .f32 := Host.dotGeneral (F := Ideal) dot_S200000x32_S32x16_S200000x16_1_0_0_1_n_n none v123 lw1
  have v125 : FVec Ideal S1x16 .f32 := broadcastInDim S1x16 ![1] bcast_S16_S1x16_1 lb1
  have v126 : FVec Ideal S200000x16 .f32 := broadcastInDim S200000x16 ![0, 1] bcast_S1x16_S200000x16_0_1 v125
  have v127 : FVec Ideal S200000x16 .f32 := addf (F := Ideal) v124 v126
  v127

/-- The ELU inside the link predictor.
    The operations of `Gen.hostOps1_3`, one binding each, in program order. -/
def tailElu2 (x : FVec Ideal S200000x16 .f32) :
    FVec Ideal S200000x16 .f32 :=
  have cst : FVec Ideal S_ .f32 := constant (F := Ideal) S_ .f32 0x00000000#32
  have v0 : FVec Ideal S200000x16 .f32 := broadcastInDim S200000x16 ![] bcast_S_S200000x16 cst
  have v1 : IVec S200000x16 1 := cmpf (F := Ideal) .ogt x v0
  have cst_0 : FVec Ideal S_ .f32 := constant (F := Ideal) S_ .f32 0x00000000#32
  have v2 : FVec Ideal S200000x16 .f32 := broadcastInDim S200000x16 ![] bcast_S_S200000x16 cst_0
  have v3 : IVec S200000x16 1 := cmpf (F := Ideal) .ogt x v2
  have cst_1 : FVec Ideal S_ .f32 := constant (F := Ideal) S_ .f32 0x00000000#32
  have call0_v0 : FVec Ideal S_ .f32 := id cst_1
  have call0_v1 : FVec Ideal S200000x16 .f32 := broadcastInDim S200000x16 ![] bcast_S_S200000x16 call0_v0
  have v4 : FVec Ideal S200000x16 .f32 := select v3 call0_v1 x
  have v5 : FVec Ideal S200000x16 .f32 := Host.expm1 (F := Ideal) v4
  have cst_2 : FVec Ideal S_ .f32 := constant (F := Ideal) S_ .f32 0x3F800000#32
  have v6 : FVec Ideal S200000x16 .f32 := broadcastInDim S200000x16 ![] bcast_S_S200000x16 cst_2
  have v7 : FVec Ideal S200000x16 .f32 := mulf (F := Ideal) v6 v5
  have v128 : FVec Ideal S200000x16 .f32 := select v1 x v7
  v128

/-- The link predictor's second layer.
    The operations of `Gen.hostOps1_4`, one binding each, in program order. -/
def tailPred2 (x : FVec Ideal S200000x16 .f32) (lw2 : FVec Ideal S16x2 .f32) (lb2 : FVec Ideal S2 .f32) :
    FVec Ideal S200000x2 .f32 :=
  have v129 : FVec Ideal S200000x2 .f32 := Host.dotGeneral (F := Ideal) dot_S200000x16_S16x2_S200000x2_1_0_0_1_n_n none x lw2
  have v130 : FVec Ideal S1x2 .f32 := broadcastInDim S1x2 ![1] bcast_S2_S1x2_1 lb2
  have v131 : FVec Ideal S200000x2 .f32 := broadcastInDim S200000x2 ![0, 1] bcast_S1x2_S200000x2_0_1 v130
  have v132 : FVec Ideal S200000x2 .f32 := addf (F := Ideal) v129 v131
  v132

/-- The shared tail: from the node features `h`, the edges' sources `src` and targets `dst`, the edge table `ei`, the
    selected edges `mask` and the six weights and biases, the link predictor's output on the selected edges. -/
def Tail (h : FVec Ideal S50000x64 .f32) (src dst : IVec S1600000 32) (ei : IVec S2x1600000 32) (mask : IVec S200000 32)
    (c1w : FVec Ideal S64x32 .f32) (c1b : FVec Ideal S32 .f32) (c2w : FVec Ideal S32x16 .f32) (c2b : FVec Ideal S16 .f32)
    (lw1 : FVec Ideal S32x16 .f32) (lb1 : FVec Ideal S16 .f32) (lw2 : FVec Ideal S16x2 .f32) (lb2 : FVec Ideal S2 .f32) :
    FVec Ideal S200000x2 .f32 :=
  tailPred2 (tailElu2 (tailConv2 (tailElu1 (tailConv1 h src dst c1w c1b)) src dst ei mask c2w c2b lw1 lb1)) lw2 lb2

end Cert.KernelIdeal.Hand

end
-- ==== Proof.LibAfter.lean ====
import Idealize.ShloMosaic.Lib.StableHlo.Run

/-!
# Two general facts for reading a line of host operations back

* `after_append`: the contents after two lines run in a row are the second line's from where the first ended, so a long
  line is read back stretch by stretch.
* `concatenate_pair_congr`: a two-piece concatenation depends on each piece only through its value. The shape evidence
  of `concatenate` is stated over the list of pieces, which keeps a rewriting pass from entering the list; as a
  congruence rule this lets it rewrite each piece in place.
-/

namespace Cert.Lib

open Idealize.ShloMosaic

/-- Running two lines of operations in a row is running the second from where the first ended. -/
theorem after_append {τ : Topo} {sig : RefSig} {Val : EltTy → Type} :
    ∀ (l₁ l₂ : List (HloOp τ sig Val)) (V : Valuation τ sig Val),
      StableHlo.after (l₁ ++ l₂) V = StableHlo.after l₂ (StableHlo.after l₁ V)
  | [], _, _ => rfl
  | op :: l₁, l₂, V => by
    rw [List.cons_append, StableHlo.after_cons, StableHlo.after_cons, after_append l₁ l₂]

/-- Two-piece concatenation respects equality of each piece (the evidence only reads the pieces' shapes). -/
theorem concatenate_pair_congr {α : Type} {t s₁ s₂ : Shape} {ax : Fin t.rank} {a a' : s₁.Idx → α} {b b' : s₂.Idx → α}
    {h : Shape.Concatenates [s₁, s₂] t ax} (ha : a = a') (hb : b = b') :
    concatenate t ax [⟨s₁, a⟩, ⟨s₂, b⟩] h = concatenate t ax [⟨s₁, a'⟩, ⟨s₂, b'⟩] h := by
  subst ha hb; rfl

end Cert.Lib
-- ==== Proof.TailK.lean ====
import proofs.«154459_j82652350644592_1_alg».proof.Proof.TailDef
import proofs.«154459_j82652350644592_1_alg».proof.Proof.LibAfter

/-!
# The kernel's tail, read back as `Tail`

After its one kernel region the kernel program runs five stretches of host operations: a graph convolution, an ELU
call, the second convolution with the edge gather and the link predictor's first layer, a second ELU call and the
predictor's last layer. Each stretch's result buffer is read back as the matching stretch of `TailDef` applied to
what the stretch's argument buffers held before it; each buffer a later stretch reads and no earlier one writes is
carried back unchanged; composing the five gives the result buffer as `Tail` of the contents before the first stretch.
-/

noncomputable section

namespace Cert.KernelIdeal.Hand

open Idealize.ShloMosaic Idealize.ShloMosaic.TcCoe Idealize.ShloMosaic.StableHlo
open Cert.KernelIdeal.Gen Cert.Lib

attribute [local congr] concatenate_pair_congr

/-! ## Each stretch's result -/

/-- The first stretch's result buffer holds the first convolution of what the stretch read. -/
theorem tailConv1_eq (V : Valuation τ sig (Elt Ideal)) :
    StableHlo.after hostOps1 V (Proc.devRef .tc main_v54)
      = tailConv1 (V (Proc.devRef .tc main_v12)) (V (Proc.devRef .tc main_v1)) (V (Proc.devRef .tc main_v3))
          (V (Proc.devRef .tc main_arg11)) (V (Proc.devRef .tc main_arg12)) := by
  dsimp only [hostOps1]
  after_results_simp
  rfl

/-- The first ELU call's result buffer holds the ELU of its argument buffer. -/
theorem tailElu1_eq (V : Valuation τ sig (Elt Ideal)) :
    StableHlo.after hostOps1_1 V (Proc.devRef .tc main_v55) = tailElu1 (V (Proc.devRef .tc main_v54)) := by
  dsimp only [hostOps1_1]
  after_results_simp
  rfl

set_option maxHeartbeats 4000000 in
/-- The long stretch's result buffer: the second convolution, the selected edges' end rows and the predictor's first layer. -/
theorem tailConv2_eq (V : Valuation τ sig (Elt Ideal)) :
    StableHlo.after hostOps1_2 V (Proc.devRef .tc main_v127)
      = tailConv2 (V (Proc.devRef .tc main_v55)) (V (Proc.devRef .tc main_v1)) (V (Proc.devRef .tc main_v3))
          (V (Proc.devRef .tc main_arg1)) (V (Proc.devRef .tc main_arg2))
          (V (Proc.devRef .tc main_arg13)) (V (Proc.devRef .tc main_arg14))
          (V (Proc.devRef .tc main_arg15)) (V (Proc.devRef .tc main_arg16)) := by
  dsimp only [hostOps1_2]
  after_results_simp
  rfl

/-- The second ELU call's result buffer holds the ELU of its argument buffer. -/
theorem tailElu2_eq (V : Valuation τ sig (Elt Ideal)) :
    StableHlo.after hostOps1_3 V (Proc.devRef .tc main_v128) = tailElu2 (V (Proc.devRef .tc main_v127)) := by
  dsimp only [hostOps1_3]
  after_results_simp
  rfl

/-- The last stretch's result buffer holds the predictor's second layer. -/
theorem tailPred2_eq (V : Valuation τ sig (Elt Ideal)) :
    StableHlo.after hostOps1_4 V (Proc.devRef .tc main_v132)
      = tailPred2 (V (Proc.devRef .tc main_v128)) (V (Proc.devRef .tc main_arg17)) (V (Proc.devRef .tc main_arg18)) := by
  dsimp only [hostOps1_4]
  after_results_simp
  rfl

/-! ## What each stretch leaves alone

A later stretch reads the edge lists, the edge table, the selection and the weights from buffers no earlier stretch
writes: each holds after the stretch what it held before. One statement per stretch and buffer. -/

/-- `keeps_thm name ops r`: the line `ops` leaves the buffer `r`, which none of its operations writes, as it was. -/
local macro "keeps_thm " n:ident l:ident r:ident : command =>
  `(theorem $n (V : Valuation τ sig (Elt Ideal)) :
      StableHlo.after $l V (Proc.devRef .tc $r) = V (Proc.devRef .tc $r) := by
    dsimp only [$l:ident]; after_results_simp)

keeps_thm hostOps1_keeps_v1 hostOps1 main_v1
keeps_thm hostOps1_keeps_v3 hostOps1 main_v3
keeps_thm hostOps1_keeps_arg1 hostOps1 main_arg1
keeps_thm hostOps1_keeps_arg2 hostOps1 main_arg2
keeps_thm hostOps1_keeps_arg13 hostOps1 main_arg13
keeps_thm hostOps1_keeps_arg14 hostOps1 main_arg14
keeps_thm hostOps1_keeps_arg15 hostOps1 main_arg15
keeps_thm hostOps1_keeps_arg16 hostOps1 main_arg16
keeps_thm hostOps1_keeps_arg17 hostOps1 main_arg17
keeps_thm hostOps1_keeps_arg18 hostOps1 main_arg18

keeps_thm hostOps1_1_keeps_v1 hostOps1_1 main_v1
keeps_thm hostOps1_1_keeps_v3 hostOps1_1 main_v3
keeps_thm hostOps1_1_keeps_arg1 hostOps1_1 main_arg1
keeps_thm hostOps1_1_keeps_arg2 hostOps1_1 main_arg2
keeps_thm hostOps1_1_keeps_arg13 hostOps1_1 main_arg13
keeps_thm hostOps1_1_keeps_arg14 hostOps1_1 main_arg14
keeps_thm hostOps1_1_keeps_arg15 hostOps1_1 main_arg15
keeps_thm hostOps1_1_keeps_arg16 hostOps1_1 main_arg16
keeps_thm hostOps1_1_keeps_arg17 hostOps1_1 main_arg17
keeps_thm hostOps1_1_keeps_arg18 hostOps1_1 main_arg18

set_option maxHeartbeats 4000000 in
keeps_thm hostOps1_2_keeps_arg17 hostOps1_2 main_arg17
set_option maxHeartbeats 4000000 in
keeps_thm hostOps1_2_keeps_arg18 hostOps1_2 main_arg18

keeps_thm hostOps1_3_keeps_arg17 hostOps1_3 main_arg17
keeps_thm hostOps1_3_keeps_arg18 hostOps1_3 main_arg18

/-! ## The whole tail -/

/-- After the five stretches, run in order from any contents `W`, the result buffer holds `Tail` of what `W` had in
    the region's output, the edge lists, the edge table, the selection and the weights. -/
theorem tailK_eq (W : Valuation τ sig (Elt Ideal)) :
    StableHlo.after (List.flatten [hostOps1, hostOps1_1, hostOps1_2, hostOps1_3, hostOps1_4]) W (Proc.devRef .tc main_v132)
      = Tail (W (Proc.devRef .tc main_v12)) (W (Proc.devRef .tc main_v1)) (W (Proc.devRef .tc main_v3))
          (W (Proc.devRef .tc main_arg1)) (W (Proc.devRef .tc main_arg2))
          (W (Proc.devRef .tc main_arg11)) (W (Proc.devRef .tc main_arg12)) (W (Proc.devRef .tc main_arg13))
          (W (Proc.devRef .tc main_arg14)) (W (Proc.devRef .tc main_arg15)) (W (Proc.devRef .tc main_arg16))
          (W (Proc.devRef .tc main_arg17)) (W (Proc.devRef .tc main_arg18)) := by
  rw [List.flatten_cons, List.flatten_cons, List.flatten_cons, List.flatten_cons, List.flatten_cons, List.flatten_nil,
    List.append_nil, after_append, after_append, after_append, after_append]
  -- each stretch's result, last stretch first
  rw [tailPred2_eq, tailElu2_eq, tailConv2_eq, tailElu1_eq, tailConv1_eq]
  -- the last layer's weight and bias, back through four stretches
  rw [hostOps1_3_keeps_arg17, hostOps1_3_keeps_arg18, hostOps1_2_keeps_arg17, hostOps1_2_keeps_arg18,
    hostOps1_1_keeps_arg17, hostOps1_1_keeps_arg18, hostOps1_keeps_arg17, hostOps1_keeps_arg18]
  -- what the long stretch read, back through two
  rw [hostOps1_1_keeps_v1, hostOps1_1_keeps_v3, hostOps1_1_keeps_arg1, hostOps1_1_keeps_arg2, hostOps1_1_keeps_arg13,
    hostOps1_1_keeps_arg14, hostOps1_1_keeps_arg15, hostOps1_1_keeps_arg16,
    hostOps1_keeps_v1, hostOps1_keeps_v3, hostOps1_keeps_arg1, hostOps1_keeps_arg2, hostOps1_keeps_arg13,
    hostOps1_keeps_arg14, hostOps1_keeps_arg15, hostOps1_keeps_arg16]
  rfl

end Cert.KernelIdeal.Hand

end
-- ==== Proof.SrcDst.lean ====
/-
  The two index rows of `edge_index`: row 0 (the sources) and row 1 (the targets), each as a vector of 1600000 words —
  the slice of one row reshaped to rank one. Both programs compute them by the same two operations, and every later
  line reads the edges through them.
-/
import proofs.«154459_j82652350644592_1_alg».proof.Proof.Gen.KernelIdeal.Launch
import Idealize.ShloMosaic.Lib.StableHlo.Run
import Idealize.ShloMosaic.PureOps.Ideal

noncomputable section

namespace Cert.KernelIdeal.Hand

open Cert.KernelIdeal Cert.KernelIdeal.Gen Idealize.ShloMosaic Idealize.ShloMosaic.TcCoe Idealize.SL.Sem Idealize.ShloMosaic.StableHlo

/-- Row 0 of the edge list. -/
def srcOf (ei : IVec S2x1600000 32) : IVec S1600000 32 :=
  shapeCast S1600000 (extractStridedSlice S1x1600000 ![0, 0] ei slices_S2x1600000_S1x1600000_0_0) shapeCasts_S1x1600000_S1600000

/-- Row 1 of the edge list. -/
def dstOf (ei : IVec S2x1600000 32) : IVec S1600000 32 :=
  shapeCast S1600000 (extractStridedSlice S1x1600000 ![1, 0] ei slices_S2x1600000_S1x1600000_1_0) shapeCasts_S1x1600000_S1600000

variable {F : FTy → Type} [FloatOps F]

/-- After the host lines before the region, `main_v1` holds row 0 of `main_arg1`. -/
theorem srcK_eq (V : Valuation τ sig (Elt F)) :
    StableHlo.after (List.flatten [hostOps0 (F := F)]) V (Proc.devRef .tc main_v1) = srcOf (V (Proc.devRef .tc main_arg1)) := by
  simp only [hostOps0, List.flatten_cons, List.flatten_nil, List.append_nil]
  after_results
  rfl

/-- After the host lines before the region, `main_v3` holds row 1 of `main_arg1`. -/
theorem dstK_eq (V : Valuation τ sig (Elt F)) :
    StableHlo.after (List.flatten [hostOps0 (F := F)]) V (Proc.devRef .tc main_v3) = dstOf (V (Proc.devRef .tc main_arg1)) := by
  simp only [hostOps0, List.flatten_cons, List.flatten_nil, List.append_nil]
  after_results
  rfl

end Cert.KernelIdeal.Hand

end
-- ==== Proof.Whole.lean ====
/-
  The whole computation as ONE function of the nineteen argument arrays: the head (pooling, layer normalisation, three
  dense layers with ELU: `Cert.Spec.Hd`) feeds the shared tail (two graph convolutions, the edge gather and the link
  predictor: `Tail`), which reads the edge list through its two rows. Each program's result buffer is shown to hold
  this function of its arguments; the two programs then agree because the arguments do.
-/
import proofs.«154459_j82652350644592_1_alg».proof.Proof.Spec
import proofs.«154459_j82652350644592_1_alg».proof.Proof.SrcDst
import proofs.«154459_j82652350644592_1_alg».proof.Proof.TailDef

noncomputable section

namespace Cert.KernelIdeal.Hand

open Cert.KernelIdeal Idealize.ShloMosaic

/-- The result as a function of the arguments, in the order the programs take them:
    x, edge_index, mask, ln_g, ln_b, w0, b0, w1, b1, w2, b2, c1w, c1b, c2w, c2b, lw1, lb1, lw2, lb2. -/
def Whole (x : FVec Ideal S50000x2048 .f32) (ei : IVec S2x1600000 32) (mask : IVec S200000 32)
    (g b : FVec Ideal S1024 .f32) (w0 : FVec Ideal S1024x512 .f32) (b0 : FVec Ideal S512 .f32)
    (w1 : FVec Ideal S512x128 .f32) (b1 : FVec Ideal S128 .f32) (w2 : FVec Ideal S128x64 .f32) (b2 : FVec Ideal S64 .f32)
    (c1w : FVec Ideal S64x32 .f32) (c1b : FVec Ideal S32 .f32) (c2w : FVec Ideal S32x16 .f32) (c2b : FVec Ideal S16 .f32)
    (lw1 : FVec Ideal S32x16 .f32) (lb1 : FVec Ideal S16 .f32) (lw2 : FVec Ideal S16x2 .f32) (lb2 : FVec Ideal S2 .f32) :
    FVec Ideal S200000x2 .f32 :=
  Tail (Cert.Spec.Hd x g b w0 b0 w1 b1 w2 b2) (srcOf ei) (dstOf ei) ei mask c1w c1b c2w c2b lw1 lb1 lw2 lb2

end Cert.KernelIdeal.Hand

end
-- ==== Proof.KRun.lean ====
/-
  The idealized kernel program's run, read: at the end the result buffer holds `Whole` of the argument arrays and the
  arguments are unchanged.

  The frame run leaves every buffer that is no array of the region at the later host lines' fold over the region's exit
  contents. At the result buffer that fold is the shared tail (`tailK_eq`) of: the region's output array, which is the
  head `Hd` of the arguments (`final9`); the two rows of the edge list, which the lines before the region wrote and
  nothing after them touches; and argument arrays, which nothing writes.
-/
import proofs.«154459_j82652350644592_1_alg».proof.Proof.KFrame
import proofs.«154459_j82652350644592_1_alg».proof.Proof.KFinal
import proofs.«154459_j82652350644592_1_alg».proof.Proof.TailK
import proofs.«154459_j82652350644592_1_alg».proof.Proof.Whole

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The result buffer after the later host lines, from the region's exit contents: `Whole` of the arguments. -/
theorem result_eq (c : Dev nD) :
    Pipeline.afterTail₀ cfgs (dats m) 0 (V0 m) tailOps c main_v132
      = Whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  unfold Pipeline.afterTail₀
  generalize hW : Pipeline.withArrays (cfgs 0).spec c (V0 m c) (fun w => (dats m 0 c).arrAt w (cfgs 0).N) = W
  refine (tailK_eq W).trans ?_
  -- the region's output array is the head of the arguments
  have hh : W (Proc.devRef .tc main_v12)
      = Cert.Spec.Hd (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
    subst hW
    exact (Pipeline.withArrays_arr spec0 launch0.win.arr_inj c (V0 m c) _ 9).trans (final9 m c)
  -- the two rows of the edge list, written before the region, bypass it
  have hs : W (Proc.devRef .tc main_v1) = srcOf (m ((c : Thread nD τ).loc main_arg1)) := by
    subst hW
    exact (Pipeline.withArrays_of_ne spec0 c (V0 m c) _ main_v1 (by decide)).trans (srcK_eq _)
  have hd : W (Proc.devRef .tc main_v3) = dstOf (m ((c : Thread nD τ).loc main_arg1)) := by
    subst hW
    exact (Pipeline.withArrays_of_ne spec0 c (V0 m c) _ main_v3 (by decide)).trans (dstK_eq _)
  -- the argument arrays the tail reads bypass it too
  have e1 : W (Proc.devRef .tc main_arg1) = (m ((c : Thread nD τ).loc main_arg1)) := by
    subst hW
    exact (Pipeline.withArrays_of_ne spec0 c (V0 m c) _ main_arg1 (by decide)).trans (V_main_arg1 m c)
  have e2 : W (Proc.devRef .tc main_arg2) = (m ((c : Thread nD τ).loc main_arg2)) := by
    subst hW
    exact (Pipeline.withArrays_of_ne spec0 c (V0 m c) _ main_arg2 (by decide)).trans (V_main_arg2 m c)
  have e11 : W (Proc.devRef .tc main_arg11) = (m ((c : Thread nD τ).loc main_arg11)) := by
    subst hW
    exact (Pipeline.withArrays_of_ne spec0 c (V0 m c) _ main_arg11 (by decide)).trans (V_main_arg11 m c)
  have e12 : W (Proc.devRef .tc main_arg12) = (m ((c : Thread nD τ).loc main_arg12)) := by
    subst hW
    exact (Pipeline.withArrays_of_ne spec0 c (V0 m c) _ main_arg12 (by decide)).trans (V_main_arg12 m c)
  have e13 : W (Proc.devRef .tc main_arg13) = (m ((c : Thread nD τ).loc main_arg13)) := by
    subst hW
    exact (Pipeline.withArrays_of_ne spec0 c (V0 m c) _ main_arg13 (by decide)).trans (V_main_arg13 m c)
  have e14 : W (Proc.devRef .tc main_arg14) = (m ((c : Thread nD τ).loc main_arg14)) := by
    subst hW
    exact (Pipeline.withArrays_of_ne spec0 c (V0 m c) _ main_arg14 (by decide)).trans (V_main_arg14 m c)
  have e15 : W (Proc.devRef .tc main_arg15) = (m ((c : Thread nD τ).loc main_arg15)) := by
    subst hW
    exact (Pipeline.withArrays_of_ne spec0 c (V0 m c) _ main_arg15 (by decide)).trans (V_main_arg15 m c)
  have e16 : W (Proc.devRef .tc main_arg16) = (m ((c : Thread nD τ).loc main_arg16)) := by
    subst hW
    exact (Pipeline.withArrays_of_ne spec0 c (V0 m c) _ main_arg16 (by decide)).trans (V_main_arg16 m c)
  have e17 : W (Proc.devRef .tc main_arg17) = (m ((c : Thread nD τ).loc main_arg17)) := by
    subst hW
    exact (Pipeline.withArrays_of_ne spec0 c (V0 m c) _ main_arg17 (by decide)).trans (V_main_arg17 m c)
  have e18 : W (Proc.devRef .tc main_arg18) = (m ((c : Thread nD τ).loc main_arg18)) := by
    subst hW
    exact (Pipeline.withArrays_of_ne spec0 c (V0 m c) _ main_arg18 (by decide)).trans (V_main_arg18 m c)
  rw [hh, hs, hd, e1, e2, e11, e12, e13, e14, e15, e16, e17, e18]
  rfl

/-- Every weakly fair execution of the idealized kernel program terminates with the result at `Whole` of the arguments and
    the arguments unchanged. -/
theorem runK : θ_run defs (onTc (τ := τ) (main (F := Ideal))) ⟨m, fun _ => 0, ρ⟩ (fun r => ∀ c : Dev nD,
      r.2.mem ((c.tc : Thread nD τ).loc main_v132) = Whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
      ⟨((h c).2 main_v132 (Pipeline.mem_restRefs_of main_v132 (by decide) (by decide))).trans (result_eq m c),
        kept_of_post m (dats m) (A_eq m) r h c⟩)
    (run_main m ρ)

end Cert.KernelIdeal.Hand

end
-- ==== Proof.RefRun.lean ====
/-
  The reference program's run and frame. @main is the line of the operations listed in RefOps.lean (its printed
  windows each by computation, joined by the concatenation law of lines), so it runs to its end with every buffer at
  the fold of the operations over the launch contents; no operation's result reference is an argument, so every
  argument ends as launched.
-/
import proofs.«154459_j82652350644592_1_alg».proof.Proof.RefOps
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! ## @main is the line of its operations

Each printed window is the line of its own operations by computation: the callees' definitions unfold at the calls
and a call's record at its fields. The windows in a row are then the line of all of them (two lines in a row are
their concatenation run as one). -/

set_option maxRecDepth 8192 in
theorem main_part0_eq (c : Dev nD) : main_part0 (F := F) c = StableHlo.seq (headOps ++ tail_0) := rfl
set_option maxRecDepth 8192 in
theorem main_part1_eq (c : Dev nD) : main_part1 (F := F) c = StableHlo.seq (tail_1 ++ tail_call3 ++ tail_2) := rfl
set_option maxRecDepth 8192 in
theorem main_part2_eq (c : Dev nD) : main_part2 (F := F) c = StableHlo.seq tail_3 := rfl
set_option maxRecDepth 8192 in
theorem main_part3_eq (c : Dev nD) : main_part3 (F := F) c = StableHlo.seq (tail_4 ++ tail_call4 ++ tail_5) := rfl

/-- @main is the head's line followed by the tail's. -/
theorem main_eq (c : Dev nD) : main (F := F) c = StableHlo.seq (headOps ++ tailOps) := by
  show (main_part0 (F := F) c >>= fun _ => main_part1 (F := F) c >>= fun _ => main_part2 (F := F) c >>= fun _ => main_part3 (F := F) c) = _
  rw [main_part0_eq, main_part1_eq, main_part2_eq, main_part3_eq]
  simp only [tailOps, tailA, tailB, StableHlo.seq_append, bind_assoc]

/-! ## The side conditions of the run -/

set_option maxRecDepth 8192 in
theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun a ha =>
    (List.mem_append.mp ha).elim (List.forall_iff_forall_mem.mp h₁ a) (List.forall_iff_forall_mem.mp h₂ a)

theorem headOps_sub : (headOps : List (HloOp τ sig (Elt F))).Forall fun op => op.bufs ⊆ StableHlo.tcRefs τ sig :=
  forall_append (forall_append (forall_append (forall_append (forall_append head_0_sub head_call0_sub) head_1_sub) head_call1_sub) head_2_sub) head_call2_sub
theorem tailOps_sub : (tailOps : List (HloOp τ sig (Elt F))).Forall fun op => op.bufs ⊆ StableHlo.tcRefs τ sig :=
  forall_append (forall_append (forall_append (forall_append (forall_append tail_0_sub tail_1_sub) tail_call3_sub)
    (forall_append (forall_append tail_2_sub tail_3_sub) tail_4_sub)) tail_call4_sub) tail_5_sub
theorem ops_sub : (headOps ++ tailOps : List (HloOp τ sig (Elt F))).Forall fun op => op.bufs ⊆ StableHlo.tcRefs τ sig :=
  forall_append headOps_sub tailOps_sub

/-! Every operation determines its results: by computation on each literal list. -/
theorem head_0_fresh : (head_0 : List (HloOp τ sig (Elt F))).Forall fun op => op.fresh = ∅ := by
  simp only [List.Forall]; repeat' constructor
theorem head_call0_fresh : (head_call0 : List (HloOp τ sig (Elt F))).Forall fun op => op.fresh = ∅ := by
  simp only [List.Forall]; repeat' constructor
theorem head_1_fresh : (head_1 : List (HloOp τ sig (Elt F))).Forall fun op => op.fresh = ∅ := by
  simp only [List.Forall]; repeat' constructor
theorem head_call1_fresh : (head_call1 : List (HloOp τ sig (Elt F))).Forall fun op => op.fresh = ∅ := by
  simp only [List.Forall]; repeat' constructor
theorem head_2_fresh : (head_2 : List (HloOp τ sig (Elt F))).Forall fun op => op.fresh = ∅ := by
  simp only [List.Forall]; repeat' constructor
theorem head_call2_fresh : (head_call2 : List (HloOp τ sig (Elt F))).Forall fun op => op.fresh = ∅ := by
  simp only [List.Forall]; repeat' constructor
theorem tail_0_fresh : (tail_0 : List (HloOp τ sig (Elt F))).Forall fun op => op.fresh = ∅ := by
  simp only [List.Forall]; repeat' constructor
theorem tail_1_fresh : (tail_1 : List (HloOp τ sig (Elt F))).Forall fun op => op.fresh = ∅ := by
  simp only [List.Forall]; repeat' constructor
theorem tail_call3_fresh : (tail_call3 : List (HloOp τ sig (Elt F))).Forall fun op => op.fresh = ∅ := by
  simp only [List.Forall]; repeat' constructor
theorem tail_2_fresh : (tail_2 : List (HloOp τ sig (Elt F))).Forall fun op => op.fresh = ∅ := by
  simp only [List.Forall]; repeat' constructor
theorem tail_3_fresh : (tail_3 : List (HloOp τ sig (Elt F))).Forall fun op => op.fresh = ∅ := by
  simp only [List.Forall]; repeat' constructor
theorem tail_4_fresh : (tail_4 : List (HloOp τ sig (Elt F))).Forall fun op => op.fresh = ∅ := by
  simp only [List.Forall]; repeat' constructor
theorem tail_call4_fresh : (tail_call4 : List (HloOp τ sig (Elt F))).Forall fun op => op.fresh = ∅ := by
  simp only [List.Forall]; repeat' constructor
theorem tail_5_fresh : (tail_5 : List (HloOp τ sig (Elt F))).Forall fun op => op.fresh = ∅ := by
  simp only [List.Forall]; repeat' constructor

theorem ops_fresh : (headOps ++ tailOps : List (HloOp τ sig (Elt F))).Forall fun op => op.fresh = ∅ :=
  forall_append
    (forall_append (forall_append (forall_append (forall_append (forall_append head_0_fresh head_call0_fresh) head_1_fresh) head_call1_fresh) head_2_fresh) head_call2_fresh)
    (forall_append (forall_append (forall_append (forall_append (forall_append tail_0_fresh tail_1_fresh) tail_call3_fresh)
      (forall_append (forall_append tail_2_fresh tail_3_fresh) tail_4_fresh)) tail_call4_fresh) tail_5_fresh)

/-! ## The run -/

/-- On every device, for any float values, from any memory with zero counters: every weakly fair execution of @main
    terminates, and every final state has each TensorCore buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after (headOps ++ tailOps) (StableHlo.launchContents m c) (b : DevRef τ sig) :=
  StableHlo.run_seq scopedRefs_eq scopedSems_eq defs main (fun _ => headOps ++ tailOps) main_eq (fun _ => ops_sub) m ρ
    (fun _ => List.forall_iff_forall_mem.mp ops_fresh)

/-- The fold over two lines in a row is the second line's fold over the first's. -/
theorem after_append' : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by
    rw [List.cons_append, StableHlo.after_cons, StableHlo.after_cons, after_append' l₁ l₂]

/-! ## No operation writes an argument

Each literal list writes only the references listed beside it (each builder writes its result reference); a
reference in none of the lists keeps its contents through the whole line, and whether a reference is in a list of
references is decided. -/

/-- Two lines writing within two lists of references: their concatenation writes within the lists' concatenation. -/
theorem writes_append {W₁ W₂ : List (Ref sig .tc)} {l₁ l₂ : List (HloOp τ sig (Elt F))}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset :=
  List.forall_iff_forall_mem.mpr fun op hop => by
    rw [List.map_append, List.toFinset_append]
    rcases List.mem_append.mp hop with h | h
    · exact (List.forall_iff_forall_mem.mp h₁ op h).trans Finset.subset_union_left
    · exact (List.forall_iff_forall_mem.mp h₂ op h).trans Finset.subset_union_right

/-- Each operation of a literal list writes its result reference, which is in the list beside it. -/
local macro "writes_within" : tactic =>
  `(tactic| (
    simp only [List.Forall, StableHlo.nullary_writes, StableHlo.unary_writes, StableHlo.binary_writes, StableHlo.ternary_writes,
      StableHlo.reshape_writes, Finset.singleton_subset_iff, List.mem_toFinset]
    repeat' apply And.intro
    all_goals exact List.mem_map_of_mem (by decide)))

theorem head_0_writes : (head_0 : List (HloOp τ sig (Elt F))).Forall fun op => op.writes ⊆ (head_0_W.map (Proc.devRef (τ := τ) .tc)).toFinset := by
  writes_within
theorem head_call0_writes : (head_call0 : List (HloOp τ sig (Elt F))).Forall fun op => op.writes ⊆ (head_call0_W.map (Proc.devRef (τ := τ) .tc)).toFinset := by
  writes_within
theorem head_1_writes : (head_1 : List (HloOp τ sig (Elt F))).Forall fun op => op.writes ⊆ (head_1_W.map (Proc.devRef (τ := τ) .tc)).toFinset := by
  writes_within
theorem head_call1_writes : (head_call1 : List (HloOp τ sig (Elt F))).Forall fun op => op.writes ⊆ (head_call1_W.map (Proc.devRef (τ := τ) .tc)).toFinset := by
  writes_within
theorem head_2_writes : (head_2 : List (HloOp τ sig (Elt F))).Forall fun op => op.writes ⊆ (head_2_W.map (Proc.devRef (τ := τ) .tc)).toFinset := by
  writes_within
theorem head_call2_writes : (head_call2 : List (HloOp τ sig (Elt F))).Forall fun op => op.writes ⊆ (head_call2_W.map (Proc.devRef (τ := τ) .tc)).toFinset := by
  writes_within
theorem tail_0_writes : (tail_0 : List (HloOp τ sig (Elt F))).Forall fun op => op.writes ⊆ (tail_0_W.map (Proc.devRef (τ := τ) .tc)).toFinset := by
  writes_within
theorem tail_1_writes : (tail_1 : List (HloOp τ sig (Elt F))).Forall fun op => op.writes ⊆ (tail_1_W.map (Proc.devRef (τ := τ) .tc)).toFinset := by
  writes_within
theorem tail_call3_writes : (tail_call3 : List (HloOp τ sig (Elt F))).Forall fun op => op.writes ⊆ (tail_call3_W.map (Proc.devRef (τ := τ) .tc)).toFinset := by
  writes_within
theorem tail_2_writes : (tail_2 : List (HloOp τ sig (Elt F))).Forall fun op => op.writes ⊆ (tail_2_W.map (Proc.devRef (τ := τ) .tc)).toFinset := by
  writes_within
theorem tail_3_writes : (tail_3 : List (HloOp τ sig (Elt F))).Forall fun op => op.writes ⊆ (tail_3_W.map (Proc.devRef (τ := τ) .tc)).toFinset := by
  writes_within
theorem tail_4_writes : (tail_4 : List (HloOp τ sig (Elt F))).Forall fun op => op.writes ⊆ (tail_4_W.map (Proc.devRef (τ := τ) .tc)).toFinset := by
  writes_within
theorem tail_call4_writes : (tail_call4 : List (HloOp τ sig (Elt F))).Forall fun op => op.writes ⊆ (tail_call4_W.map (Proc.devRef (τ := τ) .tc)).toFinset := by
  writes_within
theorem tail_5_writes : (tail_5 : List (HloOp τ sig (Elt F))).Forall fun op => op.writes ⊆ (tail_5_W.map (Proc.devRef (τ := τ) .tc)).toFinset := by
  writes_within

theorem headOps_writes : (headOps : List (HloOp τ sig (Elt F))).Forall fun op => op.writes ⊆ (headW.map (Proc.devRef (τ := τ) .tc)).toFinset :=
  writes_append (writes_append (writes_append (writes_append (writes_append head_0_writes head_call0_writes) head_1_writes) head_call1_writes) head_2_writes) head_call2_writes
theorem tailOps_writes : (tailOps : List (HloOp τ sig (Elt F))).Forall fun op => op.writes ⊆ (tailW.map (Proc.devRef (τ := τ) .tc)).toFinset :=
  writes_append (writes_append (writes_append (writes_append (writes_append tail_0_writes tail_1_writes) tail_call3_writes)
    (writes_append (writes_append tail_2_writes tail_3_writes) tail_4_writes)) tail_call4_writes) tail_5_writes
theorem ops_writes : (headOps ++ tailOps : List (HloOp τ sig (Elt F))).Forall fun op => op.writes ⊆ ((headW ++ tailW).map (Proc.devRef (τ := τ) .tc)).toFinset :=
  writes_append headOps_writes tailOps_writes

/-! The head alone leaves each argument as it was. -/
theorem keptHead_main_arg0 (V : Valuation τ sig (Elt F)) :
    StableHlo.after headOps V (Proc.devRef .tc main_arg0) = V (Proc.devRef .tc main_arg0) :=
  StableHlo.after_of_writes_sub headOps V headOps_writes (by decide)
theorem keptHead_main_arg1 (V : Valuation τ sig (Elt F)) :
    StableHlo.after headOps V (Proc.devRef .tc main_arg1) = V (Proc.devRef .tc main_arg1) :=
  StableHlo.after_of_writes_sub headOps V headOps_writes (by decide)
theorem keptHead_main_arg2 (V : Valuation τ sig (Elt F)) :
    StableHlo.after headOps V (Proc.devRef .tc main_arg2) = V (Proc.devRef .tc main_arg2) :=
  StableHlo.after_of_writes_sub headOps V headOps_writes (by decide)
theorem keptHead_main_arg3 (V : Valuation τ sig (Elt F)) :
    StableHlo.after headOps V (Proc.devRef .tc main_arg3) = V (Proc.devRef .tc main_arg3) :=
  StableHlo.after_of_writes_sub headOps V headOps_writes (by decide)
theorem keptHead_main_arg4 (V : Valuation τ sig (Elt F)) :
    StableHlo.after headOps V (Proc.devRef .tc main_arg4) = V (Proc.devRef .tc main_arg4) :=
  StableHlo.after_of_writes_sub headOps V headOps_writes (by decide)
theorem keptHead_main_arg5 (V : Valuation τ sig (Elt F)) :
    StableHlo.after headOps V (Proc.devRef .tc main_arg5) = V (Proc.devRef .tc main_arg5) :=
  StableHlo.after_of_writes_sub headOps V headOps_writes (by decide)
theorem keptHead_main_arg6 (V : Valuation τ sig (Elt F)) :
    StableHlo.after headOps V (Proc.devRef .tc main_arg6) = V (Proc.devRef .tc main_arg6) :=
  StableHlo.after_of_writes_sub headOps V headOps_writes (by decide)
theorem keptHead_main_arg7 (V : Valuation τ sig (Elt F)) :
    StableHlo.after headOps V (Proc.devRef .tc main_arg7) = V (Proc.devRef .tc main_arg7) :=
  StableHlo.after_of_writes_sub headOps V headOps_writes (by decide)
theorem keptHead_main_arg8 (V : Valuation τ sig (Elt F)) :
    StableHlo.after headOps V (Proc.devRef .tc main_arg8) = V (Proc.devRef .tc main_arg8) :=
  StableHlo.after_of_writes_sub headOps V headOps_writes (by decide)
theorem keptHead_main_arg9 (V : Valuation τ sig (Elt F)) :
    StableHlo.after headOps V (Proc.devRef .tc main_arg9) = V (Proc.devRef .tc main_arg9) :=
  StableHlo.after_of_writes_sub headOps V headOps_writes (by decide)
theorem keptHead_main_arg10 (V : Valuation τ sig (Elt F)) :
    StableHlo.after headOps V (Proc.devRef .tc main_arg10) = V (Proc.devRef .tc main_arg10) :=
  StableHlo.after_of_writes_sub headOps V headOps_writes (by decide)
theorem keptHead_main_arg11 (V : Valuation τ sig (Elt F)) :
    StableHlo.after headOps V (Proc.devRef .tc main_arg11) = V (Proc.devRef .tc main_arg11) :=
  StableHlo.after_of_writes_sub headOps V headOps_writes (by decide)
theorem keptHead_main_arg12 (V : Valuation τ sig (Elt F)) :
    StableHlo.after headOps V (Proc.devRef .tc main_arg12) = V (Proc.devRef .tc main_arg12) :=
  StableHlo.after_of_writes_sub headOps V headOps_writes (by decide)
theorem keptHead_main_arg13 (V : Valuation τ sig (Elt F)) :
    StableHlo.after headOps V (Proc.devRef .tc main_arg13) = V (Proc.devRef .tc main_arg13) :=
  StableHlo.after_of_writes_sub headOps V headOps_writes (by decide)
theorem keptHead_main_arg14 (V : Valuation τ sig (Elt F)) :
    StableHlo.after headOps V (Proc.devRef .tc main_arg14) = V (Proc.devRef .tc main_arg14) :=
  StableHlo.after_of_writes_sub headOps V headOps_writes (by decide)
theorem keptHead_main_arg15 (V : Valuation τ sig (Elt F)) :
    StableHlo.after headOps V (Proc.devRef .tc main_arg15) = V (Proc.devRef .tc main_arg15) :=
  StableHlo.after_of_writes_sub headOps V headOps_writes (by decide)
theorem keptHead_main_arg16 (V : Valuation τ sig (Elt F)) :
    StableHlo.after headOps V (Proc.devRef .tc main_arg16) = V (Proc.devRef .tc main_arg16) :=
  StableHlo.after_of_writes_sub headOps V headOps_writes (by decide)
theorem keptHead_main_arg17 (V : Valuation τ sig (Elt F)) :
    StableHlo.after headOps V (Proc.devRef .tc main_arg17) = V (Proc.devRef .tc main_arg17) :=
  StableHlo.after_of_writes_sub headOps V headOps_writes (by decide)
theorem keptHead_main_arg18 (V : Valuation τ sig (Elt F)) :
    StableHlo.after headOps V (Proc.devRef .tc main_arg18) = V (Proc.devRef .tc main_arg18) :=
  StableHlo.after_of_writes_sub headOps V headOps_writes (by decide)

/-! The whole line leaves each argument as it was. -/
theorem kept_main_arg0 (V : Valuation τ sig (Elt F)) :
    StableHlo.after (headOps ++ tailOps) V (Proc.devRef .tc main_arg0) = V (Proc.devRef .tc main_arg0) :=
  StableHlo.after_of_writes_sub (headOps ++ tailOps) V ops_writes (by decide)
theorem kept_main_arg1 (V : Valuation τ sig (Elt F)) :
    StableHlo.after (headOps ++ tailOps) V (Proc.devRef .tc main_arg1) = V (Proc.devRef .tc main_arg1) :=
  StableHlo.after_of_writes_sub (headOps ++ tailOps) V ops_writes (by decide)
theorem kept_main_arg2 (V : Valuation τ sig (Elt F)) :
    StableHlo.after (headOps ++ tailOps) V (Proc.devRef .tc main_arg2) = V (Proc.devRef .tc main_arg2) :=
  StableHlo.after_of_writes_sub (headOps ++ tailOps) V ops_writes (by decide)
theorem kept_main_arg3 (V : Valuation τ sig (Elt F)) :
    StableHlo.after (headOps ++ tailOps) V (Proc.devRef .tc main_arg3) = V (Proc.devRef .tc main_arg3) :=
  StableHlo.after_of_writes_sub (headOps ++ tailOps) V ops_writes (by decide)
theorem kept_main_arg4 (V : Valuation τ sig (Elt F)) :
    StableHlo.after (headOps ++ tailOps) V (Proc.devRef .tc main_arg4) = V (Proc.devRef .tc main_arg4) :=
  StableHlo.after_of_writes_sub (headOps ++ tailOps) V ops_writes (by decide)
theorem kept_main_arg5 (V : Valuation τ sig (Elt F)) :
    StableHlo.after (headOps ++ tailOps) V (Proc.devRef .tc main_arg5) = V (Proc.devRef .tc main_arg5) :=
  StableHlo.after_of_writes_sub (headOps ++ tailOps) V ops_writes (by decide)
theorem kept_main_arg6 (V : Valuation τ sig (Elt F)) :
    StableHlo.after (headOps ++ tailOps) V (Proc.devRef .tc main_arg6) = V (Proc.devRef .tc main_arg6) :=
  StableHlo.after_of_writes_sub (headOps ++ tailOps) V ops_writes (by decide)
theorem kept_main_arg7 (V : Valuation τ sig (Elt F)) :
    StableHlo.after (headOps ++ tailOps) V (Proc.devRef .tc main_arg7) = V (Proc.devRef .tc main_arg7) :=
  StableHlo.after_of_writes_sub (headOps ++ tailOps) V ops_writes (by decide)
theorem kept_main_arg8 (V : Valuation τ sig (Elt F)) :
    StableHlo.after (headOps ++ tailOps) V (Proc.devRef .tc main_arg8) = V (Proc.devRef .tc main_arg8) :=
  StableHlo.after_of_writes_sub (headOps ++ tailOps) V ops_writes (by decide)
theorem kept_main_arg9 (V : Valuation τ sig (Elt F)) :
    StableHlo.after (headOps ++ tailOps) V (Proc.devRef .tc main_arg9) = V (Proc.devRef .tc main_arg9) :=
  StableHlo.after_of_writes_sub (headOps ++ tailOps) V ops_writes (by decide)
theorem kept_main_arg10 (V : Valuation τ sig (Elt F)) :
    StableHlo.after (headOps ++ tailOps) V (Proc.devRef .tc main_arg10) = V (Proc.devRef .tc main_arg10) :=
  StableHlo.after_of_writes_sub (headOps ++ tailOps) V ops_writes (by decide)
theorem kept_main_arg11 (V : Valuation τ sig (Elt F)) :
    StableHlo.after (headOps ++ tailOps) V (Proc.devRef .tc main_arg11) = V (Proc.devRef .tc main_arg11) :=
  StableHlo.after_of_writes_sub (headOps ++ tailOps) V ops_writes (by decide)
theorem kept_main_arg12 (V : Valuation τ sig (Elt F)) :
    StableHlo.after (headOps ++ tailOps) V (Proc.devRef .tc main_arg12) = V (Proc.devRef .tc main_arg12) :=
  StableHlo.after_of_writes_sub (headOps ++ tailOps) V ops_writes (by decide)
theorem kept_main_arg13 (V : Valuation τ sig (Elt F)) :
    StableHlo.after (headOps ++ tailOps) V (Proc.devRef .tc main_arg13) = V (Proc.devRef .tc main_arg13) :=
  StableHlo.after_of_writes_sub (headOps ++ tailOps) V ops_writes (by decide)
theorem kept_main_arg14 (V : Valuation τ sig (Elt F)) :
    StableHlo.after (headOps ++ tailOps) V (Proc.devRef .tc main_arg14) = V (Proc.devRef .tc main_arg14) :=
  StableHlo.after_of_writes_sub (headOps ++ tailOps) V ops_writes (by decide)
theorem kept_main_arg15 (V : Valuation τ sig (Elt F)) :
    StableHlo.after (headOps ++ tailOps) V (Proc.devRef .tc main_arg15) = V (Proc.devRef .tc main_arg15) :=
  StableHlo.after_of_writes_sub (headOps ++ tailOps) V ops_writes (by decide)
theorem kept_main_arg16 (V : Valuation τ sig (Elt F)) :
    StableHlo.after (headOps ++ tailOps) V (Proc.devRef .tc main_arg16) = V (Proc.devRef .tc main_arg16) :=
  StableHlo.after_of_writes_sub (headOps ++ tailOps) V ops_writes (by decide)
theorem kept_main_arg17 (V : Valuation τ sig (Elt F)) :
    StableHlo.after (headOps ++ tailOps) V (Proc.devRef .tc main_arg17) = V (Proc.devRef .tc main_arg17) :=
  StableHlo.after_of_writes_sub (headOps ++ tailOps) V ops_writes (by decide)
theorem kept_main_arg18 (V : Valuation τ sig (Elt F)) :
    StableHlo.after (headOps ++ tailOps) V (Proc.devRef .tc main_arg18) = V (Proc.devRef .tc main_arg18) :=
  StableHlo.after_of_writes_sub (headOps ++ tailOps) V ops_writes (by decide)

/-! ## The frame -/

/-- @main runs to its end, nothing faulting, and every argument ends as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c =>
    ⟨(h c main_arg0).trans (kept_main_arg0 _),
     (h c main_arg1).trans (kept_main_arg1 _),
     (h c main_arg2).trans (kept_main_arg2 _),
     (h c main_arg3).trans (kept_main_arg3 _),
     (h c main_arg4).trans (kept_main_arg4 _),
     (h c main_arg5).trans (kept_main_arg5 _),
     (h c main_arg6).trans (kept_main_arg6 _),
     (h c main_arg7).trans (kept_main_arg7 _),
     (h c main_arg8).trans (kept_main_arg8 _),
     (h c main_arg9).trans (kept_main_arg9 _),
     (h c main_arg10).trans (kept_main_arg10 _),
     (h c main_arg11).trans (kept_main_arg11 _),
     (h c main_arg12).trans (kept_main_arg12 _),
     (h c main_arg13).trans (kept_main_arg13 _),
     (h c main_arg14).trans (kept_main_arg14 _),
     (h c main_arg15).trans (kept_main_arg15 _),
     (h c main_arg16).trans (kept_main_arg16 _),
     (h c main_arg17).trans (kept_main_arg17 _),
     (h c main_arg18).trans (kept_main_arg18 _)⟩)
    (run_all m ρ)

end Cert.ReferenceIdeal.Hand

end
-- ==== Proof.RefHead.lean ====
import proofs.«154459_j82652350644592_1_alg».proof.Proof.Gen.ReferenceIdeal
import proofs.«154459_j82652350644592_1_alg».proof.Proof.Spec
import Idealize.ShloMosaic.PureOps.Ideal
import Idealize.ShloMosaic.PureOps.Ideal.Laws
import Idealize.ShloMosaic.PureOps.Reduce
import Idealize.ShloMosaic.Lib.ValueIdx
import Idealize.ShloMosaic.Lib.IdealHost
import Idealize.ShloMosaic.Lib.Pipeline.Value

noncomputable section

namespace Cert.ReferenceIdeal.Hand

open Cert.ReferenceIdeal Cert.ReferenceIdeal.Gen Idealize.ShloMosaic Idealize.ShloMosaic.ValueIdx

/-!
  The reference program's head — its statements %4 … %44 — as one function of the argument arrays, stage by stage,
  each definition the printed operations' functions in program order; and, index by index, that function is the
  specification's `Hd`.

  The stages: the maxima of the adjacent pairs of each row (a reshape to [50000, 1024, 2] and a max-reduce over the last
  axis); the mean of a row as a column (sum over the row, divided by the word for 1024); the centred row; the normalised,
  scaled and shifted row; three times a product with a weight matrix, a bias row added, and ELU, which the program spells
  `select (y > 0) y (1 · expm1 (select (y > 0) 0 y))`.
-/

/-! ## The stages as the program prints them -/

/-- Statements %4, %cst, %5: the maxima of the adjacent pairs of each row. -/
def refPool (x : FVec Ideal S50000x2048 .f32) : FVec Ideal S50000x1024 .f32 :=
  Host.reduce (FloatOps.maximumf (F := Ideal) (φ := .f32))
    (shapeCast S50000x1024x2 x shapeCasts_S50000x2048_S50000x1024x2)
    (constant (F := Ideal) S_ .f32 0xFF800000#32) reducesTo_S50000x1024x2_S50000x1024_d2 h_S_

/-- Statements %cst_0 … %9 (and again %cst_2 … %16): each row's sum as a column, divided by the word for 1024. -/
def refMeanCol (h : FVec Ideal S50000x1024 .f32) : FVec Ideal S50000x1 .f32 :=
  Host.divf (F := Ideal)
    (broadcastInDim S50000x1 ![0] bcast_S50000_S50000x1_0
      (Host.reduceAdd (F := Ideal) h (constant (F := Ideal) S_ .f32 0x00000000#32) reducesTo_S50000x1024_S50000_d1 h_S_))
    (broadcastInDim S50000x1 ![] bcast_S_S50000x1 (constant (F := Ideal) S_ .f32 0x44800000#32))

/-- Statements %10, %11 (and again %17, %18): each row less its mean. -/
def refCentered (h : FVec Ideal S50000x1024 .f32) : FVec Ideal S50000x1024 .f32 :=
  subf h (broadcastInDim S50000x1024 ![0, 1] bcast_S50000x1_S50000x1024_0_1 (refMeanCol h))

/-- Statements %cst_0 … %29: layer normalisation of each row with scale `g` and shift `b`. -/
def refNorm (h : FVec Ideal S50000x1024 .f32) (g b : FVec Ideal S1024 .f32) : FVec Ideal S50000x1024 .f32 :=
  addf
    (mulf
      (mulf (refCentered h)
        (broadcastInDim S50000x1024 ![0, 1] bcast_S50000x1_S50000x1024_0_1
          (Host.rsqrt (F := Ideal)
            (addf (refMeanCol (mulf (refCentered h) (refCentered h)))
              (broadcastInDim S50000x1 ![] bcast_S_S50000x1 (constant (F := Ideal) S_ .f32 0x3727C5AC#32))))))
      (broadcastInDim S50000x1024 ![0, 1] bcast_S1x1024_S50000x1024_0_1 (broadcastInDim S1x1024 ![1] bcast_S1024_S1x1024_1 g)))
    (broadcastInDim S50000x1024 ![0, 1] bcast_S1x1024_S50000x1024_0_1 (broadcastInDim S1x1024 ![1] bcast_S1024_S1x1024_1 b))

/-- The body of an inlined `@elu` at any shape: `select (y > 0) y (1 · expm1 (select (y > 0) 0 y))`, the zeros and the
    one broadcast scalars, the inner zero passed through a `convert`. -/
def refElu (S : Shape) (hb : S_.BroadcastsInDim S (![] : Fin 0 → Fin S.rank)) (y : FVec Ideal S .f32) : FVec Ideal S .f32 :=
  select (cmpf .ogt y (broadcastInDim S ![] hb (constant (F := Ideal) S_ .f32 0x00000000#32))) y
    (mulf (broadcastInDim S ![] hb (constant (F := Ideal) S_ .f32 0x3F800000#32))
      (Host.expm1 (F := Ideal)
        (select (cmpf .ogt y (broadcastInDim S ![] hb (constant (F := Ideal) S_ .f32 0x00000000#32)))
          (broadcastInDim S ![] hb (id (constant (F := Ideal) S_ .f32 0x00000000#32))) y)))

/-- Statements %30 … %34: the first layer. -/
def refLayer0 (a : FVec Ideal S50000x1024 .f32) (w : FVec Ideal S1024x512 .f32) (c : FVec Ideal S512 .f32) :
    FVec Ideal S50000x512 .f32 :=
  refElu S50000x512 bcast_S_S50000x512
    (addf (Host.dotGeneral (F := Ideal) dot_S50000x1024_S1024x512_S50000x512_1_0_0_1_n_n none a w)
      (broadcastInDim S50000x512 ![0, 1] bcast_S1x512_S50000x512_0_1 (broadcastInDim S1x512 ![1] bcast_S512_S1x512_1 c)))

/-- Statements %35 … %39: the second layer. -/
def refLayer1 (a : FVec Ideal S50000x512 .f32) (w : FVec Ideal S512x128 .f32) (c : FVec Ideal S128 .f32) :
    FVec Ideal S50000x128 .f32 :=
  refElu S50000x128 bcast_S_S50000x128
    (addf (Host.dotGeneral (F := Ideal) dot_S50000x512_S512x128_S50000x128_1_0_0_1_n_n none a w)
      (broadcastInDim S50000x128 ![0, 1] bcast_S1x128_S50000x128_0_1 (broadcastInDim S1x128 ![1] bcast_S128_S1x128_1 c)))

/-- Statements %40 … %44: the third layer. -/
def refLayer2 (a : FVec Ideal S50000x128 .f32) (w : FVec Ideal S128x64 .f32) (c : FVec Ideal S64 .f32) :
    FVec Ideal S50000x64 .f32 :=
  refElu S50000x64 bcast_S_S50000x64
    (addf (Host.dotGeneral (F := Ideal) dot_S50000x128_S128x64_S50000x64_1_0_0_1_n_n none a w)
      (broadcastInDim S50000x64 ![0, 1] bcast_S1x64_S50000x64_0_1 (broadcastInDim S1x64 ![1] bcast_S64_S1x64_1 c)))

/-- Statements %4 … %44 composed: the head's result as a function of the nine argument arrays it reads. -/
def refHead (x : FVec Ideal S50000x2048 .f32) (g b : FVec Ideal S1024 .f32) (w0 : FVec Ideal S1024x512 .f32)
    (b0 : FVec Ideal S512 .f32) (w1 : FVec Ideal S512x128 .f32) (b1 : FVec Ideal S128 .f32) (w2 : FVec Ideal S128x64 .f32)
    (b2 : FVec Ideal S64 .f32) : FVec Ideal S50000x64 .f32 :=
  refLayer2 (refLayer1 (refLayer0 (refNorm (refPool x) g b) w0 b0) w1 b1) w2 b2

/-! ## The pooled row -/

theorem reduces_pool : S50000x1024x2.Reduces [2] S50000x1024 := by decide

/-- Entry (r, j) of the pooled array is the fold of `max` from the word for -inf over entries 2j and 2j+1 of row r. -/
theorem refPool_apply (x : FVec Ideal S50000x2048 .f32) (r : Fin 50000) (j : Fin 1024) :
    refPool x (ix2 r j) = Spec.pool (fun k => x (ix2 r k)) j := by
  unfold refPool
  rw [Host.reduce_eq_fold_single _ _ _ reducesTo_S50000x1024x2_S50000x1024_d2 reduces_pool h_S_]
  unfold Spec.pool
  show Finset.fold max (Ideal.ofBits .f32 0xFF800000#32) _ (Finset.univ : Finset (Fin 2)) = _
  refine Finset.fold_congr fun k _ => ?_
  refine shapeCast_apply x _ _ (ix2 r ⟨2 * j.val + k.val, by have := j.isLt; have := k.isLt; omega⟩) ?_
  rw [Shape.rowMajor_val_two, Shape.rowMajor_val_three]
  show r.val * 2048 + (2 * j.val + k.val) = (r.val * 1024 + j.val) * 2 + k.val
  omega

/-! ## Broadcasts read at an index -/

/-- A column [50000, 1] broadcast along the rows reads its row's entry. -/
theorem bcastCol_apply (c : FVec Ideal S50000x1 .f32) (r : Fin 50000) (j : Fin 1024) :
    broadcastInDim S50000x1024 ![0, 1] bcast_S50000x1_S50000x1024_0_1 c (ix2 r j) = c (ix2 r (0 : Fin 1)) :=
  broadcastInDim_apply _ _ c _ _ fun a => by
    match a with
    | ⟨0, _⟩ => rfl
    | ⟨1, _⟩ => rfl

/-- A vector [n] viewed [1, n] and broadcast down the rows of an [m, n] array reads its column's entry. -/
theorem bcastRow_apply {m n : Nat} (h1 : (⟨1, ![n]⟩ : Shape).BroadcastsInDim ⟨2, ![1, n]⟩ ![1])
    (h2 : (⟨2, ![1, n]⟩ : Shape).BroadcastsInDim ⟨2, ![m, n]⟩ ![0, 1]) (v : (⟨1, ![n]⟩ : Shape).Idx → EReal) (r : Fin m) (j : Fin n) :
    broadcastInDim ⟨2, ![m, n]⟩ ![0, 1] h2 (broadcastInDim ⟨2, ![1, n]⟩ ![1] h1 v) (ix2 r j) = v (ix1 j) := by
  refine (broadcastInDim_apply _ _ _ _ (ix2 (0 : Fin 1) j) fun a => ?_).trans
    (broadcastInDim_apply _ _ v _ (ix1 j) fun a => ?_)
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-- A scalar constant broadcast to any shape reads the extended real its word encodes. -/
theorem bcastScalar_apply (S : Shape) (hb : S_.BroadcastsInDim S (![] : Fin 0 → Fin S.rank)) (w : BitVec FTy.f32.bits) (i : S.Idx) :
    broadcastInDim S ![] hb (constant (F := Ideal) S_ .f32 w) i = Ideal.ofBits .f32 w :=
  (broadcastInDim_scalar_apply hb _ i).trans (constant_apply _ _)

/-- The host's reciprocal square root at an index. -/
theorem hostRsqrt_apply {S : Shape} (v : FVec Ideal S .f32) (i : S.Idx) : Host.rsqrt (F := Ideal) v i = Ideal.rsqrt (v i) := rfl

/-- The host's `exp - 1` at an index. -/
theorem hostExpm1_apply {S : Shape} (v : FVec Ideal S .f32) (i : S.Idx) : Host.expm1 (F := Ideal) v i = Ideal.exp (v i) - 1 := rfl

/-! ## The mean of a row -/

theorem reduces_row : S50000x1024.Reduces [1] S50000 := by decide

/-- The sum of row r of an array, as the program takes it: the host's add-reduce from the word for 0 over the second axis,
    read as a column. -/
theorem rowSum_apply (h : FVec Ideal S50000x1024 .f32) (r : Fin 50000) :
    broadcastInDim S50000x1 ![0] bcast_S50000_S50000x1_0
        (Host.reduceAdd (F := Ideal) h (constant (F := Ideal) S_ .f32 0x00000000#32) reducesTo_S50000x1024_S50000_d1 h_S_)
        (ix2 r (0 : Fin 1))
      = ∑ k : Fin 1024, h (ix2 r k) := by
  refine (broadcastInDim_apply _ _ _ _ (ix1 r) fun a => by match a with | ⟨0, _⟩ => rfl).trans ?_
  refine (hostReduceAdd_apply h _ _ h_S_ (ix1 r)).trans ?_
  refine (Ideal.hostReduceAdd_single reducesTo_S50000x1024_S50000_d1 reduces_row h _ (ix1 r)).trans ?_
  rw [constant_apply, Ideal.ofBits_zero_f32, zero_add]
  refine Finset.sum_congr rfl fun k _ => congrArg h (funext fun a => Fin.ext ?_)
  match a with
  | ⟨0, _⟩ => rfl
  | ⟨1, _⟩ => rfl

/-- Entry r of the mean column is the mean of row r. -/
theorem refMeanCol_apply (h : FVec Ideal S50000x1024 .f32) (r : Fin 50000) :
    refMeanCol h (ix2 r (0 : Fin 1)) = Spec.mean (fun k => h (ix2 r k)) := by
  unfold refMeanCol Spec.mean
  rw [hostDivf_apply, bcastScalar_apply, rowSum_apply]

/-! ## The normalised row -/

/-- Entry (r, j) of the centred array is that entry less the mean of row r. -/
theorem refCentered_apply (h : FVec Ideal S50000x1024 .f32) (r : Fin 50000) (j : Fin 1024) :
    refCentered h (ix2 r j) = h (ix2 r j) - Spec.mean (fun k => h (ix2 r k)) := by
  unfold refCentered
  rw [subf_apply, bcastCol_apply, refMeanCol_apply]

/-- Entry (r, j) of the normalised array is the specification's layer normalisation of row r at j. -/
theorem refNorm_apply (h : FVec Ideal S50000x1024 .f32) (g b : FVec Ideal S1024 .f32) (r : Fin 50000) (j : Fin 1024) :
    refNorm h g b (ix2 r j) = Spec.lnorm (fun k => h (ix2 r k)) (fun k => g (ix1 k)) (fun k => b (ix1 k)) j := by
  unfold refNorm Spec.lnorm
  rw [addf_apply, mulf_apply, mulf_apply, bcastCol_apply, bcastRow_apply, bcastRow_apply, refCentered_apply, hostRsqrt_apply,
    addf_apply, bcastScalar_apply, refMeanCol_apply]
  simp only [mulf_apply, refCentered_apply]

/-! ## ELU -/

/-- The program's ELU at an element is the specification's: where the argument is positive both are the argument;
    elsewhere the program's `1 · (exp y - 1)` is `exp y - 1`. -/
theorem elu_of_bit (c : BitVec 1) (y : EReal) :
    Scalar.select c y (Ideal.ofBits .f32 0x3F800000#32 * (Ideal.exp (Scalar.select c (Ideal.ofBits .f32 0x00000000#32) y) - 1))
      = Scalar.select c y (Ideal.exp y - Ideal.ofBits .f32 0x3F800000#32) := by
  rcases BitVec.eq_zero_or_eq_one c with hc | hc
  · rw [hc, select_zero, select_zero, select_zero, Spec.one_mul_expm1]
  · rw [hc, select_one, select_one]

theorem refElu_apply (S : Shape) (hb : S_.BroadcastsInDim S (![] : Fin 0 → Fin S.rank)) (y : FVec Ideal S .f32) (i : S.Idx) :
    refElu S hb y i = Spec.elu (y i) := by
  unfold refElu Spec.elu
  simp only [select_apply, cmpf_apply, mulf_apply, id_eq, bcastScalar_apply, hostExpm1_apply]
  exact elu_of_bit _ _

/-! ### The product of layer d0: its operand indices axis by axis, then the sum over the contracted axis -/

theorem lhs_d0_0 (i : S50000x512.Idx) (q : dot_S50000x1024_S1024x512_S50000x512_1_0_0_1_n_n.contr.Idx) :
    (dot_S50000x1024_S1024x512_S50000x512_1_0_0_1_n_n.lhsIdx i q 0).val = (i 0).val := by
  unfold DotDims.lhsIdx
  rw [dif_neg (show ¬(0 : Fin S50000x1024.rank) ∈ dot_S50000x1024_S1024x512_S50000x512_1_0_0_1_n_n.lhsBatch by decide), dif_pos (show (0 : Fin S50000x1024.rank) ∈ dot_S50000x1024_S1024x512_S50000x512_1_0_0_1_n_n.lhsNonContracting by decide)]
  rfl
theorem lhs_d0_1 (i : S50000x512.Idx) (q : dot_S50000x1024_S1024x512_S50000x512_1_0_0_1_n_n.contr.Idx) :
    (dot_S50000x1024_S1024x512_S50000x512_1_0_0_1_n_n.lhsIdx i q 1).val = (q ⟨0, by decide⟩).val :=
  dot_S50000x1024_S1024x512_S50000x512_1_0_0_1_n_n.lhsIdx_val_of_single rfl i q
theorem rhs_d0_0 (i : S50000x512.Idx) (q : dot_S50000x1024_S1024x512_S50000x512_1_0_0_1_n_n.contr.Idx) :
    (dot_S50000x1024_S1024x512_S50000x512_1_0_0_1_n_n.rhsIdx i q 0).val = (q ⟨0, by decide⟩).val :=
  dot_S50000x1024_S1024x512_S50000x512_1_0_0_1_n_n.rhsIdx_val_of_single rfl i q
theorem rhs_d0_1 (i : S50000x512.Idx) (q : dot_S50000x1024_S1024x512_S50000x512_1_0_0_1_n_n.contr.Idx) :
    (dot_S50000x1024_S1024x512_S50000x512_1_0_0_1_n_n.rhsIdx i q 1).val = (i 1).val := by
  unfold DotDims.rhsIdx
  rw [dif_neg (show ¬(1 : Fin S1024x512.rank) ∈ dot_S50000x1024_S1024x512_S50000x512_1_0_0_1_n_n.rhsBatch by decide), dif_pos (show (1 : Fin S1024x512.rank) ∈ dot_S50000x1024_S1024x512_S50000x512_1_0_0_1_n_n.rhsNonContracting by decide)]
  rfl

/-- The host product of layer d0 at (r, j): the sum over the 1024 contracted positions of row r of the left operand
    times column j of the right. -/
theorem dot_d0_apply (a : FVec Ideal S50000x1024 .f32) (w : FVec Ideal S1024x512 .f32) (r : Fin 50000) (j : Fin 512) :
    Host.dotGeneral (F := Ideal) dot_S50000x1024_S1024x512_S50000x512_1_0_0_1_n_n none a w (ix2 r j) = ∑ k : Fin 1024, a (ix2 r k) * w (ix2 k j) := by
  show FloatOps.dotGeneral dot_S50000x1024_S1024x512_S50000x512_1_0_0_1_n_n none .single a w (ix2 r j) = _
  rw [Ideal.dotGeneral_apply, ← Equiv.sum_comp (contrEquiv1 dot_S50000x1024_S1024x512_S50000x512_1_0_0_1_n_n 1024 rfl rfl).symm]
  refine Finset.sum_congr rfl fun k _ => ?_
  have hk := contrEquiv1_symm_val dot_S50000x1024_S1024x512_S50000x512_1_0_0_1_n_n 1024 rfl rfl k
  have el : dot_S50000x1024_S1024x512_S50000x512_1_0_0_1_n_n.lhsIdx (ix2 r j) ((contrEquiv1 dot_S50000x1024_S1024x512_S50000x512_1_0_0_1_n_n 1024 rfl rfl).symm k) = ix2 r k := funext fun a => Fin.ext (by
    match a with
    | ⟨0, _⟩ => exact lhs_d0_0 _ _
    | ⟨1, _⟩ => exact (lhs_d0_1 _ _).trans hk)
  have er : dot_S50000x1024_S1024x512_S50000x512_1_0_0_1_n_n.rhsIdx (ix2 r j) ((contrEquiv1 dot_S50000x1024_S1024x512_S50000x512_1_0_0_1_n_n 1024 rfl rfl).symm k) = ix2 k j := funext fun a => Fin.ext (by
    match a with
    | ⟨0, _⟩ => exact (rhs_d0_0 _ _).trans hk
    | ⟨1, _⟩ => exact rhs_d0_1 _ _)
  rw [el, er]

/-! ### The product of layer d1: its operand indices axis by axis, then the sum over the contracted axis -/

theorem lhs_d1_0 (i : S50000x128.Idx) (q : dot_S50000x512_S512x128_S50000x128_1_0_0_1_n_n.contr.Idx) :
    (dot_S50000x512_S512x128_S50000x128_1_0_0_1_n_n.lhsIdx i q 0).val = (i 0).val := by
  unfold DotDims.lhsIdx
  rw [dif_neg (show ¬(0 : Fin S50000x512.rank) ∈ dot_S50000x512_S512x128_S50000x128_1_0_0_1_n_n.lhsBatch by decide), dif_pos (show (0 : Fin S50000x512.rank) ∈ dot_S50000x512_S512x128_S50000x128_1_0_0_1_n_n.lhsNonContracting by decide)]
  rfl
theorem lhs_d1_1 (i : S50000x128.Idx) (q : dot_S50000x512_S512x128_S50000x128_1_0_0_1_n_n.contr.Idx) :
    (dot_S50000x512_S512x128_S50000x128_1_0_0_1_n_n.lhsIdx i q 1).val = (q ⟨0, by decide⟩).val :=
  dot_S50000x512_S512x128_S50000x128_1_0_0_1_n_n.lhsIdx_val_of_single rfl i q
theorem rhs_d1_0 (i : S50000x128.Idx) (q : dot_S50000x512_S512x128_S50000x128_1_0_0_1_n_n.contr.Idx) :
    (dot_S50000x512_S512x128_S50000x128_1_0_0_1_n_n.rhsIdx i q 0).val = (q ⟨0, by decide⟩).val :=
  dot_S50000x512_S512x128_S50000x128_1_0_0_1_n_n.rhsIdx_val_of_single rfl i q
theorem rhs_d1_1 (i : S50000x128.Idx) (q : dot_S50000x512_S512x128_S50000x128_1_0_0_1_n_n.contr.Idx) :
    (dot_S50000x512_S512x128_S50000x128_1_0_0_1_n_n.rhsIdx i q 1).val = (i 1).val := by
  unfold DotDims.rhsIdx
  rw [dif_neg (show ¬(1 : Fin S512x128.rank) ∈ dot_S50000x512_S512x128_S50000x128_1_0_0_1_n_n.rhsBatch by decide), dif_pos (show (1 : Fin S512x128.rank) ∈ dot_S50000x512_S512x128_S50000x128_1_0_0_1_n_n.rhsNonContracting by decide)]
  rfl

/-- The host product of layer d1 at (r, j): the sum over the 512 contracted positions of row r of the left operand
    times column j of the right. -/
theorem dot_d1_apply (a : FVec Ideal S50000x512 .f32) (w : FVec Ideal S512x128 .f32) (r : Fin 50000) (j : Fin 128) :
    Host.dotGeneral (F := Ideal) dot_S50000x512_S512x128_S50000x128_1_0_0_1_n_n none a w (ix2 r j) = ∑ k : Fin 512, a (ix2 r k) * w (ix2 k j) := by
  show FloatOps.dotGeneral dot_S50000x512_S512x128_S50000x128_1_0_0_1_n_n none .single a w (ix2 r j) = _
  rw [Ideal.dotGeneral_apply, ← Equiv.sum_comp (contrEquiv1 dot_S50000x512_S512x128_S50000x128_1_0_0_1_n_n 512 rfl rfl).symm]
  refine Finset.sum_congr rfl fun k _ => ?_
  have hk := contrEquiv1_symm_val dot_S50000x512_S512x128_S50000x128_1_0_0_1_n_n 512 rfl rfl k
  have el : dot_S50000x512_S512x128_S50000x128_1_0_0_1_n_n.lhsIdx (ix2 r j) ((contrEquiv1 dot_S50000x512_S512x128_S50000x128_1_0_0_1_n_n 512 rfl rfl).symm k) = ix2 r k := funext fun a => Fin.ext (by
    match a with
    | ⟨0, _⟩ => exact lhs_d1_0 _ _
    | ⟨1, _⟩ => exact (lhs_d1_1 _ _).trans hk)
  have er : dot_S50000x512_S512x128_S50000x128_1_0_0_1_n_n.rhsIdx (ix2 r j) ((contrEquiv1 dot_S50000x512_S512x128_S50000x128_1_0_0_1_n_n 512 rfl rfl).symm k) = ix2 k j := funext fun a => Fin.ext (by
    match a with
    | ⟨0, _⟩ => exact (rhs_d1_0 _ _).trans hk
    | ⟨1, _⟩ => exact rhs_d1_1 _ _)
  rw [el, er]

/-! ### The product of layer d2: its operand indices axis by axis, then the sum over the contracted axis -/

theorem lhs_d2_0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem lhs_d2_1 (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q
theorem rhs_d2_0 (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q
theorem rhs_d2_1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- The host product of layer d2 at (r, j): the sum over the 128 contracted positions of row r of the left operand
    times column j of the right. -/
theorem dot_d2_apply (a : FVec Ideal S50000x128 .f32) (w : FVec Ideal S128x64 .f32) (r : Fin 50000) (j : Fin 64) :
    Host.dotGeneral (F := Ideal) dot_S50000x128_S128x64_S50000x64_1_0_0_1_n_n none a w (ix2 r j) = ∑ k : Fin 128, a (ix2 r k) * w (ix2 k j) := by
  show FloatOps.dotGeneral dot_S50000x128_S128x64_S50000x64_1_0_0_1_n_n none .single a w (ix2 r j) = _
  rw [Ideal.dotGeneral_apply, ← Equiv.sum_comp (contrEquiv1 dot_S50000x128_S128x64_S50000x64_1_0_0_1_n_n 128 rfl rfl).symm]
  refine Finset.sum_congr rfl fun k _ => ?_
  have hk := contrEquiv1_symm_val dot_S50000x128_S128x64_S50000x64_1_0_0_1_n_n 128 rfl rfl k
  have el : dot_S50000x128_S128x64_S50000x64_1_0_0_1_n_n.lhsIdx (ix2 r j) ((contrEquiv1 dot_S50000x128_S128x64_S50000x64_1_0_0_1_n_n 128 rfl rfl).symm k) = ix2 r k := funext fun a => Fin.ext (by
    match a with
    | ⟨0, _⟩ => exact lhs_d2_0 _ _
    | ⟨1, _⟩ => exact (lhs_d2_1 _ _).trans hk)
  have er : dot_S50000x128_S128x64_S50000x64_1_0_0_1_n_n.rhsIdx (ix2 r j) ((contrEquiv1 dot_S50000x128_S128x64_S50000x64_1_0_0_1_n_n 128 rfl rfl).symm k) = ix2 k j := funext fun a => Fin.ext (by
    match a with
    | ⟨0, _⟩ => exact (rhs_d2_0 _ _).trans hk
    | ⟨1, _⟩ => exact rhs_d2_1 _ _)
  rw [el, er]

/-! ## The layers -/

/-- Entry (r, j) of the first layer's result. -/
theorem refLayer0_apply (a : FVec Ideal S50000x1024 .f32) (w : FVec Ideal S1024x512 .f32) (c : FVec Ideal S512 .f32)
    (r : Fin 50000) (j : Fin 512) :
    refLayer0 a w c (ix2 r j)
      = Spec.elu (Spec.dense (fun i => a (ix2 r i)) (fun p q => w (ix2 p q)) (fun q => c (ix1 q)) j) := by
  unfold refLayer0 Spec.dense
  rw [refElu_apply, addf_apply, dot_d0_apply, bcastRow_apply]

/-- Entry (r, j) of the second layer's result. -/
theorem refLayer1_apply (a : FVec Ideal S50000x512 .f32) (w : FVec Ideal S512x128 .f32) (c : FVec Ideal S128 .f32)
    (r : Fin 50000) (j : Fin 128) :
    refLayer1 a w c (ix2 r j)
      = Spec.elu (Spec.dense (fun i => a (ix2 r i)) (fun p q => w (ix2 p q)) (fun q => c (ix1 q)) j) := by
  unfold refLayer1 Spec.dense
  rw [refElu_apply, addf_apply, dot_d1_apply, bcastRow_apply]

/-- Entry (r, j) of the third layer's result. -/
theorem refLayer2_apply (a : FVec Ideal S50000x128 .f32) (w : FVec Ideal S128x64 .f32) (c : FVec Ideal S64 .f32)
    (r : Fin 50000) (j : Fin 64) :
    refLayer2 a w c (ix2 r j)
      = Spec.elu (Spec.dense (fun i => a (ix2 r i)) (fun p q => w (ix2 p q)) (fun q => c (ix1 q)) j) := by
  unfold refLayer2 Spec.dense
  rw [refElu_apply, addf_apply, dot_d2_apply, bcastRow_apply]

/-! ## The head -/

/-- The reference's head is the specification's `Hd` of its arguments. -/
theorem refHead_eq (x : FVec Ideal S50000x2048 .f32) (g b : FVec Ideal S1024 .f32) (w0 : FVec Ideal S1024x512 .f32)
    (b0 : FVec Ideal S512 .f32) (w1 : FVec Ideal S512x128 .f32) (b1 : FVec Ideal S128 .f32) (w2 : FVec Ideal S128x64 .f32)
    (b2 : FVec Ideal S64 .f32) :
    refHead x g b w0 b0 w1 b1 w2 b2 = Cert.Spec.Hd x g b w0 b0 w1 b1 w2 b2 := by
  funext i
  obtain ⟨r, j, rfl⟩ : ∃ (r : Fin 50000) (j : Fin 64), i = ix2 r j := ⟨i 0, i 1, eq_ix2 i⟩
  rw [Cert.Spec.Hd_ix2]
  unfold refHead Cert.Spec.row
  rw [refLayer2_apply]
  have e1 : (fun i => refLayer1 (refLayer0 (refNorm (refPool x) g b) w0 b0) w1 b1 (ix2 r i))
      = fun i => Spec.elu (Spec.dense (fun i => refLayer0 (refNorm (refPool x) g b) w0 b0 (ix2 r i)) (fun p q => w1 (ix2 p q))
          (fun q => b1 (ix1 q)) i) := funext fun i => refLayer1_apply _ _ _ r i
  have e0 : (fun i => refLayer0 (refNorm (refPool x) g b) w0 b0 (ix2 r i))
      = fun i => Spec.elu (Spec.dense (fun i => refNorm (refPool x) g b (ix2 r i)) (fun p q => w0 (ix2 p q))
          (fun q => b0 (ix1 q)) i) := funext fun i => refLayer0_apply _ _ _ r i
  have en : (fun i => refNorm (refPool x) g b (ix2 r i))
      = Spec.lnorm (fun k => refPool x (ix2 r k)) (fun k => g (ix1 k)) (fun k => b (ix1 k)) :=
    funext fun i => refNorm_apply _ _ _ r i
  have ep : (fun k => refPool x (ix2 r k)) = Spec.pool (fun k => x (ix2 r k)) := funext fun k => refPool_apply x r k
  rw [e1, e0, en, ep]

end Cert.ReferenceIdeal.Hand

end
-- ==== Proof.RefHeadRun.lean ====
import proofs.«154459_j82652350644592_1_alg».proof.Proof.RefOps
import proofs.«154459_j82652350644592_1_alg».proof.Proof.RefRun
import proofs.«154459_j82652350644592_1_alg».proof.Proof.RefHead
import proofs.«154459_j82652350644592_1_alg».proof.Proof.SrcDst
import Idealize.ShloMosaic.Lib.StableHlo.Run
import Idealize.ShloMosaic.PureOps.Ideal

set_option maxRecDepth 4096

noncomputable section

namespace Cert.ReferenceIdeal.Hand

open Cert.ReferenceIdeal Cert.ReferenceIdeal.Gen Idealize.ShloMosaic Idealize.ShloMosaic.TcCoe Idealize.SL.Sem Idealize.ShloMosaic.StableHlo

/-!
  The reference's head read back: what the buffers of %44 (the head's result), %1 and %3 (the two rows of the edge list)
  hold after the head's 93 operations, from any contents of the arguments. The list is read piece by piece — each piece's
  result as the printed operations' function of what the piece reads, over an arbitrary valuation — and the pieces are
  chained through the fold of a concatenation; a buffer a piece does not write is read from before the piece.
-/

/-! ## Each piece, over an arbitrary valuation -/

/-- After the first piece (reshape, pooling, normalisation, the first product and its bias) %33 holds the first layer's
    argument of ELU. -/
theorem piece0_v33 (W : Valuation τ sig (Elt Ideal)) :
    StableHlo.after (head_0 (F := Ideal)) W (Proc.devRef .tc main_v33)
      = addf (Host.dotGeneral (F := Ideal) (φ₁ := .f32) (φ₂ := .f32) dot_S50000x1024_S1024x512_S50000x512_1_0_0_1_n_n none
            (refNorm (refPool (W (Proc.devRef .tc main_arg0))) (W (Proc.devRef .tc main_arg3)) (W (Proc.devRef .tc main_arg4)))
            (W (Proc.devRef .tc main_arg5)))
          (broadcastInDim S50000x512 ![0, 1] bcast_S1x512_S50000x512_0_1
            (broadcastInDim S1x512 ![1] bcast_S512_S1x512_1 (W (Proc.devRef .tc main_arg6)))) := by
  after_results_simp
  rfl

/-- The first inlined ELU: %34 from %33. -/
theorem call0_v34 (W : Valuation τ sig (Elt Ideal)) :
    StableHlo.after (head_call0 (F := Ideal)) W (Proc.devRef .tc main_v34)
      = refElu S50000x512 bcast_S_S50000x512 (W (Proc.devRef .tc main_v33)) := by
  after_results
  rfl

/-- The second product and its bias: %38 from %34. -/
theorem piece1_v38 (W : Valuation τ sig (Elt Ideal)) :
    StableHlo.after (head_1 (F := Ideal)) W (Proc.devRef .tc main_v38)
      = addf (Host.dotGeneral (F := Ideal) (φ₁ := .f32) (φ₂ := .f32) dot_S50000x512_S512x128_S50000x128_1_0_0_1_n_n none (W (Proc.devRef .tc main_v34)) (W (Proc.devRef .tc main_arg7)))
          (broadcastInDim S50000x128 ![0, 1] bcast_S1x128_S50000x128_0_1
            (broadcastInDim S1x128 ![1] bcast_S128_S1x128_1 (W (Proc.devRef .tc main_arg8)))) := by
  after_results

/-- The second inlined ELU: %39 from %38. -/
theorem call1_v39 (W : Valuation τ sig (Elt Ideal)) :
    StableHlo.after (head_call1 (F := Ideal)) W (Proc.devRef .tc main_v39)
      = refElu S50000x128 bcast_S_S50000x128 (W (Proc.devRef .tc main_v38)) := by
  after_results
  rfl

/-- The third product and its bias: %43 from %39. -/
theorem piece2_v43 (W : Valuation τ sig (Elt Ideal)) :
    StableHlo.after (head_2 (F := Ideal)) W (Proc.devRef .tc main_v43)
      = addf (Host.dotGeneral (F := Ideal) (φ₁ := .f32) (φ₂ := .f32) dot_S50000x128_S128x64_S50000x64_1_0_0_1_n_n none (W (Proc.devRef .tc main_v39)) (W (Proc.devRef .tc main_arg9)))
          (broadcastInDim S50000x64 ![0, 1] bcast_S1x64_S50000x64_0_1
            (broadcastInDim S1x64 ![1] bcast_S64_S1x64_1 (W (Proc.devRef .tc main_arg10)))) := by
  after_results

/-- The third inlined ELU: %44 from %43. -/
theorem call2_v44 (W : Valuation τ sig (Elt Ideal)) :
    StableHlo.after (head_call2 (F := Ideal)) W (Proc.devRef .tc main_v44)
      = refElu S50000x64 bcast_S_S50000x64 (W (Proc.devRef .tc main_v43)) := by
  after_results
  rfl

/-! ## The pieces chained -/

/-- The head's fold, piece by piece. -/
theorem after_headOps (V : Valuation τ sig (Elt Ideal)) :
    StableHlo.after (headOps (F := Ideal)) V
      = StableHlo.after head_call2 (StableHlo.after head_2 (StableHlo.after head_call1 (StableHlo.after head_1
          (StableHlo.after head_call0 (StableHlo.after head_0 V))))) := by
  show StableHlo.after (head_0 ++ head_call0 ++ head_1 ++ head_call1 ++ head_2 ++ head_call2) V = _
  rw [after_append', after_append', after_append', after_append', after_append']

/-- After the head's operations %44 holds the head's function of the nine arguments it reads. -/
theorem headR_eq (V : Valuation τ sig (Elt Ideal)) :
    StableHlo.after (headOps (F := Ideal)) V (Proc.devRef .tc main_v44)
      = refHead (V (Proc.devRef .tc main_arg0)) (V (Proc.devRef .tc main_arg3)) (V (Proc.devRef .tc main_arg4))
          (V (Proc.devRef .tc main_arg5)) (V (Proc.devRef .tc main_arg6)) (V (Proc.devRef .tc main_arg7))
          (V (Proc.devRef .tc main_arg8)) (V (Proc.devRef .tc main_arg9)) (V (Proc.devRef .tc main_arg10)) := by
  rw [after_headOps, call2_v44, piece2_v43, call1_v39, piece1_v38, call0_v34, piece0_v33]
  -- the weights and biases of the later layers are read from before the pieces that do not write them
  rw [StableHlo.after_of_writes_sub head_call1 _ head_call1_writes (r := main_arg9) (by decide),
    StableHlo.after_of_writes_sub head_1 _ head_1_writes (r := main_arg9) (by decide),
    StableHlo.after_of_writes_sub head_call0 _ head_call0_writes (r := main_arg9) (by decide),
    StableHlo.after_of_writes_sub head_0 _ head_0_writes (r := main_arg9) (by decide),
    StableHlo.after_of_writes_sub head_call1 _ head_call1_writes (r := main_arg10) (by decide),
    StableHlo.after_of_writes_sub head_1 _ head_1_writes (r := main_arg10) (by decide),
    StableHlo.after_of_writes_sub head_call0 _ head_call0_writes (r := main_arg10) (by decide),
    StableHlo.after_of_writes_sub head_0 _ head_0_writes (r := main_arg10) (by decide),
    StableHlo.after_of_writes_sub head_call0 _ head_call0_writes (r := main_arg7) (by decide),
    StableHlo.after_of_writes_sub head_0 _ head_0_writes (r := main_arg7) (by decide),
    StableHlo.after_of_writes_sub head_call0 _ head_call0_writes (r := main_arg8) (by decide),
    StableHlo.after_of_writes_sub head_0 _ head_0_writes (r := main_arg8) (by decide)]
  rfl

/-- After the head's operations %1 holds row 0 of the edge list. -/
theorem srcR_eq (V : Valuation τ sig (Elt Ideal)) :
    StableHlo.after (headOps (F := Ideal)) V (Proc.devRef .tc main_v1)
      = Cert.KernelIdeal.Hand.srcOf (V (Proc.devRef .tc main_arg1)) := by
  rw [after_headOps,
    StableHlo.after_of_writes_sub head_call2 _ head_call2_writes (r := main_v1) (by decide),
    StableHlo.after_of_writes_sub head_2 _ head_2_writes (r := main_v1) (by decide),
    StableHlo.after_of_writes_sub head_call1 _ head_call1_writes (r := main_v1) (by decide),
    StableHlo.after_of_writes_sub head_1 _ head_1_writes (r := main_v1) (by decide),
    StableHlo.after_of_writes_sub head_call0 _ head_call0_writes (r := main_v1) (by decide)]
  after_results_simp
  rfl

/-- After the head's operations %3 holds row 1 of the edge list. -/
theorem dstR_eq (V : Valuation τ sig (Elt Ideal)) :
    StableHlo.after (headOps (F := Ideal)) V (Proc.devRef .tc main_v3)
      = Cert.KernelIdeal.Hand.dstOf (V (Proc.devRef .tc main_arg1)) := by
  rw [after_headOps,
    StableHlo.after_of_writes_sub head_call2 _ head_call2_writes (r := main_v3) (by decide),
    StableHlo.after_of_writes_sub head_2 _ head_2_writes (r := main_v3) (by decide),
    StableHlo.after_of_writes_sub head_call1 _ head_call1_writes (r := main_v3) (by decide),
    StableHlo.after_of_writes_sub head_1 _ head_1_writes (r := main_v3) (by decide),
    StableHlo.after_of_writes_sub head_call0 _ head_call0_writes (r := main_v3) (by decide)]
  after_results_simp
  rfl

end Cert.ReferenceIdeal.Hand

end
-- ==== Proof.TailR.lean ====
import proofs.«154459_j82652350644592_1_alg».proof.Proof.TailDef
import proofs.«154459_j82652350644592_1_alg».proof.Proof.RefOps
import proofs.«154459_j82652350644592_1_alg».proof.Proof.LibAfter

/-!
# The reference's tail, read back as the same `Tail`

From the product of its features buffer `main_v44` with the first convolution's weight on, the reference program runs,
operation for operation, what the kernel program runs after its region: a graph convolution, an ELU call, the second
convolution with the edge gather and the link predictor's first layer, a second ELU call and the predictor's last
layer. Each of the five stretches of its operation list is read back as the matching stretch of `TailDef` (stated
over the kernel program's shapes and dimension records, which are the reference's by value), each buffer a later
stretch reads is carried back unchanged, and the five compose to the kernel side's function `Tail` of the contents
before the first stretch.
-/

noncomputable section

namespace Cert.ReferenceIdeal.Hand

open Cert.ReferenceIdeal Cert.ReferenceIdeal.Gen
open Idealize.ShloMosaic Idealize.ShloMosaic.TcCoe Idealize.ShloMosaic.StableHlo
open Cert.KernelIdeal.Hand (Tail tailConv1 tailElu1 tailConv2 tailElu2 tailPred2)
open Cert.Lib

attribute [local congr] concatenate_pair_congr

/-! ## Each stretch's result -/

/-- The stretch before the first ELU call: its result buffer holds the first convolution of what it read. -/
theorem tailA_eq (V : Valuation τ sig (Elt Ideal)) :
    StableHlo.after tailA V (Proc.devRef .tc main_v86)
      = tailConv1 (V (Proc.devRef .tc main_v44)) (V (Proc.devRef .tc main_v1)) (V (Proc.devRef .tc main_v3))
          (V (Proc.devRef .tc main_arg11)) (V (Proc.devRef .tc main_arg12)) := by
  dsimp only [tailA, tail_0, tail_1, List.cons_append, List.nil_append]
  after_results_simp
  rfl

/-- The first ELU call's result buffer holds the ELU of its argument buffer. -/
theorem tail_call3_eq (V : Valuation τ sig (Elt Ideal)) :
    StableHlo.after tail_call3 V (Proc.devRef .tc main_v87) = tailElu1 (V (Proc.devRef .tc main_v86)) := by
  dsimp only [tail_call3]
  after_results_simp
  rfl

set_option maxHeartbeats 4000000 in
/-- The stretch between the calls: the second convolution, the selected edges' end rows and the predictor's first layer. -/
theorem tailB_eq (V : Valuation τ sig (Elt Ideal)) :
    StableHlo.after tailB V (Proc.devRef .tc main_v159)
      = tailConv2 (V (Proc.devRef .tc main_v87)) (V (Proc.devRef .tc main_v1)) (V (Proc.devRef .tc main_v3))
          (V (Proc.devRef .tc main_arg1)) (V (Proc.devRef .tc main_arg2))
          (V (Proc.devRef .tc main_arg13)) (V (Proc.devRef .tc main_arg14))
          (V (Proc.devRef .tc main_arg15)) (V (Proc.devRef .tc main_arg16)) := by
  dsimp only [tailB, tail_2, tail_3, tail_4, List.cons_append, List.nil_append]
  after_results_simp
  rfl

/-- The second ELU call's result buffer holds the ELU of its argument buffer. -/
theorem tail_call4_eq (V : Valuation τ sig (Elt Ideal)) :
    StableHlo.after tail_call4 V (Proc.devRef .tc main_v160) = tailElu2 (V (Proc.devRef .tc main_v159)) := by
  dsimp only [tail_call4]
  after_results_simp
  rfl

/-- The last stretch's result buffer holds the predictor's second layer. -/
theorem tail_5_eq (V : Valuation τ sig (Elt Ideal)) :
    StableHlo.after tail_5 V (Proc.devRef .tc main_v164)
      = tailPred2 (V (Proc.devRef .tc main_v160)) (V (Proc.devRef .tc main_arg17)) (V (Proc.devRef .tc main_arg18)) := by
  dsimp only [tail_5]
  after_results_simp
  rfl

/-! ## What each stretch leaves alone

A later stretch reads the edge lists, the edge table, the selection and the weights from buffers no earlier stretch
writes: each holds after the stretch what it held before. One statement per stretch and buffer. -/

/-- `keeps_thm name ops r`: the line `ops` leaves the buffer `r`, which none of its operations writes, as it was. -/
local macro "keeps_thm " n:ident l:ident r:ident : command =>
  `(theorem $n (V : Valuation τ sig (Elt Ideal)) :
      StableHlo.after $l V (Proc.devRef .tc $r) = V (Proc.devRef .tc $r) := by
    dsimp only [tailA, tail_0, tail_1, tail_call3, tailB, tail_2, tail_3, tail_4, tail_call4, List.cons_append,
      List.nil_append]
    after_results_simp)

keeps_thm tailA_keeps_v1 tailA main_v1
keeps_thm tailA_keeps_v3 tailA main_v3
keeps_thm tailA_keeps_arg1 tailA main_arg1
keeps_thm tailA_keeps_arg2 tailA main_arg2
keeps_thm tailA_keeps_arg13 tailA main_arg13
keeps_thm tailA_keeps_arg14 tailA main_arg14
keeps_thm tailA_keeps_arg15 tailA main_arg15
keeps_thm tailA_keeps_arg16 tailA main_arg16
keeps_thm tailA_keeps_arg17 tailA main_arg17
keeps_thm tailA_keeps_arg18 tailA main_arg18

keeps_thm tail_call3_keeps_v1 tail_call3 main_v1
keeps_thm tail_call3_keeps_v3 tail_call3 main_v3
keeps_thm tail_call3_keeps_arg1 tail_call3 main_arg1
keeps_thm tail_call3_keeps_arg2 tail_call3 main_arg2
keeps_thm tail_call3_keeps_arg13 tail_call3 main_arg13
keeps_thm tail_call3_keeps_arg14 tail_call3 main_arg14
keeps_thm tail_call3_keeps_arg15 tail_call3 main_arg15
keeps_thm tail_call3_keeps_arg16 tail_call3 main_arg16
keeps_thm tail_call3_keeps_arg17 tail_call3 main_arg17
keeps_thm tail_call3_keeps_arg18 tail_call3 main_arg18

set_option maxHeartbeats 4000000 in
keeps_thm tailB_keeps_arg17 tailB main_arg17
set_option maxHeartbeats 4000000 in
keeps_thm tailB_keeps_arg18 tailB main_arg18

keeps_thm tail_call4_keeps_arg17 tail_call4 main_arg17
keeps_thm tail_call4_keeps_arg18 tail_call4 main_arg18

/-! ## The whole tail -/

/-- After the reference's last 174 operations, run in order from any contents `W`, its result buffer holds `Tail` —
    the same function the kernel program's tail is — of what `W` had in the pooled-and-normalised features' buffer,
    the edge lists, the edge table, the selection and the weights. -/
theorem tailR_eq (W : Valuation τ sig (Elt Ideal)) :
    StableHlo.after tailOps W (Proc.devRef .tc main_v164)
      = Tail (W (Proc.devRef .tc main_v44)) (W (Proc.devRef .tc main_v1)) (W (Proc.devRef .tc main_v3))
          (W (Proc.devRef .tc main_arg1)) (W (Proc.devRef .tc main_arg2))
          (W (Proc.devRef .tc main_arg11)) (W (Proc.devRef .tc main_arg12)) (W (Proc.devRef .tc main_arg13))
          (W (Proc.devRef .tc main_arg14)) (W (Proc.devRef .tc main_arg15)) (W (Proc.devRef .tc main_arg16))
          (W (Proc.devRef .tc main_arg17)) (W (Proc.devRef .tc main_arg18)) := by
  unfold tailOps
  rw [after_append (tailA ++ tail_call3 ++ tailB ++ tail_call4) tail_5, after_append (tailA ++ tail_call3 ++ tailB) tail_call4,
    after_append (tailA ++ tail_call3) tailB, after_append tailA tail_call3]
  -- each stretch's result, last stretch first
  rw [tail_5_eq, tail_call4_eq, tailB_eq, tail_call3_eq, tailA_eq]
  -- the last layer's weight and bias, back through four stretches
  rw [tail_call4_keeps_arg17, tail_call4_keeps_arg18, tailB_keeps_arg17, tailB_keeps_arg18,
    tail_call3_keeps_arg17, tail_call3_keeps_arg18, tailA_keeps_arg17, tailA_keeps_arg18]
  -- what the stretch between the calls read, back through two
  rw [tail_call3_keeps_v1, tail_call3_keeps_v3, tail_call3_keeps_arg1, tail_call3_keeps_arg2, tail_call3_keeps_arg13,
    tail_call3_keeps_arg14, tail_call3_keeps_arg15, tail_call3_keeps_arg16,
    tailA_keeps_v1, tailA_keeps_v3, tailA_keeps_arg1, tailA_keeps_arg2, tailA_keeps_arg13,
    tailA_keeps_arg14, tailA_keeps_arg15, tailA_keeps_arg16]
  rfl

end Cert.ReferenceIdeal.Hand

end
-- ==== Proof.RRun.lean ====
/-
  The idealized reference program's run, read: at the end the result buffer holds `Whole` of the argument arrays (the same
  function the kernel program's result is) and the arguments are unchanged.

  The program is a straight line of host operations, so every buffer ends at the line's fold over the launch contents.
  The line splits into the head — whose result is `Hd` of the arguments, and which also writes the two rows of the edge
  list — and the tail, which is the kernel program's tail operation for operation.
-/
import proofs.«154459_j82652350644592_1_alg».proof.Proof.RefRun
import proofs.«154459_j82652350644592_1_alg».proof.Proof.RefHead
import proofs.«154459_j82652350644592_1_alg».proof.Proof.RefHeadRun
import proofs.«154459_j82652350644592_1_alg».proof.Proof.TailR
import proofs.«154459_j82652350644592_1_alg».proof.Proof.Whole

noncomputable section

namespace Cert.ReferenceIdeal.Hand

open Idealize.ShloMosaic Idealize.ShloMosaic.TcCoe Idealize.SL.Sem Idealize.ShloMosaic.StableHlo
open Cert.ReferenceIdeal

/-- The result buffer after the whole line, from any contents `V`: `Whole` of the arguments in `V`. -/
theorem result_eq (V : Valuation τ sig (Elt Ideal)) :
    StableHlo.after (headOps ++ tailOps) V (Proc.devRef .tc main_v164)
      = Cert.KernelIdeal.Hand.Whole (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  rw [after_append' headOps tailOps V]
  generalize hW : StableHlo.after headOps V = W
  refine (tailR_eq W).trans ?_
  have hh : W (Proc.devRef .tc main_v44)
      = Cert.Spec.Hd (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
    subst hW
    exact (headR_eq V).trans (refHead_eq _ _ _ _ _ _ _ _ _)
  have hs : W (Proc.devRef .tc main_v1) = Cert.KernelIdeal.Hand.srcOf (V (Proc.devRef .tc main_arg1)) := by
    subst hW; exact srcR_eq V
  have hd : W (Proc.devRef .tc main_v3) = Cert.KernelIdeal.Hand.dstOf (V (Proc.devRef .tc main_arg1)) := by
    subst hW; exact dstR_eq V
  have e1 : W (Proc.devRef .tc main_arg1) = (V (Proc.devRef .tc main_arg1)) := by subst hW; exact keptHead_main_arg1 V
  have e2 : W (Proc.devRef .tc main_arg2) = (V (Proc.devRef .tc main_arg2)) := by subst hW; exact keptHead_main_arg2 V
  have e11 : W (Proc.devRef .tc main_arg11) = (V (Proc.devRef .tc main_arg11)) := by subst hW; exact keptHead_main_arg11 V
  have e12 : W (Proc.devRef .tc main_arg12) = (V (Proc.devRef .tc main_arg12)) := by subst hW; exact keptHead_main_arg12 V
  have e13 : W (Proc.devRef .tc main_arg13) = (V (Proc.devRef .tc main_arg13)) := by subst hW; exact keptHead_main_arg13 V
  have e14 : W (Proc.devRef .tc main_arg14) = (V (Proc.devRef .tc main_arg14)) := by subst hW; exact keptHead_main_arg14 V
  have e15 : W (Proc.devRef .tc main_arg15) = (V (Proc.devRef .tc main_arg15)) := by subst hW; exact keptHead_main_arg15 V
  have e16 : W (Proc.devRef .tc main_arg16) = (V (Proc.devRef .tc main_arg16)) := by subst hW; exact keptHead_main_arg16 V
  have e17 : W (Proc.devRef .tc main_arg17) = (V (Proc.devRef .tc main_arg17)) := by subst hW; exact keptHead_main_arg17 V
  have e18 : W (Proc.devRef .tc main_arg18) = (V (Proc.devRef .tc main_arg18)) := by subst hW; exact keptHead_main_arg18 V
  rw [hh, hs, hd, e1, e2, e11, e12, e13, e14, e15, e16, e17, e18]
  rfl

/-- Every weakly fair execution of the idealized reference program terminates with the result at `Whole` of the arguments
    and the arguments unchanged. -/
theorem runR (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v164) = Cert.KernelIdeal.Hand.Whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
      ⟨(h c main_v164).trans (result_eq (StableHlo.launchContents m c)),
        (h c main_arg0).trans (kept_main_arg0 _),
        (h c main_arg1).trans (kept_main_arg1 _),
        (h c main_arg2).trans (kept_main_arg2 _),
        (h c main_arg3).trans (kept_main_arg3 _),
        (h c main_arg4).trans (kept_main_arg4 _),
        (h c main_arg5).trans (kept_main_arg5 _),
        (h c main_arg6).trans (kept_main_arg6 _),
        (h c main_arg7).trans (kept_main_arg7 _),
        (h c main_arg8).trans (kept_main_arg8 _),
        (h c main_arg9).trans (kept_main_arg9 _),
        (h c main_arg10).trans (kept_main_arg10 _),
        (h c main_arg11).trans (kept_main_arg11 _),
        (h c main_arg12).trans (kept_main_arg12 _),
        (h c main_arg13).trans (kept_main_arg13 _),
        (h c main_arg14).trans (kept_main_arg14 _),
        (h c main_arg15).trans (kept_main_arg15 _),
        (h c main_arg16).trans (kept_main_arg16 _),
        (h c main_arg17).trans (kept_main_arg17 _),
        (h c main_arg18).trans (kept_main_arg18 _)⟩)
    (run_all m ρ)

end Cert.ReferenceIdeal.Hand

end
-- ==== Proof.lean ====
/-
  The certificate: the Pallas kernel program (max-pooling of adjacent pairs, layer normalisation and three dense layers
  with ELU fused into one region over blocks of a thousand rows, followed on the host by two graph convolutions, the edge
  gather and a two-layer link predictor) against its jnp reference.

  Frames. The kernel program's region loads whole staging buffers and stores its one result block whole; the host lines
  after it write only their own result buffers, never an array of the region or an argument. So each execution ends with
  the arguments as launched — at the word level and at the ideal values alike (one text, two namespaces). The reference is a
  straight line of host operations none of which writes an argument.

  Values, on the extended reals. Row by row the region computes the same function `Cert.Spec.row` the reference's first
  lines compute on the whole array: a change of float format is the identity, a matrix product into a zero accumulator is
  the host's dot product, and the kernel's `exp y - 1` is the host's `1 * expm1 y` where the argument is not positive. No
  law used needs finite entries, so the precondition is never opened. From there on both programs run the same host
  operations on equal values (`Tail`), so both results are `Whole` of the arguments.

  The idealization rewrote nothing, so `preserves` is trivial.
-/
import proofs.«154459_j82652350644592_1_alg».proof.Defs
import proofs.«154459_j82652350644592_1_alg».proof.Proof.Gen.Pre_finite_inputs
import proofs.«154459_j82652350644592_1_alg».proof.Proof.BFrame
import proofs.«154459_j82652350644592_1_alg».proof.Proof.KRun
import proofs.«154459_j82652350644592_1_alg».proof.Proof.RRun

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ => Cert.ReferenceIdeal.Hand.frame m ρ

/-- Both results are `Whole` of arguments that agree. -/
theorem algebraic : Cert.algebraic_KernelIdeal_ReferenceIdeal := by
  intro m ρ m' ρ' _ hagree
  refine ⟨_, Cert.KernelIdeal.Hand.runK m ρ, ?_⟩
  refine (θ_run Cert.ReferenceIdeal.defs _ _).mono (fun r h c => ⟨(h c).1.trans ?_, (h c).2⟩)
    (Cert.ReferenceIdeal.Hand.runR m' ρ')
  obtain ⟨e0, e1, e2, e3, e4, e5, e6, e7, e8, e9, e10, e11, e12, e13, e14, e15, e16, e17, e18⟩ := hagree c
  rw [e0, e1, e2, e3, e4, e5, e6, e7, e8, e9, e10, e11, e12, e13, e14, e15, e16, e17, e18]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
